-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S65536x256 .f32) (main_arg1 : FVec F S65536x256 .f32) (main_arg2 : IVec S65536 32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg2 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_c_4 : IVec S_ 32 := constantI S_ 32 256#32
  let main_v13 : IVec S65536 32 := broadcastInDim S65536 ![] bcast_S_S65536 main_c_4
  let main_v14 : IVec S65536 1 := cmpi .slt main_arg2 main_v13
  let main_c_5 : IVec S_ 1 := constantI S_ 1 1#1
  let main_v15 : IVec S_ 1 := (fun x v => Host.reduce IntOp.andi x v reducesTo_S65536_S_d0 h_S_) main_v14 main_c_5
  fn_part1 (F := F) main_v12 main_v15
-- ==== Kernel.lean ====
abbrev S65536x256 : Shape := ⟨2, ![65536, 256]⟩
abbrev S65536 : Shape := ⟨1, ![65536]⟩
abbrev S65536x1 : Shape := ⟨2, ![65536, 1]⟩
abbrev S2x256x256 : Shape := ⟨3, ![2, 256, 256]⟩
abbrev S2x1x256 : Shape := ⟨3, ![2, 1, 256]⟩
abbrev S2048x256 : Shape := ⟨2, ![2048, 256]⟩
abbrev S2048x1 : Shape := ⟨2, ![2048, 1]⟩
abbrev S1x256x256 : Shape := ⟨3, ![1, 256, 256]⟩
abbrev S1x1x256 : Shape := ⟨3, ![1, 1, 256]⟩
abbrev S256x256 : Shape := ⟨2, ![256, 256]⟩
abbrev S1x256 : Shape := ⟨2, ![1, 256]⟩
abbrev S2048 : Shape := ⟨1, ![2048]⟩
abbrev S256 : Shape := ⟨1, ![256]⟩
abbrev S_ : Shape := ⟨0, ![]⟩
abbrev S256x1 : Shape := ⟨2, ![256, 1]⟩
abbrev S2x1x1 : Shape := ⟨3, ![2, 1, 1]⟩
abbrev S1x1x1 : Shape := ⟨3, ![1, 1, 1]⟩
abbrev S1x1 : Shape := ⟨2, ![1, 1]⟩
abbrev S1 : Shape := ⟨1, ![1]⟩

abbrev nBuf : Space → Nat
  | .hbm => 23
  | .vmem => 22
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536, .i32⟩
  | .hbm, ⟨3, _⟩ => ⟨S65536x1, .i32⟩
  | .hbm, ⟨4, _⟩ => ⟨S2x256x256, .f32⟩
  | .hbm, ⟨5, _⟩ => ⟨S2x1x256, .f32⟩
  | .hbm, ⟨6, _⟩ => ⟨S_, .f32⟩
  | .hbm, ⟨7, _⟩ => ⟨S256x256, .f32⟩
  | .hbm, ⟨8, _⟩ => ⟨S_, .f32⟩
  | .hbm, ⟨9, _⟩ => ⟨S1x256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x256, .f32⟩
  | .hbm, ⟨15, _⟩ => ⟨S256x256, .f32⟩
  | .hbm, ⟨16, _⟩ => ⟨S256x256, .bf16⟩
  | .hbm, ⟨17, _⟩ => ⟨S2x1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x1, .i32⟩
  | .local _ .vmem, ⟨5, _⟩ => ⟨S2048x1, .i32⟩
  | .local _ .vmem, ⟨6, _⟩ => ⟨S1x256x256, .f32⟩
  | .local _ .vmem, ⟨7, _⟩ => ⟨S1x256x256, .f32⟩
  | .local _ .vmem, ⟨8, _⟩ => ⟨S1x1x256, .f32⟩
  | .local _ .vmem, ⟨9, _⟩ => ⟨S1x1x256, .f32⟩
  | .local _ .vmem, ⟨10, _⟩ => ⟨S256x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x1, .i32⟩
  | .local _ .vmem, ⟨17, _⟩ => ⟨S2048x1, .i32⟩
  | .local _ .vmem, ⟨18, _⟩ => ⟨S256x256, .bf16⟩
  | .local _ .vmem, ⟨19, _⟩ => ⟨S1x1x1, .f32⟩
  | .local _ .vmem, ⟨20, _⟩ => ⟨S1x1x1, .f32⟩
  | .local _ .vmem, ⟨21, _⟩ => ⟨S1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v68 : BitVec 1 := Scalar.cmpi .eq arg1 c15_i32
  let v69 : BitVec 32 := Scalar.extui v68
  let c0_i32_27 : BitVec 32 := 0#32
  let v70 : BitVec 1 := Scalar.cmpi .ne v69 c0_i32_27
  v70

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S65536_S65536x1 : S65536.ShapeCasts S65536x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x256_S2048 : S2048x256.Reduces [1] S2048
  shapeCasts_S2048_S2048x1 : S2048.ShapeCasts S2048x1
  broadcasts_S2048x1_S2048x256 : S2048x1.Broadcasts S2048x256
  iota_S2048x256_d1_w32 : S2048x256.Iotas .tc 32 [1]
  reduces_S2048x256_S256 : S2048x256.Reduces [0] S256
  shapeCasts_S256_S1x256 : S256.ShapeCasts S1x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reducesTo_S2x256x256_S256x256_d0 : S2x256x256.ReducesTo [0] S256x256
  h_S_ : 0 < S_.numel
  reducesTo_S2x1x256_S1x256_d0 : S2x1x256.ReducesTo [0] S1x256
  shapeCasts_S1x256_S256x1 : S1x256.ShapeCasts S256x1
  bcast_S_S256x1 : S_.BroadcastsInDim S256x1 (![] : Fin 0 → Fin S256x1.rank)
  bcast_S256x1_S256x256_0_1 : S256x1.BroadcastsInDim S256x256 (![0, 1] : Fin 2 → Fin S256x256.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S2048x1_S1 : S2048x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  dot_S2048x256_S2048x256_S256x256_0_0_1_1_n_n_wf : DotDims.WF S2048x256 S2048x256 S256x256 [0] [0] [1] [1] [] []
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .i32 = 32 ∨ (Rect.block (s := S65536x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S2x256x256.size a
  hwx0_3 : ∀ i : grid0.Coords, EltTy.bits .f32 = 32 ∨ (Rect.block (s := S2x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x256.size a
  hwx0_4 : ∀ i : grid0.Coords, EltTy.bits .f32 = 32 ∨ (Rect.block (s := S2x1x256) S1x1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S65536x256.size a
  hwx1_1 : ∀ i : grid1.Coords, EltTy.bits .f32 = 32 ∨ (Rect.block (s := S65536x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S65536x1.size a
  hwx1_2 : ∀ i : grid1.Coords, EltTy.bits .i32 = 32 ∨ (Rect.block (s := S65536x1) S2048x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)

variable [Facts₀]

def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S65536x256 : Shape := ⟨2, ![65536, 256]⟩
abbrev S65536 : Shape := ⟨1, ![65536]⟩
abbrev S131072 : Shape := ⟨1, ![131072]⟩
abbrev S_ : Shape := ⟨0, ![]⟩
abbrev S65536x1 : Shape := ⟨2, ![65536, 1]⟩
abbrev S131072x256 : Shape := ⟨2, ![131072, 256]⟩
abbrev S256x256 : Shape := ⟨2, ![256, 256]⟩
abbrev S131072x1 : Shape := ⟨2, ![131072, 1]⟩
abbrev S256 : Shape := ⟨1, ![256]⟩
abbrev S256x1 : Shape := ⟨2, ![256, 1]⟩

abbrev nBuf : Space → Nat
  | .hbm => 74
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536, .i32⟩
  | .hbm, ⟨3, _⟩ => ⟨S131072, .i32⟩
  | .hbm, ⟨4, _⟩ => ⟨S65536x256, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x256, .f32⟩
  | .hbm, ⟨23, _⟩ => ⟨S65536x256, .f32⟩
  | .hbm, ⟨24, _⟩ => ⟨S131072x256, .f32⟩
  | .hbm, ⟨25, _⟩ => ⟨S_, .f32⟩
  | .hbm, ⟨26, _⟩ => ⟨S256x256, .f32⟩
  | .hbm, ⟨27, _⟩ => ⟨S131072x1, .i32⟩
  | .hbm, ⟨28, _⟩ => ⟨S256x256, .f32⟩
  | .hbm, ⟨29, _⟩ => ⟨S_, .f32⟩
  | .hbm, ⟨30, _⟩ => ⟨S131072, .f32⟩
  | .hbm, ⟨31, _⟩ => ⟨S_, .f32⟩
  | .hbm, ⟨32, _⟩ => ⟨S256, .f32⟩
  | .hbm, ⟨33, _⟩ => ⟨S131072x1, .i32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256x1, .f32⟩
  | .hbm, ⟨39, _⟩ => ⟨S256x256, .f32⟩
  | .hbm, ⟨40, _⟩ => ⟨S256x256, .f32⟩
  | .hbm, ⟨41, _⟩ => ⟨S_, .i32⟩
  | .hbm, ⟨42, _⟩ => ⟨S131072, .i32⟩
  | .hbm, ⟨43, _⟩ => ⟨S131072, .i1⟩
  | .hbm, ⟨44, _⟩ => ⟨S_, .i32⟩
  | .hbm, ⟨45, _⟩ => ⟨S131072, .i32⟩
  | .hbm, ⟨46, _⟩ => ⟨S131072, .i32⟩
  | .hbm, ⟨47, _⟩ => ⟨S131072, .i32⟩
  | .hbm, ⟨48, _⟩ => ⟨S131072x1, .i32⟩
  | .hbm, ⟨49, _⟩ => ⟨S131072x256, .f32⟩
  | .hbm, ⟨50, _⟩ => ⟨S131072x256, .f32⟩
  | .hbm, ⟨51, _⟩ => ⟨S_, .f32⟩
  | .hbm, ⟨52, _⟩ => ⟨S131072, .f32⟩
  | .hbm, ⟨53, _⟩ => ⟨S_, .f32⟩
  | .hbm, ⟨54, _⟩ => ⟨S131072, .f32⟩
  | .hbm, ⟨55, _⟩ => ⟨S131072, .f32⟩
  | .hbm, ⟨56, _⟩ => ⟨S256x256, .f32⟩
  | .hbm, ⟨57, _⟩ => ⟨S131072x256, .f32⟩
  | .hbm, ⟨58, _⟩ => ⟨S_, .f32⟩
  | .hbm, ⟨59, _⟩ => ⟨S131072x256, .f32⟩
  | .hbm, ⟨60, _⟩ => ⟨S131072x256, .f32⟩
  | .hbm, ⟨61, _⟩ => ⟨S131072x1, .f32⟩
  | .hbm, ⟨62, _⟩ => ⟨S131072x256, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S131072, .f32⟩
  | .hbm, ⟨67, _⟩ => ⟨S131072, .f32⟩
  | .hbm, ⟨68, _⟩ => ⟨S131072, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  concatenates_S65536_S65536_S131072_d0 : Shape.Concatenates [S65536, S65536] S131072 0
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  concatenates_S65536x256_S65536x256_S131072x256_d0 : Shape.Concatenates [S65536x256, S65536x256] S131072x256 0
  bcast_S_S256x256 : S_.BroadcastsInDim S256x256 (![] : Fin 0 → Fin S256x256.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  reducesTo_S131072x256_S131072_d1 : S131072x256.ReducesTo [1] S131072
  transposes_S256x256_S256x256_1_0 : S256x256.Transposes [1, 0] S256x256
  bcast_S_S131072x256 : S_.BroadcastsInDim S131072x256 (![] : Fin 0 → Fin S131072x256.rank)
  bcast_S131072x1_S131072x256_0_1 : S131072x1.BroadcastsInDim S131072x256 (![0, 1] : Fin 2 → Fin S131072x256.rank)
  reducesTo_S131072_S_d0 : S131072.ReducesTo [0] S_
  scatter_S256x256_S131072x1_S131072x256_1_0_0_1_wf : ScatterDims.WF S256x256 S131072x1 S131072x256 [1] [0] [0] 1
  scatter_S256_S131072x1_S131072_n_0_0_1_wf : ScatterDims.WF S256 S131072x1 S131072 [] [0] [0] 1
  gather_S256x256_S131072x1_S131072x256_1_0_n_n_0_1_1256_wf : GatherDims.WF S256x256 S131072x1 S131072x256 [1] [0] [] [0] [] 1 ![1, 256]
  dot_S131072x256_S256x256_S131072x256_1_0_0_1_n_n_wf : DotDims.WF S131072x256 S256x256 S131072x256 [1] [0] [0] [1] [] []

variable [Facts₀]

def scatter_S256x256_S131072x1_S131072x256_1_0_0_1 : ScatterDims S256x256 S131072x1 S131072x256 where
  updateWindowDims := [1]
  insertedWindowDims := [0]
  scatterDimsToOperandDims := [0]
  indexVectorDim := 1
  wf := scatter_S256x256_S131072x1_S131072x256_1_0_0_1_wf
def scatter_S256_S131072x1_S131072_n_0_0_1 : ScatterDims S256 S131072x1 S131072 where
  updateWindowDims := []
  insertedWindowDims := [0]
  scatterDimsToOperandDims := [0]
  indexVectorDim := 1
  wf := scatter_S256_S131072x1_S131072_n_0_0_1_wf
def gather_S256x256_S131072x1_S131072x256_1_0_n_n_0_1_1256 : GatherDims S256x256 S131072x1 S131072x256 where
  offsetDims := [1]
  collapsedSliceDims := [0]
  operandBatchingDims := []
  startIndicesBatchingDims := []
  startIndexMap := [0]
  indexVectorDim := 1
  sliceSizes := ![1, 256]
  wf := gather_S256x256_S131072x1_S131072x256_1_0_n_n_0_1_1256_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf

class Facts : Prop extends Facts₀ where

variable [Facts]
-- ==== Proof.K.Dat.lean ====
/-
  What the two regions of the kernel program compute, as definitions only (no proofs), at any float instance and at
  any contents `V` of the TensorCore's buffers when a region is entered.

  Region 0 (grid 2 × 16, point t = 16·core + tile) reads at point t the 2048-row blocks number t of z1, z2 and of the
  labels column, and keeps two accumulators across the 16 tiles of a core: a 256 × 256 array (per class, the sum of
  the normalised rows of that class) and a 1 × 256 array (twice the number of rows per class). Both are reset to zero
  at tile 0 and copied to the core's slab of the two results at tile 15.  Region 1 has the same schedule, reads the
  class-means table whole beside the three blocks, and keeps one 1 × 1 accumulator (the sum of the rows' log
  probabilities), copied to the core's entry of its result at tile 15.
-/
import proofs.«413172_j20023137534376_3_alg».proof.Proof.Gen.Kernel.Launch
import proofs.«413172_j20023137534376_3_alg».proof.Proof.Gen.Kernel.Skeleton
import proofs.«413172_j20023137534376_3_alg».proof.Proof.Gen.Kernel.Points
import Idealize.ShloMosaic.Lib.Pipeline.FrameBody
import Idealize.ShloMosaic.Lib.Pipeline.Kit
import Idealize.ShloMosaic.Lib.ValueIdx

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

-- The TensorCore's buffer contents when a region is entered: the parameter everything here is stated at.
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks of point `t` at their literal types: 2048 rows of z1, of z2, of the labels column. -/
abbrev x1b0 (c : Dev nD) (t : Fin cfg0.N) : Vec F S2048x256 .f32 := iblk0 V c 0 t
abbrev x2b0 (c : Dev nD) (t : Fin cfg0.N) : Vec F S2048x256 .f32 := iblk0 V c 1 t
abbrev lb0 (c : Dev nD) (t : Fin cfg0.N) : Vec F S2048x1 .i32 := iblk0 V c 2 t

/-- The two accumulators: per-class sums (256 × 256) and per-class doubled counts (1 × 256). -/
abbrev Sc0 (F : FTy → Type) [FloatOps F] : Type := Vec F S256x256 .f32 × Vec F S1x256 .f32

/-- Both accumulators at zero. -/
def init0 : Sc0 F := (k0_pay5, k0_pay6)

/-- One point's update: the tile's per-class sums added to the first, twice the tile's per-class counts to the second. -/
def step0 (s : Sc0 F) (x1 x2 : Vec F S2048x256 .f32) (l : Vec F S2048x1 .i32) : Sc0 F :=
  (k0_pay1 s.1 (k0_pay9 x1 x2 l), k0_pay2 (k0_pay8 l) s.2)

/-- The accumulators after point `n`: restarted from zero at the first tile of a core. -/
def sAt0 (c : Dev nD) : (n : ℕ) → n < cfg0.N → Sc0 F
  | 0, hn => step0 init0 (x1b0 V c ⟨0, hn⟩) (x2b0 V c ⟨0, hn⟩) (lb0 V c ⟨0, hn⟩)
  | n + 1, hn =>
    if (n + 1) % 16 = 0 then step0 init0 (x1b0 V c ⟨n + 1, hn⟩) (x2b0 V c ⟨n + 1, hn⟩) (lb0 V c ⟨n + 1, hn⟩)
    else step0 (sAt0 c n (Nat.lt_of_succ_lt hn)) (x1b0 V c ⟨n + 1, hn⟩) (x2b0 V c ⟨n + 1, hn⟩) (lb0 V c ⟨n + 1, hn⟩)

/-- The proof data of region 0, the invariant `Φ` a parameter: the arrays as found; each input's buffer at its block;
    each result's buffer at the accumulator of the point, re-laid with a leading unit axis. -/
def dat0 (Φ : Dev nD → Fin (cfg0.N + 1) → sProp 𝕄) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (sAt0 V c t.val t.isLt).1
    | ⟨4, _⟩ => k0_pay4 (sAt0 V c t.val t.isLt).2
  Φ := Φ c
  q _ := fullShare
  owed _ := 0

/-- The accumulators a core ends with (after its tile 15). -/
def fin0 (c : Dev nD) (k : Fin 2) : Sc0 F :=
  sAt0 V c (16 * k.val + 15) (by have := k.isLt; have hN : cfg0.N = 32 := N_0; omega)

/-- What region 0 leaves in its two result arrays: core `k`'s slab is that core's final accumulator. -/
def G3 (c : Dev nD) : (⟨S2x256x256, .f32⟩ : BufTy).Contents (Elt F) :=
  fun i => (fin0 V c (i 0)).1 (ValueIdx.ix2 (i 1) (i 2))
def G4 (c : Dev nD) : (⟨S2x1x256, .f32⟩ : BufTy).Contents (Elt F) :=
  fun i => (fin0 V c (i 0)).2 (ValueIdx.ix2 (i 1) (i 2))

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks of point `t`: 2048 rows of z1, of z2, of the labels column, and the whole class-means table. -/
abbrev x1b1 (c : Dev nD) (t : Fin cfg1.N) : Vec F S2048x256 .f32 := iblk1 V c 0 t
abbrev x2b1 (c : Dev nD) (t : Fin cfg1.N) : Vec F S2048x256 .f32 := iblk1 V c 1 t
abbrev lb1 (c : Dev nD) (t : Fin cfg1.N) : Vec F S2048x1 .i32 := iblk1 V c 2 t
abbrev mub1 (c : Dev nD) (t : Fin cfg1.N) : Vec F S256x256 .bf16 := iblk1 V c 3 t

/-- One point's update of the 1 × 1 accumulator: the tile's rows' log probabilities, of both views, added to it. -/
def step1 (s : Vec F S1x1 .f32) (x1 x2 : Vec F S2048x256 .f32) (l : Vec F S2048x1 .i32) (mu : Vec F S256x256 .bf16) : Vec F S1x1 .f32 :=
  k1_pay1 (k1_pay5 x1 mu) (k1_pay6 x2 mu) (k1_pay7 l) (k1_pay8 x1 l mu) s

/-- The accumulator after point `n`: restarted from zero at the first tile of a core. -/
def sAt1 (c : Dev nD) : (n : ℕ) → n < cfg1.N → Vec F S1x1 .f32
  | 0, hn => step1 k1_pay3 (x1b1 V c ⟨0, hn⟩) (x2b1 V c ⟨0, hn⟩) (lb1 V c ⟨0, hn⟩) (mub1 V c ⟨0, hn⟩)
  | n + 1, hn =>
    if (n + 1) % 16 = 0 then step1 k1_pay3 (x1b1 V c ⟨n + 1, hn⟩) (x2b1 V c ⟨n + 1, hn⟩) (lb1 V c ⟨n + 1, hn⟩) (mub1 V c ⟨n + 1, hn⟩)
    else step1 (sAt1 c n (Nat.lt_of_succ_lt hn)) (x1b1 V c ⟨n + 1, hn⟩) (x2b1 V c ⟨n + 1, hn⟩) (lb1 V c ⟨n + 1, hn⟩) (mub1 V c ⟨n + 1, hn⟩)

/-- The proof data of region 1, the invariant `Φ` a parameter. -/
def dat1 (Φ : Dev nD → Fin (cfg1.N + 1) → sProp 𝕄) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (sAt1 V c t.val t.isLt)
  Φ := Φ c
  q _ := fullShare
  owed _ := 0

/-- The accumulator a core ends with. -/
def fin1 (c : Dev nD) (k : Fin 2) : Vec F S1x1 .f32 :=
  sAt1 V c (16 * k.val + 15) (by have := k.isLt; have hN : cfg1.N = 32 := N_1; omega)

/-- What region 1 leaves in its result array: core `k`'s entry is that core's final accumulator. -/
def G10 (c : Dev nD) : (⟨S2x1x1, .f32⟩ : BufTy).Contents (Elt F) :=
  fun i => fin1 V c (i 0) (ValueIdx.ix2 (i 1) (i 2))

end Cert.Kernel.Hand

end
-- ==== Proof.K.Region0.lean ====
/-
  Region 0 of the kernel program as the pipeline library wants it: the invariant that carries the two accumulators
  from point to point, the body's run in each of its three control cases, and the body obligation at every point.

  The grid is 2 × 16 and point t = 16·core + tile.  At tile 0 the body first stores zeros into both accumulators;
  at every tile it adds the tile's per-class sums to the first and twice the tile's per-class counts to the second;
  at tile 15 it copies both into the core's blocks of the two results, which are idle at every other tile.  So the
  accumulators after point t are `sAt0 V c t`: `step0 init0` of the point's blocks at tile 0, `step0` of what the
  point before left otherwise.
-/
import proofs.«413172_j20023137534376_3_alg».proof.Proof.K.Dat
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The control cases -/

/-- The body's first conditional (the reset), from the grid coordinates: the tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16): decided over the 32 points. -/
theorem hcond0_0 : ∀ t : Fin cfg0.N, cond0_0 (grid0.coords t) ↔ t.val % 16 = 0 :=
  (by decide +kernel : ∀ t : Fin grid0.N, cond0_0 (grid0.coords t) ↔ t.val % 16 = 0)

/-- The body's second conditional (the copy-out): the tile coordinate is 15. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The two results are idle away from tile 15, and live at it. -/
theorem idleAt0_3 : ∀ t : Fin cfg0.N, ¬t.val % 16 = 15 → cfg0.idle 3 (grid0.coords t) = true :=
  (by decide +kernel : ∀ t : Fin grid0.N, ¬t.val % 16 = 15 → cfg0.idle 3 (grid0.coords t) = true)
theorem idleAt0_4 : ∀ t : Fin cfg0.N, ¬t.val % 16 = 15 → cfg0.idle 4 (grid0.coords t) = true :=
  (by decide +kernel : ∀ t : Fin grid0.N, ¬t.val % 16 = 15 → cfg0.idle 4 (grid0.coords t) = true)
theorem liveAt0_3 : ∀ t : Fin cfg0.N, t.val % 16 = 15 → cfg0.idle 3 (grid0.coords t) = false :=
  (by decide +kernel : ∀ t : Fin grid0.N, t.val % 16 = 15 → cfg0.idle 3 (grid0.coords t) = false)
theorem liveAt0_4 : ∀ t : Fin cfg0.N, t.val % 16 = 15 → cfg0.idle 4 (grid0.coords t) = false :=
  (by decide +kernel : ∀ t : Fin grid0.N, t.val % 16 = 15 → cfg0.idle 4 (grid0.coords t) = false)
/-- Away from tile 15 their blocks are not written back. -/
theorem noFlush0_3 (t : Fin cfg0.N) (h : ¬t.val % 16 = 15) : (cfg0.win 3).flush t = false :=
  Bool.eq_false_iff.mpr fun hf => h ((flush0_3 t).mp hf)
theorem noFlush0_4 (t : Fin cfg0.N) (h : ¬t.val % 16 = 15) : (cfg0.win 4).flush t = false :=
  Bool.eq_false_iff.mpr fun hf => h ((flush0_4 t).mp hf)

/-! ## The accumulators point by point -/

/-- At the first tile of a core the accumulators restart from zero. -/
theorem sAt0_reset (c : Dev nD) (t : Fin cfg0.N) (h0 : t.val % 16 = 0) :
    sAt0 V c t.val t.isLt = step0 init0 (x1b0 V c t) (x2b0 V c t) (lb0 V c t) := by
  obtain ⟨n, hn⟩ := t
  cases n with
  | zero => rfl
  | succ n => exact (if_pos h0).trans rfl

/-- At every other tile they continue from what the point before left. -/
theorem sAt0_step (c : Dev nD) (t : Fin cfg0.N) (h0 : ¬t.val % 16 = 0) :
    sAt0 V c t.val t.isLt
      = step0 (sAt0 V c (t.val - 1) (Nat.lt_of_le_of_lt (Nat.sub_le _ _) t.isLt)) (x1b0 V c t) (x2b0 V c t) (lb0 V c t) := by
  obtain ⟨n, hn⟩ := t
  cases n with
  | zero => exact absurd (Nat.zero_mod _) h0
  | succ n => exact (if_neg h0).trans rfl

/-! ## The invariant -/

/-- The two accumulators as memrefs: whole scoped buffers of the kernel's own. -/
abbrev scM0_0 : Memref sig .tc .vmem S256x256 .f32 := Memref.whole cc0_scratch0
abbrev scM0_1 : Memref sig .tc .vmem S1x256 .f32 := Memref.whole cc0_scratch1

/-- The core's other scoped buffers that no window of this region stages (the other region's staging buffers and
    its accumulator), each at some contents: this region never touches them. -/
def other0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f))

/-- What the launch hands the region, with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ other0 (F := F) c) ∗ (∃ r, prngReg c r)) := by
  unfold Pipeline.ΦA other0; rw [scopedRest0_eq]; simp only [scM0_0, scM0_1, owns_whole]; try rfl

/-- The invariant before position `n`: what the launch hands over before the first point; afterwards the two
    accumulators at what the point before left, the other scoped buffers at some contents, and the generator
    register at some state. -/
def PhiN0 (c : Dev nD) : (n : ℕ) → n ≤ cfg0.N → sProp 𝕄
  | 0, _ => Pipeline.ΦA spec0 c
  | n + 1, hn => iprop(iprop(owns (c : Thread nD τ) scM0_0 fullShare (sAt0 V c n hn).1 ∗ owns (c : Thread nD τ) scM0_1 fullShare (sAt0 V c n hn).2 ∗ other0 (F := F) c) ∗ (∃ r, prngReg c r))

theorem PhiN0_zero (c : Dev nD) (n : ℕ) (h : n ≤ cfg0.N) (hz : n = 0) : PhiN0 V c n h = Pipeline.ΦA spec0 c := by
  subst hz; rfl

theorem PhiN0_succ (c : Dev nD) (n : ℕ) (hn : n < cfg0.N) :
    PhiN0 V c (n + 1) hn = iprop(iprop(owns (c : Thread nD τ) scM0_0 fullShare (sAt0 V c n hn).1 ∗ owns (c : Thread nD τ) scM0_1 fullShare (sAt0 V c n hn).2 ∗ other0 (F := F) c) ∗ (∃ r, prngReg c r)) := rfl

theorem PhiN0_pos (c : Dev nD) (n : ℕ) (h : n ≤ cfg0.N) (hz : n ≠ 0) :
    PhiN0 V c n h = iprop(iprop(owns (c : Thread nD τ) scM0_0 fullShare (sAt0 V c (n - 1) (by omega)).1 ∗ owns (c : Thread nD τ) scM0_1 fullShare (sAt0 V c (n - 1) (by omega)).2 ∗ other0 (F := F) c) ∗ (∃ r, prngReg c r)) := by
  cases n with
  | zero => exact absurd rfl hz
  | succ n => rfl

/-- The invariant before point `t`: before the first point the scoped buffers no window of this region stages at any
    contents and the generator register; afterwards the accumulators at what the point before left, the other such
    buffers at any contents, and the generator register. -/
def PhiS0 (c : Dev nD) (t : Fin (cfg0.N + 1)) : sProp 𝕄 :=
  PhiN0 V c t.val (Nat.le_of_lt_succ t.isLt)

/-- The proof data of region 0 with that invariant. -/
abbrev d0 (c : Dev nD) : Dat τ (Elt F) Unit ℕ (UR sig nD τ) ℕ cfg0 c := dat0 V (PhiS0 V) c

/-! ## The body's run, case by case -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- A store through the whole-shape rectangle, made last, leaves its payload in the buffer whatever was stored before. -/
theorem read_writes_unit_zero {sg : RefSig} {κ : Kind} {sp : Space} {S : Shape} {e : EltTy} (v : View sg κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons.mpr (Or.inl rfl), View.mem_set_unit_zero hz inb y⟩).trans
    (View.canon_cons_unit_zero hz inb w L)

set_option maxHeartbeats 4000000 in
/-- AT TILE 0: the accumulators hold anything; the body stores zeros into both, then the tile's update of those zeros.
    The two results are not touched. -/
theorem runA (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x1 .i32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S256x256 .f32) (harg7 : arg7.IsWhole) (arg8 : Memref sig .tc .vmem S1x256 .f32) (harg8 : arg8.IsWhole) (hc0 : cond0_0 i) (hc1 : ¬cond0_1 i)
    (x1 x2 : Vec F S2048x256 .f32) (l : Vec F S2048x1 .i32) (xi3 : Vec F S1x256x256 .f32) (xi4 : Vec F S1x1x256 .f32) (E : Set ℕ) (K : PUnit → sProp 𝕄) :
    iprop(owns (c : Thread nD τ) arg2 fullShare x1 ∗ owns (c : Thread nD τ) arg3 fullShare x2 ∗ owns (c : Thread nD τ) arg4 fullShare l
        ∗ owns (c : Thread nD τ) arg5 fullShare xi3 ∗ owns (c : Thread nD τ) arg6 fullShare xi4
        ∗ (∃ d, owns (c : Thread nD τ) arg7 fullShare d) ∗ (∃ d, owns (c : Thread nD τ) arg8 fullShare d)
        ∗ (iprop(owns (c : Thread nD τ) arg2 fullShare x1 ∗ owns (c : Thread nD τ) arg3 fullShare x2 ∗ owns (c : Thread nD τ) arg4 fullShare l
            ∗ owns (c : Thread nD τ) arg5 fullShare xi3 ∗ owns (c : Thread nD τ) arg6 fullShare xi4
            ∗ owns (c : Thread nD τ) arg7 fullShare (step0 init0 x1 x2 l).1 ∗ owns (c : Thread nD τ) arg8 fullShare (step0 init0 x1 x2 l).2) -∗ K ⟨⟩))
      ⊢ wp frame (wpE (defs₀ (F := F)) Variants.none c none) E (cc0_seg_sum_kernel i arg2 harg2 arg3 harg3 arg4 harg4 arg5 harg5 arg6 harg6 arg7 harg7 arg8 harg8) K := by
  simp only [cc0_seg_sum_kernel_eq_skeleton]; unfold cc0_seg_sum_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    sl_unfold_words
    refine (read_writes_unit_zero (F := F) _ _ hz2 _ _ _).trans ?_
    simp only [View.readCov_unit_zero (S := S256x256) _ hz2, View.readAt_eq_ld, hf2, hf3, hf4, View.ld_unit_zero (S := S256x256) hz2, View.ld_unit_zero (S := S1x256) hz2, View.ld_unit_zero (S := S2048x256) hz2, View.ld_unit_zero (S := S2048x1) hz2, step0, init0]
  iexists _; isplitr
  swap; · iexact H8
  ipureintro
  sl_unfold_words
  refine (read_writes_unit_zero (F := F) _ _ hz2 _ _ _).trans ?_
  simp only [View.readCov_unit_zero (S := S1x256) _ hz2, View.readAt_eq_ld, hf2, hf3, hf4, View.ld_unit_zero (S := S256x256) hz2, View.ld_unit_zero (S := S1x256) hz2, View.ld_unit_zero (S := S2048x256) hz2, View.ld_unit_zero (S := S2048x1) hz2, step0, init0]

set_option maxHeartbeats 4000000 in
/-- AT TILES 1 TO 14: the accumulators hold `s`; the body stores the tile's update of `s`. The two results are not
    touched. -/
theorem runB (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x1 .i32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S256x256 .f32) (harg7 : arg7.IsWhole) (arg8 : Memref sig .tc .vmem S1x256 .f32) (harg8 : arg8.IsWhole) (hc0 : ¬cond0_0 i) (hc1 : ¬cond0_1 i)
    (x1 x2 : Vec F S2048x256 .f32) (l : Vec F S2048x1 .i32) (s : Sc0 F) (xi3 : Vec F S1x256x256 .f32) (xi4 : Vec F S1x1x256 .f32) (E : Set ℕ) (K : PUnit → sProp 𝕄) :
    iprop(owns (c : Thread nD τ) arg2 fullShare x1 ∗ owns (c : Thread nD τ) arg3 fullShare x2 ∗ owns (c : Thread nD τ) arg4 fullShare l
        ∗ owns (c : Thread nD τ) arg5 fullShare xi3 ∗ owns (c : Thread nD τ) arg6 fullShare xi4
        ∗ owns (c : Thread nD τ) arg7 fullShare s.1 ∗ owns (c : Thread nD τ) arg8 fullShare s.2
        ∗ (iprop(owns (c : Thread nD τ) arg2 fullShare x1 ∗ owns (c : Thread nD τ) arg3 fullShare x2 ∗ owns (c : Thread nD τ) arg4 fullShare l
            ∗ owns (c : Thread nD τ) arg5 fullShare xi3 ∗ owns (c : Thread nD τ) arg6 fullShare xi4
            ∗ owns (c : Thread nD τ) arg7 fullShare (step0 s x1 x2 l).1 ∗ owns (c : Thread nD τ) arg8 fullShare (step0 s x1 x2 l).2) -∗ K ⟨⟩))
      ⊢ wp frame (wpE (defs₀ (F := F)) Variants.none c none) E (cc0_seg_sum_kernel i arg2 harg2 arg3 harg3 arg4 harg4 arg5 harg5 arg6 harg6 arg7 harg7 arg8 harg8) K := by
  simp only [cc0_seg_sum_kernel_eq_skeleton]; unfold cc0_seg_sum_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    sl_unfold_words
    refine (read_writes_unit_zero (F := F) _ _ hz2 _ _ _).trans ?_
    simp only [View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]
  iexists _; isplitr
  swap; · iexact H8
  ipureintro
  sl_unfold_words
  refine (read_writes_unit_zero (F := F) _ _ hz2 _ _ _).trans ?_
  simp only [View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]

set_option maxHeartbeats 4000000 in
/-- AT TILE 15: as at tiles 1 to 14, and then the body copies the updated accumulators into the two results' buffers,
    each re-laid with a leading unit axis. -/
theorem runC (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x1 .i32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S256x256 .f32) (harg7 : arg7.IsWhole) (arg8 : Memref sig .tc .vmem S1x256 .f32) (harg8 : arg8.IsWhole) (hc0 : ¬cond0_0 i) (hc1 : cond0_1 i)
    (x1 x2 : Vec F S2048x256 .f32) (l : Vec F S2048x1 .i32) (s : Sc0 F) (E : Set ℕ) (K : PUnit → sProp 𝕄) :
    iprop(owns (c : Thread nD τ) arg2 fullShare x1 ∗ owns (c : Thread nD τ) arg3 fullShare x2 ∗ owns (c : Thread nD τ) arg4 fullShare l
        ∗ (∃ d, owns (c : Thread nD τ) arg5 fullShare d) ∗ (∃ d, owns (c : Thread nD τ) arg6 fullShare d)
        ∗ owns (c : Thread nD τ) arg7 fullShare s.1 ∗ owns (c : Thread nD τ) arg8 fullShare s.2
        ∗ (iprop(owns (c : Thread nD τ) arg2 fullShare x1 ∗ owns (c : Thread nD τ) arg3 fullShare x2 ∗ owns (c : Thread nD τ) arg4 fullShare l
            ∗ owns (c : Thread nD τ) arg5 fullShare (k0_pay3 (step0 s x1 x2 l).1) ∗ owns (c : Thread nD τ) arg6 fullShare (k0_pay4 (step0 s x1 x2 l).2)
            ∗ owns (c : Thread nD τ) arg7 fullShare (step0 s x1 x2 l).1 ∗ owns (c : Thread nD τ) arg8 fullShare (step0 s x1 x2 l).2) -∗ K ⟨⟩))
      ⊢ wp frame (wpE (defs₀ (F := F)) Variants.none c none) E (cc0_seg_sum_kernel i arg2 harg2 arg3 harg3 arg4 harg4 arg5 harg5 arg6 harg6 arg7 harg7 arg8 harg8) K := by
  simp only [cc0_seg_sum_kernel_eq_skeleton]; unfold cc0_seg_sum_kernel_skel
  simp only [k0_part1_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    refine (read_writes_unit_zero (F := F) _ _ hz3 _ _ _).trans ?_
    simp only [View.readCov_unit_zero (S := S256x256) _ hz2, View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]
  isplitl [H6]
  · iexists _; isplitr
    swap; · iexact H6
    ipureintro
    sl_unfold_words
    refine (read_writes_unit_zero (F := F) _ _ hz3 _ _ _).trans ?_
    simp only [View.readCov_unit_zero (S := S1x256) _ hz2, View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]
  isplitl [H7]
  · iexists _; isplitr
    swap; · iexact H7
    ipureintro
    sl_unfold_words
    refine (read_writes_unit_zero (F := F) _ _ hz2 _ _ _).trans ?_
    simp only [View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]
  iexists _; isplitr
  swap; · iexact H8
  ipureintro
  sl_unfold_words
  refine (read_writes_unit_zero (F := F) _ _ hz2 _ _ _).trans ?_
  simp only [View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]

/-! ## The proof data read field by field -/

theorem A_eq0 (c : Dev nD) (w : Fin cfg0.W) : (d0 V c).A w = V c (Pipeline.arrRef spec0 w) := by
  dsimp only [d0, dat0]

theorem after0_0 (c : Dev nD) (t : Fin cfg0.N) : (d0 V c).after 0 t = iblk0 V c 0 t := by dsimp only [d0, dat0]
theorem after0_1 (c : Dev nD) (t : Fin cfg0.N) : (d0 V c).after 1 t = iblk0 V c 1 t := by dsimp only [d0, dat0]
theorem after0_2 (c : Dev nD) (t : Fin cfg0.N) : (d0 V c).after 2 t = iblk0 V c 2 t := by dsimp only [d0, dat0]
theorem after0_3 (c : Dev nD) (t : Fin cfg0.N) : (d0 V c).after 3 t = k0_pay3 (sAt0 V c t.val t.isLt).1 := by dsimp only [d0, dat0]
theorem after0_4 (c : Dev nD) (t : Fin cfg0.N) : (d0 V c).after 4 t = k0_pay4 (sAt0 V c t.val t.isLt).2 := by dsimp only [d0, dat0]

/-- Each input's current staging buffer holds its block at every point, fetched there or not. -/
theorem before0_0 (c : Dev nD) (t : Fin cfg0.N) (d) : (d0 V c).before 0 t d = iblk0 V c 0 t :=
  ((d0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (d0 V c).before 1 t d = iblk0 V c 1 t :=
  ((d0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (d0 V c).before 2 t d = iblk0 V c 2 t :=
  ((d0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- The invariant at a point's start and end, restated at `t.val`. -/
theorem Phi_castSucc0 (c : Dev nD) (t : Fin cfg0.N) :
    (d0 V c).Φ t.castSucc = PhiN0 V c t.val (Nat.le_of_lt t.isLt) := by
  dsimp only [d0, dat0, PhiS0]; simp only [Fin.coe_castSucc]

theorem Phi_succ0 (c : Dev nD) (t : Fin cfg0.N) :
    (d0 V c).Φ t.succ = PhiN0 V c (t.val + 1) t.isLt := rfl

/-- The inputs are live at every point: each is left at its block. -/
theorem leaves0_0 (c : Dev nD) (t : Fin cfg0.N) : (d0 V c).leavesExact 0 t = owns (c : Thread nD τ) (win0_0.stage (cfg0.slots t 0)) fullShare (iblk0 V c 0 t) := by
  unfold Dat.leavesExact; rw [liveAt0_0 t, after0_0]
theorem leaves0_1 (c : Dev nD) (t : Fin cfg0.N) : (d0 V c).leavesExact 1 t = owns (c : Thread nD τ) (win0_1.stage (cfg0.slots t 1)) fullShare (iblk0 V c 1 t) := by
  unfold Dat.leavesExact; rw [liveAt0_1 t, after0_1]
theorem leaves0_2 (c : Dev nD) (t : Fin cfg0.N) : (d0 V c).leavesExact 2 t = owns (c : Thread nD τ) (win0_2.stage (cfg0.slots t 2)) fullShare (iblk0 V c 2 t) := by
  unfold Dat.leavesExact; rw [liveAt0_2 t, after0_2]
/-- At tile 15 the two results are live: each is left at the point's accumulator, re-laid. -/
theorem leaves0_3 (c : Dev nD) (t : Fin cfg0.N) (h1 : t.val % 16 = 15) : (d0 V c).leavesExact 3 t = owns (c : Thread nD τ) (win0_3.stage (cfg0.slots t 3)) fullShare (k0_pay3 (sAt0 V c t.val t.isLt).1) := by
  unfold Dat.leavesExact; rw [liveAt0_3 t h1, after0_3]
theorem leaves0_4 (c : Dev nD) (t : Fin cfg0.N) (h1 : t.val % 16 = 15) : (d0 V c).leavesExact 4 t = owns (c : Thread nD τ) (win0_4.stage (cfg0.slots t 4)) fullShare (k0_pay4 (sAt0 V c t.val t.isLt).2) := by
  unfold Dat.leavesExact; rw [liveAt0_4 t h1, after0_4]

/-! ## The body obligation, at a generic point -/

/-- What the body is called with at point `t` (the obligation's precondition, the windows one by one), -/
def bodyPre0 (c : Dev nD) (t : Fin cfg0.N) : sProp 𝕄 :=
  iprop((d0 V c).Φ t.castSucc ∗ (d0 V c).owesAt () t.castSucc
    ∗ (∃ d, owns (c : Thread nD τ) (win0_0.stage (cfg0.slots t 0)) fullShare ((d0 V c).before 0 t d))
    ∗ (∃ d, owns (c : Thread nD τ) (win0_1.stage (cfg0.slots t 1)) fullShare ((d0 V c).before 1 t d))
    ∗ (∃ d, owns (c : Thread nD τ) (win0_2.stage (cfg0.slots t 2)) fullShare ((d0 V c).before 2 t d))
    ∗ (∃ d, owns (c : Thread nD τ) (win0_3.stage (cfg0.slots t 3)) fullShare ((d0 V c).before 3 t d))
    ∗ (∃ d, owns (c : Thread nD τ) (win0_4.stage (cfg0.slots t 4)) fullShare ((d0 V c).before 4 t d)))

/-- and what it returns. -/
def bodyPost0 (c : Dev nD) (t : Fin cfg0.N) : sProp 𝕄 :=
  iprop((d0 V c).Φ t.succ ∗ (d0 V c).owesAt () t.succ
    ∗ (d0 V c).leavesExact 0 t
    ∗ (d0 V c).leavesExact 1 t
    ∗ (d0 V c).leavesExact 2 t
    ∗ (d0 V c).leavesExact 3 t
    ∗ (d0 V c).leavesExact 4 t)

set_option maxHeartbeats 4800000 in
/-- The body at any point: the inputs' buffers hold their blocks; the tile decides the case; the invariant hands the
    body the accumulators at what the point before left (at anything before the first point) and takes them back at
    this point's; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (d0 V c).owesAt () t.succ = (d0 V c).owesAt () t.castSucc from rfl]
  rw [Phi_succ0 V c t, PhiN0_succ V c t.val t.isLt, Phi_castSucc0 V c t]
  rw [leaves0_0 V c t, leaves0_1 V c t, leaves0_2 V c t]
  have hN : t.val < 32 := lt_of_lt_of_eq t.isLt (show cfg0.N = 32 from N_0)
  by_cases h0 : t.val % 16 = 0
  · have h1 : ¬t.val % 16 = 15 := by omega
    rw [Dat.leavesExact_idle (d0 V c) 3 t (idleAt0_3 t h1) (noFlush0_3 t h1), Dat.leavesExact_idle (d0 V c) 4 t (idleAt0_4 t h1) (noFlush0_4 t h1)]
    rw [sAt0_reset V c t h0]
    by_cases hz : t.val = 0
    · rw [PhiN0_zero V c _ _ hz, PhiA0_eq]
      iintro ⟨⟨⟨HS0, HS1, Hr⟩, Hg⟩, Ho, ⟨%e0, H0⟩, ⟨%e1, H1⟩, ⟨%e2, H2⟩, ⟨%e3, H3⟩, ⟨%e4, H4⟩⟩
      iapply (runA c (grid0.coords t) _ _ _ _ _ _ _ _ _ _ _ _ _ _ ((hcond0_0 t).mpr h0) (fun h => h1 ((hcond0_1 t).mp h)) (x1b0 V c t) (x2b0 V c t) (lb0 V c t) ((d0 V c).before 3 t e3) ((d0 V c).before 4 t e4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexists _; iexact H3
      iexists _; iexact H4
    · rw [PhiN0_pos V c _ _ hz]
      iintro ⟨⟨⟨HS0, HS1, Hr⟩, Hg⟩, Ho, ⟨%e0, H0⟩, ⟨%e1, H1⟩, ⟨%e2, H2⟩, ⟨%e3, H3⟩, ⟨%e4, H4⟩⟩
      iapply (runA c (grid0.coords t) _ _ _ _ _ _ _ _ _ _ _ _ _ _ ((hcond0_0 t).mpr h0) (fun h => h1 ((hcond0_1 t).mp h)) (x1b0 V c t) (x2b0 V c t) (lb0 V c t) ((d0 V c).before 3 t e3) ((d0 V c).before 4 t e4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    rw [sAt0_step V c t h0, PhiN0_pos V c _ _ hz]
    by_cases h1 : t.val % 16 = 15
    · rw [leaves0_3 V c t h1, leaves0_4 V c t h1, sAt0_step V c t h0]
      iintro ⟨⟨⟨HS0, HS1, Hr⟩, Hg⟩, Ho, ⟨%e0, H0⟩, ⟨%e1, H1⟩, ⟨%e2, H2⟩, ⟨%e3, H3⟩, ⟨%e4, H4⟩⟩
      iapply (runC c (grid0.coords t) _ _ _ _ _ _ _ _ _ _ _ _ _ _ (fun h => h0 ((hcond0_0 t).mp h)) ((hcond0_1 t).mpr h1) (x1b0 V c t) (x2b0 V c t) (lb0 V c t) (sAt0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (d0 V c) 3 t (idleAt0_3 t h1) (noFlush0_3 t h1), Dat.leavesExact_idle (d0 V c) 4 t (idleAt0_4 t h1) (noFlush0_4 t h1)]
      iintro ⟨⟨⟨HS0, HS1, Hr⟩, Hg⟩, Ho, ⟨%e0, H0⟩, ⟨%e1, H1⟩, ⟨%e2, H2⟩, ⟨%e3, H3⟩, ⟨%e4, H4⟩⟩
      iapply (runB c (grid0.coords t) _ _ _ _ _ _ _ _ _ _ _ _ _ _ (fun h => h0 ((hcond0_0 t).mp h)) (fun h => h1 ((hcond0_1 t).mp h)) (x1b0 V c t) (x2b0 V c t) (lb0 V c t) (sAt0 V c (t.val - 1) (Nat.lt_of_le_of_lt (Nat.sub_le _ _) t.isLt)) ((d0 V c).before 3 t e3) ((d0 V c).before 4 t e4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexists _; iexact H3
      iexists _; iexact H4

/-- The body obligation at every point. -/
theorem body_obligation0 (c : Dev nD) : BodyObligation (d0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (d0 V c).Φ 0 := by
  rw [show (d0 V c).Φ 0 = PhiN0 V c 0 (Nat.zero_le _) from rfl, PhiN0_zero V c 0 _ rfl]

/-- After the last point the invariant gives it back (the accumulator's contents forgotten). -/
theorem hout0 (c : Dev nD) : (d0 V c).Φ (Fin.last cfg0.N) ⊢ (Pipeline.ΦA spec0 c : sProp 𝕄) := by
  have hN : cfg0.N = 32 := N_0
  rw [show (d0 V c).Φ (Fin.last cfg0.N) = PhiN0 V c (Fin.last cfg0.N).val (Nat.le_of_lt_succ (Fin.last cfg0.N).isLt) from rfl,
    PhiN0_pos V c _ _ (by rw [Fin.val_last]; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.Kernel.Hand

end
-- ==== Proof.K.Region1.lean ====
/-
  Region 1 of the kernel program as the pipeline library wants it: the invariant that carries the accumulator from
  point to point, the body's run at a point, and the body obligation at every point.
-/
import proofs.«413172_j20023137534376_3_alg».proof.Proof.K.Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditionals, decided over the grid -/

/-- The first conditional (the reset of the accumulator), from the grid coordinates: the tile is the first of its core. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The second conditional (the copy of the accumulator into the result's block): the tile is the last of its core. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The zero offsets of a rank-2 and of a rank-3 whole-buffer rectangle. -/
theorem zoff2 : (![0, 0] : Fin 2 → Nat) = fun _ => 0 := by funext a; fin_cases a <;> rfl
theorem zoff3 : (![0, 0, 0] : Fin 3 → Nat) = fun _ => 0 := by funext a; fin_cases a <;> rfl

/-- A store through the whole-shape rectangle, made last, leaves its payload in the buffer whatever was stored before. -/
theorem read_writes_last {sg : RefSig} {κ : Kind} {sp : Space} {S : Shape} {e : EltTy} (v : View sg κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons.mpr (Or.inl rfl), View.mem_set_unit_zero hz inb y⟩).trans
    (View.canon_cons_unit_zero hz inb w L)

/-! ## The body's run, case by case -/

set_option maxHeartbeats 4000000 in
/-- At the first tile of a core: the accumulator holds anything; the body stores zero into it, then the tile's update
    of that zero. The result's buffer is not touched. -/
theorem run1_A (c : Dev nD) (E : Set ℕ) (i : grid1.Coords)
    (arg2 : Memref sig .tc .vmem S2048x256 .f32) (harg2 : arg2.IsWhole) (arg3 : Memref sig .tc .vmem S2048x256 .f32) (harg3 : arg3.IsWhole)
    (arg4 : Memref sig .tc .vmem S2048x1 .i32) (harg4 : arg4.IsWhole) (arg5 : Memref sig .tc .vmem S256x256 .bf16) (harg5 : arg5.IsWhole)
    (arg6 : Memref sig .tc .vmem S1x1x1 .f32) (harg6 : arg6.IsWhole) (arg7 : Memref sig .tc .vmem S1x1 .f32) (harg7 : arg7.IsWhole)
    (hc0 : cond1_0 i) (hc1 : ¬cond1_1 i)
    (x1 x2 : Vec F S2048x256 .f32) (l : Vec F S2048x1 .i32) (mu : Vec F S256x256 .bf16) (xo : Vec F S1x1x1 .f32)
    (K : PUnit → sProp 𝕄) :
    iprop(owns (c : Thread nD τ) arg2 fullShare x1 ∗ owns (c : Thread nD τ) arg3 fullShare x2 ∗ owns (c : Thread nD τ) arg4 fullShare l
        ∗ owns (c : Thread nD τ) arg5 fullShare mu ∗ owns (c : Thread nD τ) arg6 fullShare xo ∗ (∃ d, owns (c : Thread nD τ) arg7 fullShare d)
        ∗ (iprop(owns (c : Thread nD τ) arg2 fullShare x1 ∗ owns (c : Thread nD τ) arg3 fullShare x2 ∗ owns (c : Thread nD τ) arg4 fullShare l
            ∗ owns (c : Thread nD τ) arg5 fullShare mu ∗ owns (c : Thread nD τ) arg6 fullShare xo
            ∗ owns (c : Thread nD τ) arg7 fullShare (step1 k1_pay3 x1 x2 l mu)) -∗ K ⟨⟩))
      ⊢ wp frame (wpE (defs₀ (F := F)) Variants.none c none) E (cc1_loss_kernel i arg2 harg2 arg3 harg3 arg4 harg4 arg5 harg5 arg6 harg6 arg7 harg7) K := by
  simp only [cc1_loss_kernel_eq_skeleton]; unfold cc1_loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  refine (read_writes_last (F := F) _ _ zoff2 _ _ _).trans ?_
  unfold step1
  simp only [View.readAt_eq_ld, harg2.read_unread, harg3.read_unread, harg4.read_unread, harg5.read_unread,
    View.readCov_unit_zero (S := S1x1) _ zoff2,
    View.ld_unit_zero (S := S2048x256) zoff2, View.ld_unit_zero (S := S2048x1) zoff2, View.ld_unit_zero (S := S256x256) zoff2, View.ld_unit_zero (S := S1x1) zoff2]

set_option maxHeartbeats 4000000 in
/-- At a middle tile: the accumulator holds `s`; the body stores the tile's update of `s`. The result's buffer is not
    touched. -/
theorem run1_B (c : Dev nD) (E : Set ℕ) (i : grid1.Coords)
    (arg2 : Memref sig .tc .vmem S2048x256 .f32) (harg2 : arg2.IsWhole) (arg3 : Memref sig .tc .vmem S2048x256 .f32) (harg3 : arg3.IsWhole)
    (arg4 : Memref sig .tc .vmem S2048x1 .i32) (harg4 : arg4.IsWhole) (arg5 : Memref sig .tc .vmem S256x256 .bf16) (harg5 : arg5.IsWhole)
    (arg6 : Memref sig .tc .vmem S1x1x1 .f32) (harg6 : arg6.IsWhole) (arg7 : Memref sig .tc .vmem S1x1 .f32) (harg7 : arg7.IsWhole)
    (hc0 : ¬cond1_0 i) (hc1 : ¬cond1_1 i)
    (x1 x2 : Vec F S2048x256 .f32) (l : Vec F S2048x1 .i32) (mu : Vec F S256x256 .bf16) (xo : Vec F S1x1x1 .f32) (s : Vec F S1x1 .f32)
    (K : PUnit → sProp 𝕄) :
    iprop(owns (c : Thread nD τ) arg2 fullShare x1 ∗ owns (c : Thread nD τ) arg3 fullShare x2 ∗ owns (c : Thread nD τ) arg4 fullShare l
        ∗ owns (c : Thread nD τ) arg5 fullShare mu ∗ owns (c : Thread nD τ) arg6 fullShare xo ∗ owns (c : Thread nD τ) arg7 fullShare s
        ∗ (iprop(owns (c : Thread nD τ) arg2 fullShare x1 ∗ owns (c : Thread nD τ) arg3 fullShare x2 ∗ owns (c : Thread nD τ) arg4 fullShare l
            ∗ owns (c : Thread nD τ) arg5 fullShare mu ∗ owns (c : Thread nD τ) arg6 fullShare xo
            ∗ owns (c : Thread nD τ) arg7 fullShare (step1 s x1 x2 l mu)) -∗ K ⟨⟩))
      ⊢ wp frame (wpE (defs₀ (F := F)) Variants.none c none) E (cc1_loss_kernel i arg2 harg2 arg3 harg3 arg4 harg4 arg5 harg5 arg6 harg6 arg7 harg7) K := by
  simp only [cc1_loss_kernel_eq_skeleton]; unfold cc1_loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  refine (read_writes_last (F := F) _ _ zoff2 _ _ _).trans ?_
  unfold step1
  simp only [View.readAt_eq_ld, harg2.read_unread, harg3.read_unread, harg4.read_unread, harg5.read_unread, harg7.read_unread,
    View.ld_unit_zero (S := S2048x256) zoff2, View.ld_unit_zero (S := S2048x1) zoff2, View.ld_unit_zero (S := S256x256) zoff2, View.ld_unit_zero (S := S1x1) zoff2]

set_option maxHeartbeats 4000000 in
/-- At the last tile of a core: as at a middle tile, and then the body copies the updated accumulator into the result's
    buffer, re-laid with a leading unit axis. -/
theorem run1_C (c : Dev nD) (E : Set ℕ) (i : grid1.Coords)
    (arg2 : Memref sig .tc .vmem S2048x256 .f32) (harg2 : arg2.IsWhole) (arg3 : Memref sig .tc .vmem S2048x256 .f32) (harg3 : arg3.IsWhole)
    (arg4 : Memref sig .tc .vmem S2048x1 .i32) (harg4 : arg4.IsWhole) (arg5 : Memref sig .tc .vmem S256x256 .bf16) (harg5 : arg5.IsWhole)
    (arg6 : Memref sig .tc .vmem S1x1x1 .f32) (harg6 : arg6.IsWhole) (arg7 : Memref sig .tc .vmem S1x1 .f32) (harg7 : arg7.IsWhole)
    (hc0 : ¬cond1_0 i) (hc1 : cond1_1 i)
    (x1 x2 : Vec F S2048x256 .f32) (l : Vec F S2048x1 .i32) (mu : Vec F S256x256 .bf16) (s : Vec F S1x1 .f32)
    (K : PUnit → sProp 𝕄) :
    iprop(owns (c : Thread nD τ) arg2 fullShare x1 ∗ owns (c : Thread nD τ) arg3 fullShare x2 ∗ owns (c : Thread nD τ) arg4 fullShare l
        ∗ owns (c : Thread nD τ) arg5 fullShare mu ∗ (∃ d, owns (c : Thread nD τ) arg6 fullShare d) ∗ owns (c : Thread nD τ) arg7 fullShare s
        ∗ (iprop(owns (c : Thread nD τ) arg2 fullShare x1 ∗ owns (c : Thread nD τ) arg3 fullShare x2 ∗ owns (c : Thread nD τ) arg4 fullShare l
            ∗ owns (c : Thread nD τ) arg5 fullShare mu ∗ owns (c : Thread nD τ) arg6 fullShare (k1_pay2 (step1 s x1 x2 l mu))
            ∗ owns (c : Thread nD τ) arg7 fullShare (step1 s x1 x2 l mu)) -∗ K ⟨⟩))
      ⊢ wp frame (wpE (defs₀ (F := F)) Variants.none c none) E (cc1_loss_kernel i arg2 harg2 arg3 harg3 arg4 harg4 arg5 harg5 arg6 harg6 arg7 harg7) K := by
  simp only [cc1_loss_kernel_eq_skeleton]; unfold cc1_loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (read_writes_last (F := F) _ _ zoff3 _ _ _).trans ?_
    unfold step1
    simp only [View.readAt_eq_ld, harg2.read_unread, harg3.read_unread, harg4.read_unread, harg5.read_unread, harg7.read_unread,
      View.readCov_unit_zero (S := S1x1) _ zoff2,
      View.ld_unit_zero (S := S2048x256) zoff2, View.ld_unit_zero (S := S2048x1) zoff2, View.ld_unit_zero (S := S256x256) zoff2, View.ld_unit_zero (S := S1x1) zoff2]
  iexists _; isplitr
  swap; · iexact H7
  ipureintro
  sl_unfold_words
  refine (read_writes_last (F := F) _ _ zoff2 _ _ _).trans ?_
  unfold step1
  simp only [View.readAt_eq_ld, harg2.read_unread, harg3.read_unread, harg4.read_unread, harg5.read_unread, harg7.read_unread,
    View.ld_unit_zero (S := S2048x256) zoff2, View.ld_unit_zero (S := S2048x1) zoff2, View.ld_unit_zero (S := S256x256) zoff2, View.ld_unit_zero (S := S1x1) zoff2]

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The result's window is idle, and not written back, at every tile but the last of a core; there it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The accumulator point by point -/

/-- At the first tile of a core the accumulator restarts from zero. -/
theorem sAt1_reset (c : Dev nD) (t : Fin cfg1.N) (h0 : t.val % 16 = 0) :
    sAt1 V c t.val t.isLt = step1 k1_pay3 (x1b1 V c t) (x2b1 V c t) (lb1 V c t) (mub1 V c t) := by
  obtain ⟨n, hn⟩ := t
  cases n with
  | zero => rfl
  | succ n => exact (if_pos h0).trans rfl

/-- At a later tile it is the point's update of what the point before left. -/
theorem sAt1_step (c : Dev nD) (t : Fin cfg1.N) (h0 : ¬t.val % 16 = 0) :
    sAt1 V c t.val t.isLt = step1 (sAt1 V c (t.val - 1) (Nat.lt_of_le_of_lt (Nat.sub_le _ _) t.isLt)) (x1b1 V c t) (x2b1 V c t) (lb1 V c t) (mub1 V c t) := by
  obtain ⟨n, hn⟩ := t
  cases n with
  | zero => exact absurd (Nat.zero_mod _) h0
  | succ n => exact (if_neg h0).trans rfl

/-! ## The invariant -/

/-- The region's scratch accumulator, a whole scoped buffer. -/
abbrev scM1 : Memref sig .tc .vmem S1x1 .f32 := Memref.whole cc1_scratch0

/-- A whole scoped buffer of the core at some contents. -/
abbrev anyAt (c : Dev nD) (b : Ref sig .tc) : sProp 𝕄 :=
  iprop(∃ f : Buf (Elt F) ((c : Thread nD τ).loc b), ((c : Thread nD τ).loc b) ↦{fullShare} f)

/-- The scoped buffers this region's windows do not stage and its kernel does not touch — the other region's staging
    buffers and its two accumulators —, each at some contents. -/
def oth1 (c : Dev nD) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1
    ∗ anyAt (F := F) c cc0_stg3_0 ∗ anyAt (F := F) c cc0_stg3_1 ∗ anyAt (F := F) c cc0_stg4_0 ∗ anyAt (F := F) c cc0_stg4_1 ∗ anyAt (F := F) c cc0_scratch0 ∗ anyAt (F := F) c cc0_scratch1)

/-- What the launch hands the region, listed: those buffers, then this region's accumulator at some contents, and the
    generator register. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1
          ∗ anyAt (F := F) c cc0_stg3_0 ∗ anyAt (F := F) c cc0_stg3_1 ∗ anyAt (F := F) c cc0_stg4_0 ∗ anyAt (F := F) c cc0_stg4_1 ∗ anyAt (F := F) c cc0_scratch0 ∗ anyAt (F := F) c cc0_scratch1
          ∗ (∃ d, owns (c : Thread nD τ) scM1 fullShare d)) ∗ (∃ r, prngReg c r)) := by
  unfold Pipeline.ΦA; rw [scopedRest1_eq]; simp only [scM1, owns_whole]; try rfl

/-- The same with the untouched buffers gathered into one factor. -/
theorem PhiA1_split (c : Dev nD) :
    (Pipeline.ΦA spec1 c : sProp 𝕄) ⊢ iprop(iprop(oth1 (F := F) c ∗ (∃ d, owns (c : Thread nD τ) scM1 fullShare d)) ∗ (∃ r, prngReg c r)) := by
  rw [PhiA1_eq]; unfold oth1
  iintro ⟨⟨A1, A2, A3, A4, A5, A6, A7, A8, A9, A10, A11, A12, HS⟩, Hg⟩
  isplitr [Hg]
  · isplitr [HS]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact A12
    iexact HS
  iexact Hg

theorem PhiA1_join (c : Dev nD) :
    iprop(iprop(oth1 (F := F) c ∗ (∃ d, owns (c : Thread nD τ) scM1 fullShare d)) ∗ (∃ r, prngReg c r)) ⊢ (Pipeline.ΦA spec1 c : sProp 𝕄) := by
  rw [PhiA1_eq]; unfold oth1
  iintro ⟨⟨⟨A1, A2, A3, A4, A5, A6, A7, A8, A9, A10, A11, A12⟩, HS⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact HS
  iexact Hg

/-- The invariant before position `n`: before the first point what the launch hands over; afterwards the untouched
    buffers, the accumulator at what the point before left in it, and the generator register. -/
def PhiS1n (c : Dev nD) : (n : ℕ) → n ≤ cfg1.N → sProp 𝕄
  | 0, _ => Pipeline.ΦA spec1 c
  | n + 1, hn => iprop(iprop(oth1 (F := F) c ∗ owns (c : Thread nD τ) scM1 fullShare (sAt1 V c n hn)) ∗ (∃ r, prngReg c r))

/-- The invariant before point `t`: before the first point the scoped buffers no window of this region stages at any
    contents and the generator register; afterwards the accumulator at what the point before left, the other such
    buffers at any contents, and the generator register. -/
def PhiS1 (c : Dev nD) (t : Fin (cfg1.N + 1)) : sProp 𝕄 :=
  PhiS1n V c t.val (Nat.le_of_lt_succ t.isLt)

/-- The proof data of region 1 with that invariant. -/
abbrev d1 (c : Dev nD) : Dat τ (Elt F) Unit ℕ (UR sig nD τ) ℕ cfg1 c := dat1 V (PhiS1 V) c

theorem PhiS1n_zero (c : Dev nD) (n : ℕ) (h : n ≤ cfg1.N) (hz : n = 0) : PhiS1n V c n h = Pipeline.ΦA spec1 c := by
  subst hz; rfl

theorem PhiS1n_succ (c : Dev nD) (n : ℕ) (hn : n < cfg1.N) :
    PhiS1n V c (n + 1) hn = iprop(iprop(oth1 (F := F) c ∗ owns (c : Thread nD τ) scM1 fullShare (sAt1 V c n hn)) ∗ (∃ r, prngReg c r)) := rfl

theorem PhiS1n_pos (c : Dev nD) (n : ℕ) (h : n ≤ cfg1.N) (hz : n ≠ 0) :
    PhiS1n V c n h = iprop(iprop(oth1 (F := F) c ∗ owns (c : Thread nD τ) scM1 fullShare (sAt1 V c (n - 1) (by omega))) ∗ (∃ r, prngReg c r)) := by
  cases n with
  | zero => exact absurd rfl hz
  | succ n => rfl

/-- The invariant at a point's start and at its end, restated at the point's position. -/
theorem Phi1_castSucc (c : Dev nD) (t : Fin cfg1.N) : (d1 V c).Φ t.castSucc = PhiS1n V c t.val (Nat.le_of_lt t.isLt) := rfl
theorem Phi1_succ (c : Dev nD) (t : Fin cfg1.N) : (d1 V c).Φ t.succ = PhiS1n V c (t.val + 1) t.isLt := rfl

/-! ## What the body finds and leaves, window by window -/

theorem A_eq1 (c : Dev nD) (w : Fin cfg1.W) : (d1 V c).A w = V c (Pipeline.arrRef spec1 w) := by
  dsimp only [d1, dat1]

theorem after1_0 (c : Dev nD) (t : Fin cfg1.N) : (d1 V c).after 0 t = iblk1 V c 0 t := by dsimp only [d1, dat1]
theorem after1_1 (c : Dev nD) (t : Fin cfg1.N) : (d1 V c).after 1 t = iblk1 V c 1 t := by dsimp only [d1, dat1]
theorem after1_2 (c : Dev nD) (t : Fin cfg1.N) : (d1 V c).after 2 t = iblk1 V c 2 t := by dsimp only [d1, dat1]
theorem after1_3 (c : Dev nD) (t : Fin cfg1.N) : (d1 V c).after 3 t = iblk1 V c 3 t := by dsimp only [d1, dat1]
theorem after1_4 (c : Dev nD) (t : Fin cfg1.N) : (d1 V c).after 4 t = k1_pay2 (sAt1 V c t.val t.isLt) := by dsimp only [d1, dat1]

/-- Each input's current staging buffer holds its block at every point, fetched there or not: an input not fetched at
    a point has the block index of the point before, and the body leaves every input's buffer as it found it. -/
theorem before1_0 (c : Dev nD) (t : Fin cfg1.N) (d) : (d1 V c).before 0 t d = iblk1 V c 0 t :=
  ((d1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (d1 V c).before 1 t d = iblk1 V c 1 t :=
  ((d1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (d1 V c).before 2 t d = iblk1 V c 2 t :=
  ((d1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (d1 V c).before 3 t d = iblk1 V c 3 t :=
  ((d1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The four inputs are live at every point: each is left at its block. -/
theorem leaves1_0 (c : Dev nD) (t : Fin cfg1.N) : (d1 V c).leavesExact 0 t = owns (c : Thread nD τ) (win1_0.stage (cfg1.slots t 0)) fullShare (iblk1 V c 0 t) := by
  unfold Dat.leavesExact; rw [liveAt1_0 t, after1_0]
theorem leaves1_1 (c : Dev nD) (t : Fin cfg1.N) : (d1 V c).leavesExact 1 t = owns (c : Thread nD τ) (win1_1.stage (cfg1.slots t 1)) fullShare (iblk1 V c 1 t) := by
  unfold Dat.leavesExact; rw [liveAt1_1 t, after1_1]
theorem leaves1_2 (c : Dev nD) (t : Fin cfg1.N) : (d1 V c).leavesExact 2 t = owns (c : Thread nD τ) (win1_2.stage (cfg1.slots t 2)) fullShare (iblk1 V c 2 t) := by
  unfold Dat.leavesExact; rw [liveAt1_2 t, after1_2]
theorem leaves1_3 (c : Dev nD) (t : Fin cfg1.N) : (d1 V c).leavesExact 3 t = owns (c : Thread nD τ) (win1_3.stage (cfg1.slots t 3)) fullShare (iblk1 V c 3 t) := by
  unfold Dat.leavesExact; rw [liveAt1_3 t, after1_3]
/-- At the last tile of a core the result is live: it is left at the point's accumulator, re-laid. -/
theorem leaves1_4 (c : Dev nD) (t : Fin cfg1.N) (h1 : cond1_1 (grid1.coords t)) : (d1 V c).leavesExact 4 t = owns (c : Thread nD τ) (win1_4.stage (cfg1.slots t 4)) fullShare (k1_pay2 (sAt1 V c t.val t.isLt)) := by
  unfold Dat.leavesExact; rw [liveAt1_4 t h1, after1_4]

/-- Whatever the position, the invariant holds the untouched buffers, the accumulator at some contents, and the
    generator register. -/
theorem PhiS1n_any (c : Dev nD) (n : ℕ) (h : n ≤ cfg1.N) :
    PhiS1n V c n h ⊢ iprop(iprop(oth1 (F := F) c ∗ (∃ d, owns (c : Thread nD τ) scM1 fullShare d)) ∗ (∃ r, prngReg c r)) := by
  cases n with
  | zero => exact PhiA1_split c
  | succ n =>
    rw [PhiS1n_succ]
    iintro ⟨⟨Hr, HS⟩, Hg⟩
    isplitr [Hg]
    · isplitl [Hr]; · iexact Hr
      iexists _; iexact HS
    iexact Hg

/-! ## The body obligation, at a generic point -/

/-- What the body is called with at point `t` (the obligation's precondition, the windows one by one), -/
def bodyPre1 (c : Dev nD) (t : Fin cfg1.N) : sProp 𝕄 :=
  iprop((d1 V c).Φ t.castSucc ∗ (d1 V c).owesAt () t.castSucc
    ∗ (∃ d, owns (c : Thread nD τ) (win1_0.stage (cfg1.slots t 0)) fullShare ((d1 V c).before 0 t d))
    ∗ (∃ d, owns (c : Thread nD τ) (win1_1.stage (cfg1.slots t 1)) fullShare ((d1 V c).before 1 t d))
    ∗ (∃ d, owns (c : Thread nD τ) (win1_2.stage (cfg1.slots t 2)) fullShare ((d1 V c).before 2 t d))
    ∗ (∃ d, owns (c : Thread nD τ) (win1_3.stage (cfg1.slots t 3)) fullShare ((d1 V c).before 3 t d))
    ∗ (∃ d, owns (c : Thread nD τ) (win1_4.stage (cfg1.slots t 4)) fullShare ((d1 V c).before 4 t d)))

/-- and what it returns. -/
def bodyPost1 (c : Dev nD) (t : Fin cfg1.N) : sProp 𝕄 :=
  iprop((d1 V c).Φ t.succ ∗ (d1 V c).owesAt () t.succ
    ∗ (d1 V c).leavesExact 0 t
    ∗ (d1 V c).leavesExact 1 t
    ∗ (d1 V c).leavesExact 2 t
    ∗ (d1 V c).leavesExact 3 t
    ∗ (d1 V c).leavesExact 4 t)

set_option maxHeartbeats 4800000 in
/-- The body at any point: the inputs' buffers hold their blocks; the tile decides the case; the invariant hands the
    body the accumulator at what the point before left (at anything where the body restarts it) and takes it back at
    this point's; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (d1 V c).owesAt () t.succ = (d1 V c).owesAt () t.castSucc from rfl]
  rw [Phi1_succ V c t, PhiS1n_succ V c t.val t.isLt, Phi1_castSucc V c t]
  rw [leaves1_0 V c t, leaves1_1 V c t, leaves1_2 V c t, leaves1_3 V c t]
  have hN : t.val < 32 := lt_of_lt_of_eq t.isLt (show cfg1.N = 32 from N_1)
  by_cases h0 : t.val % 16 = 0
  · have h1 : ¬t.val % 16 = 15 := by omega
    have hc1 : ¬cond1_1 (grid1.coords t) := fun h => h1 ((hcond1_1 t).mp h)
    rw [Dat.leavesExact_idle (d1 V c) 4 t (idleAt1_4 t hc1) (noFlush1_4 t hc1)]
    rw [sAt1_reset V c t h0]
    refine (sep_mono_left (PhiS1n_any V c t.val _)).trans ?_
    iintro ⟨⟨⟨Hr, HS⟩, Hg⟩, Ho, ⟨%e0, H0⟩, ⟨%e1, H1⟩, ⟨%e2, H2⟩, ⟨%e3, H3⟩, ⟨%e4, H4⟩⟩
    iapply (run1_A c Set.univ (grid1.coords t) _ _ _ _ _ _ _ _ _ _ _ _ ((hcond1_0 t).mpr h0) hc1 (x1b1 V c t) (x2b1 V c t) (lb1 V c t) (mub1 V c t) ((d1 V c).before 4 t e4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [Hr HS Hg]
    · isplitr [Hg]
      · isplitl [Hr]; · iexact Hr
        iexact HS
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    have hc0 : ¬cond1_0 (grid1.coords t) := fun h => h0 ((hcond1_0 t).mp h)
    rw [sAt1_step V c t h0, PhiS1n_pos V c _ _ hz]
    by_cases h1 : t.val % 16 = 15
    · have hc1 : cond1_1 (grid1.coords t) := (hcond1_1 t).mpr h1
      rw [leaves1_4 V c t hc1, sAt1_step V c t h0]
      iintro ⟨⟨⟨Hr, HS⟩, Hg⟩, Ho, ⟨%e0, H0⟩, ⟨%e1, H1⟩, ⟨%e2, H2⟩, ⟨%e3, H3⟩, ⟨%e4, H4⟩⟩
      iapply (run1_C c Set.univ (grid1.coords t) _ _ _ _ _ _ _ _ _ _ _ _ hc0 hc1 (x1b1 V c t) (x2b1 V c t) (lb1 V c t) (mub1 V c t) (sAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hr HS Hg]
      · isplitr [Hg]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (d1 V c) 4 t (idleAt1_4 t hc1) (noFlush1_4 t hc1)]
      iintro ⟨⟨⟨Hr, HS⟩, Hg⟩, Ho, ⟨%e0, H0⟩, ⟨%e1, H1⟩, ⟨%e2, H2⟩, ⟨%e3, H3⟩, ⟨%e4, H4⟩⟩
      iapply (run1_B c Set.univ (grid1.coords t) _ _ _ _ _ _ _ _ _ _ _ _ hc0 hc1 (x1b1 V c t) (x2b1 V c t) (lb1 V c t) (mub1 V c t) ((d1 V c).before 4 t e4) (sAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitr [Hg]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation1 (c : Dev nD) : BodyObligation (d1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (d1 V c).Φ 0 := by
  rw [show (d1 V c).Φ 0 = PhiS1n V c 0 (Nat.zero_le _) from rfl, PhiS1n_zero V c 0 _ rfl]

/-- After the last point the invariant gives it back (the accumulator's contents forgotten). -/
theorem hout1 (c : Dev nD) : (d1 V c).Φ (Fin.last cfg1.N) ⊢ (Pipeline.ΦA spec1 c : sProp 𝕄) := by
  have hN : cfg1.N = 32 := N_1
  rw [show (d1 V c).Φ (Fin.last cfg1.N) = PhiS1n V c (Fin.last cfg1.N).val (Nat.le_of_lt_succ (Fin.last cfg1.N).isLt) from rfl]
  exact (PhiS1n_any V c _ _).trans (PhiA1_join c)

end Cert.Kernel.Hand

end
-- ==== Proof.K.ArrAt0.lean ====
/-
  What the pipeline's fold of region 0's write-backs leaves in its result arrays, at any float instance: each core
  writes its slab back once, at its last tile, so the arrays end at the cores' final accumulators.
-/
import proofs.«413172_j20023137534376_3_alg».proof.Proof.K.Dat
import Idealize.ShloMosaic.Lib.Pipeline.Value
import Idealize.ShloMosaic.Lib.ValueLayout

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace ArrAt0

/-- Two readings of the accumulators at equal points agree. -/
theorem sAt0_congr (c : Dev nD) {n m : ℕ} (e : n = m) (hn : n < cfg0.N) (hm : m < cfg0.N) :
    sAt0 V c n hn = sAt0 V c m hm := by subst e; rfl

/-- Result 0's block index at a point: the core on the leading axis, zero on the two others. -/
theorem idx0_3 : ∀ t : Fin cfg0.N, win0_3.index t (0 : Fin 3) = t.val / 16 ∧ win0_3.index t (1 : Fin 3) = 0 ∧ win0_3.index t (2 : Fin 3) = 0 :=
  (by decide +kernel : ∀ t : Fin grid0.N, _)

/-- What a core's last tile writes back into result 0 is that core's slab of the final sums. -/
theorem flushed0_3_eq (Φ : Dev nD → Fin (cfg0.N + 1) → sProp 𝕄) (c : Dev nD) (t : Fin cfg0.N) (hf : (cfg0.win 3).flush t = true) :
    (dat0 V Φ c).flushed 3 t = ((cfg0.win 3).blk t).view.read (Elt F) (G3 V c) := by
  have h15 : t.val % 16 = 15 := (flush0_3 t).mp hf
  obtain ⟨e0, e1, e2⟩ := idx0_3 t
  funext j
  show k0_pay3 (sAt0 V c t.val t.isLt).1 (win0_3.xinj (grid0.coords t) j) = G3 V c (((cfg0.win 3).blk t).view.emb j)
  unfold k0_pay3 G3 fin0
  rw [shapeCast_addUnit_apply]
  have hj0 : (j 0).val < 1 := (j 0).isLt
  -- the slab under the block is the point's core
  have a0 : (((cfg0.win 3).blk t).view.emb j 0).val = t.val / 16 := by
    show win0_3.index t (0 : Fin 3) * 1 + 1 * (j 0).val = t.val / 16
    rw [e0]; omega
  have key : ∀ h, sAt0 V c (16 * (((cfg0.win 3).blk t).view.emb j 0).val + 15) h = sAt0 V c t.val t.isLt :=
    fun h => sAt0_congr V c (by rw [a0]; omega) _ _
  rw [key]
  refine congrArg _ (funext fun a => Fin.ext ?_)
  match a with
  | ⟨0, _⟩ => show (j 1).val = win0_3.index t (1 : Fin 3) * 256 + 1 * (j 1).val; rw [e1]; omega
  | ⟨1, _⟩ => show (j 2).val = win0_3.index t (2 : Fin 3) * 256 + 1 * (j 2).val; rw [e2]; omega

/-- An index of result 0 is under a point's block iff each coordinate is in the block's range on its axis. -/
theorem mem_blk0_3 (t : Fin cfg0.N) (i : S2x256x256.Idx) :
    i ∈ ((cfg0.win 3).blk t).view.set ↔ ∀ a : Fin 3, win0_3.index t a * S1x256x256.size a ≤ (i a).val ∧ (i a).val < win0_3.index t a * S1x256x256.size a + S1x256x256.size a := by
  show i ∈ ((View.whole main_v1_0).slice (win0_3.rect t)).set ↔ _
  rw [View.set_slice_whole, Rect.mem_set_unit]
  exact Iff.rfl

/-- Result 1's block index at a point: the core on the leading axis, zero on the two others. -/
theorem idx0_4 : ∀ t : Fin cfg0.N, win0_4.index t (0 : Fin 3) = t.val / 16 ∧ win0_4.index t (1 : Fin 3) = 0 ∧ win0_4.index t (2 : Fin 3) = 0 :=
  (by decide +kernel : ∀ t : Fin grid0.N, _)

/-- What a core's last tile writes back into result 1 is that core's slab of the final doubled counts. -/
theorem flushed0_4_eq (Φ : Dev nD → Fin (cfg0.N + 1) → sProp 𝕄) (c : Dev nD) (t : Fin cfg0.N) (hf : (cfg0.win 4).flush t = true) :
    (dat0 V Φ c).flushed 4 t = ((cfg0.win 4).blk t).view.read (Elt F) (G4 V c) := by
  have h15 : t.val % 16 = 15 := (flush0_4 t).mp hf
  obtain ⟨e0, e1, e2⟩ := idx0_4 t
  funext j
  show k0_pay4 (sAt0 V c t.val t.isLt).2 (win0_4.xinj (grid0.coords t) j) = G4 V c (((cfg0.win 4).blk t).view.emb j)
  unfold k0_pay4 G4 fin0
  rw [shapeCast_addUnit_apply]
  have hj0 : (j 0).val < 1 := (j 0).isLt
  -- the slab under the block is the point's core
  have a0 : (((cfg0.win 4).blk t).view.emb j 0).val = t.val / 16 := by
    show win0_4.index t (0 : Fin 3) * 1 + 1 * (j 0).val = t.val / 16
    rw [e0]; omega
  have key : ∀ h, sAt0 V c (16 * (((cfg0.win 4).blk t).view.emb j 0).val + 15) h = sAt0 V c t.val t.isLt :=
    fun h => sAt0_congr V c (by rw [a0]; omega) _ _
  rw [key]
  refine congrArg _ (funext fun a => Fin.ext ?_)
  match a with
  | ⟨0, _⟩ => show (j 1).val = win0_4.index t (1 : Fin 3) * 1 + 1 * (j 1).val; rw [e1]; omega
  | ⟨1, _⟩ => show (j 2).val = win0_4.index t (2 : Fin 3) * 256 + 1 * (j 2).val; rw [e2]; omega

/-- An index of result 1 is under a point's block iff each coordinate is in the block's range on its axis. -/
theorem mem_blk0_4 (t : Fin cfg0.N) (i : S2x1x256.Idx) :
    i ∈ ((cfg0.win 4).blk t).view.set ↔ ∀ a : Fin 3, win0_4.index t a * S1x1x256.size a ≤ (i a).val ∧ (i a).val < win0_4.index t a * S1x1x256.size a + S1x1x256.size a := by
  show i ∈ ((View.whole main_v1_1).slice (win0_4.rect t)).set ↔ _
  rw [View.set_slice_whole, Rect.mem_set_unit]
  exact Iff.rfl

end ArrAt0

/-- The pipeline's fold of region 0's write-backs into result 0 is the cores' final sums. -/
theorem arrAt0_3 (Φ : Dev nD → Fin (cfg0.N + 1) → sProp 𝕄) (c : Dev nD) : (dat0 V Φ c).arrAt 3 cfg0.N = G3 V c :=
  (dat0 V Φ c).arrAt_eq_of_cover 3 (G3 V c) (ArrAt0.flushed0_3_eq V Φ c) fun i => by
    -- slab k is covered by the last tile of core k
    have hN : cfg0.N = 32 := N_0
    have hi0 : (i 0).val < 2 := (i 0).isLt
    have hi1 : (i 1).val < 256 := (i 1).isLt
    have hi2 : (i 2).val < 256 := (i 2).isLt
    refine ⟨⟨16 * (i 0).val + 15, by omega⟩, (flush0_3 _).mpr (by show (16 * (i 0).val + 15) % 16 = 15; omega), ?_⟩
    obtain ⟨e0, e1, e2⟩ := ArrAt0.idx0_3 ⟨16 * (i 0).val + 15, by omega⟩
    rw [ArrAt0.mem_blk0_3]
    intro a
    match a with
    | ⟨0, _⟩ => show win0_3.index _ (0 : Fin 3) * 1 ≤ (i 0).val ∧ (i 0).val < win0_3.index _ (0 : Fin 3) * 1 + 1; rw [e0]; dsimp only; omega
    | ⟨1, _⟩ => show win0_3.index _ (1 : Fin 3) * 256 ≤ (i 1).val ∧ (i 1).val < win0_3.index _ (1 : Fin 3) * 256 + 256; rw [e1]; omega
    | ⟨2, _⟩ => show win0_3.index _ (2 : Fin 3) * 256 ≤ (i 2).val ∧ (i 2).val < win0_3.index _ (2 : Fin 3) * 256 + 256; rw [e2]; omega

/-- Into result 1: the cores' final doubled counts. -/
theorem arrAt0_4 (Φ : Dev nD → Fin (cfg0.N + 1) → sProp 𝕄) (c : Dev nD) : (dat0 V Φ c).arrAt 4 cfg0.N = G4 V c :=
  (dat0 V Φ c).arrAt_eq_of_cover 4 (G4 V c) (ArrAt0.flushed0_4_eq V Φ c) fun i => by
    -- slab k is covered by the last tile of core k
    have hN : cfg0.N = 32 := N_0
    have hi0 : (i 0).val < 2 := (i 0).isLt
    have hi1 : (i 1).val < 1 := (i 1).isLt
    have hi2 : (i 2).val < 256 := (i 2).isLt
    refine ⟨⟨16 * (i 0).val + 15, by omega⟩, (flush0_4 _).mpr (by show (16 * (i 0).val + 15) % 16 = 15; omega), ?_⟩
    obtain ⟨e0, e1, e2⟩ := ArrAt0.idx0_4 ⟨16 * (i 0).val + 15, by omega⟩
    rw [ArrAt0.mem_blk0_4]
    intro a
    match a with
    | ⟨0, _⟩ => show win0_4.index _ (0 : Fin 3) * 1 ≤ (i 0).val ∧ (i 0).val < win0_4.index _ (0 : Fin 3) * 1 + 1; rw [e0]; dsimp only; omega
    | ⟨1, _⟩ => show win0_4.index _ (1 : Fin 3) * 1 ≤ (i 1).val ∧ (i 1).val < win0_4.index _ (1 : Fin 3) * 1 + 1; rw [e1]; omega
    | ⟨2, _⟩ => show win0_4.index _ (2 : Fin 3) * 256 ≤ (i 2).val ∧ (i 2).val < win0_4.index _ (2 : Fin 3) * 256 + 256; rw [e2]; omega

end Cert.Kernel.Hand

end
-- ==== Proof.K.ArrAt1.lean ====
/-
  What the pipeline's fold of region 1's write-backs leaves in its result array, at any float instance: each core
  writes its slab back once, at its last tile, so the array ends at the cores' final accumulators.
-/
import proofs.«413172_j20023137534376_3_alg».proof.Proof.K.Dat
import Idealize.ShloMosaic.Lib.Pipeline.Value
import Idealize.ShloMosaic.Lib.ValueLayout

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace ArrAt1

/-- Two readings of the accumulator at equal points agree. -/
theorem sAt1_congr (c : Dev nD) {n m : ℕ} (e : n = m) (hn : n < cfg1.N) (hm : m < cfg1.N) :
    sAt1 V c n hn = sAt1 V c m hm := by subst e; rfl

/-- The result's block index at a point: the core on the leading axis, zero on the two others. -/
theorem idx1_4 : ∀ t : Fin cfg1.N, win1_4.index t (0 : Fin 3) = t.val / 16 ∧ win1_4.index t (1 : Fin 3) = 0 ∧ win1_4.index t (2 : Fin 3) = 0 :=
  (by decide +kernel : ∀ t : Fin grid1.N, _)

/-- What a core's last tile writes back into the result is that core's entry of the final accumulators. -/
theorem flushed1_4_eq (Φ : Dev nD → Fin (cfg1.N + 1) → sProp 𝕄) (c : Dev nD) (t : Fin cfg1.N) (hf : (cfg1.win 4).flush t = true) :
    (dat1 V Φ c).flushed 4 t = ((cfg1.win 4).blk t).view.read (Elt F) (G10 V c) := by
  have h15 : t.val % 16 = 15 := (flush1_4 t).mp hf
  obtain ⟨e0, e1, e2⟩ := idx1_4 t
  funext j
  show k1_pay2 (sAt1 V c t.val t.isLt) (win1_4.xinj (grid1.coords t) j) = G10 V c (((cfg1.win 4).blk t).view.emb j)
  unfold k1_pay2 G10 fin1
  rw [shapeCast_addUnit_apply]
  have hj0 : (j 0).val < 1 := (j 0).isLt
  -- the entry under the block is the point's core
  have a0 : (((cfg1.win 4).blk t).view.emb j 0).val = t.val / 16 := by
    show win1_4.index t (0 : Fin 3) * 1 + 1 * (j 0).val = t.val / 16
    rw [e0]; omega
  have key : ∀ h, sAt1 V c (16 * (((cfg1.win 4).blk t).view.emb j 0).val + 15) h = sAt1 V c t.val t.isLt :=
    fun h => sAt1_congr V c (by rw [a0]; omega) _ _
  rw [key]
  refine congrArg _ (funext fun a => Fin.ext ?_)
  match a with
  | ⟨0, _⟩ => show (j 1).val = win1_4.index t (1 : Fin 3) * 1 + 1 * (j 1).val; rw [e1]; omega
  | ⟨1, _⟩ => show (j 2).val = win1_4.index t (2 : Fin 3) * 1 + 1 * (j 2).val; rw [e2]; omega

/-- An index of the result is under a point's block iff each coordinate is in the block's range on its axis. -/
theorem mem_blk1_4 (t : Fin cfg1.N) (i : S2x1x1.Idx) :
    i ∈ ((cfg1.win 4).blk t).view.set ↔ ∀ a : Fin 3, win1_4.index t a * S1x1x1.size a ≤ (i a).val ∧ (i a).val < win1_4.index t a * S1x1x1.size a + S1x1x1.size a := by
  show i ∈ ((View.whole main_v10).slice (win1_4.rect t)).set ↔ _
  rw [View.set_slice_whole, Rect.mem_set_unit]
  exact Iff.rfl

end ArrAt1

/-- The pipeline's fold of region 1's write-backs into its result is the cores' final accumulators. -/
theorem arrAt1_4 (Φ : Dev nD → Fin (cfg1.N + 1) → sProp 𝕄) (c : Dev nD) : (dat1 V Φ c).arrAt 4 cfg1.N = G10 V c :=
  (dat1 V Φ c).arrAt_eq_of_cover 4 (G10 V c) (ArrAt1.flushed1_4_eq V Φ c) fun i => by
    -- entry k is covered by the last tile of core k
    have hN : cfg1.N = 32 := N_1
    have hi0 : (i 0).val < 2 := (i 0).isLt
    have hi1 : (i 1).val < 1 := (i 1).isLt
    have hi2 : (i 2).val < 1 := (i 2).isLt
    refine ⟨⟨16 * (i 0).val + 15, by omega⟩, (flush1_4 _).mpr (by show (16 * (i 0).val + 15) % 16 = 15; omega), ?_⟩
    obtain ⟨e0, e1, e2⟩ := ArrAt1.idx1_4 ⟨16 * (i 0).val + 15, by omega⟩
    rw [ArrAt1.mem_blk1_4]
    intro a
    match a with
    | ⟨0, _⟩ => show win1_4.index _ (0 : Fin 3) * 1 ≤ (i 0).val ∧ (i 0).val < win1_4.index _ (0 : Fin 3) * 1 + 1; rw [e0]; dsimp only; omega
    | ⟨1, _⟩ => show win1_4.index _ (1 : Fin 3) * 1 ≤ (i 1).val ∧ (i 1).val < win1_4.index _ (1 : Fin 3) * 1 + 1; rw [e1]; omega
    | ⟨2, _⟩ => show win1_4.index _ (2 : Fin 3) * 1 ≤ (i 2).val ∧ (i 2).val < win1_4.index _ (2 : Fin 3) * 1 + 1; rw [e2]; omega

end Cert.Kernel.Hand

end
-- ==== Proof.K.Vals.lean ====
/-
  The contents of the TensorCore's unscoped buffers at each boundary of the kernel program's @main, from the launch
  memory `m`: the labels re-laid as a column; region 0's two result arrays at the cores' final accumulators; the host
  lines that sum the two cores' slabs, divide by the clipped counts and re-lay the means; region 1's result array at
  the cores' final accumulators; the host lines that sum the two entries, divide by 131072 and negate.
-/
import proofs.«413172_j20023137534376_3_alg».proof.Proof.K.Dat
import Idealize.ShloMosaic.Lib.StableHlo.Run

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- Core `c`'s unscoped buffers at launch. -/
abbrev W0 (c : Dev nD) : Valuation τ sig (Elt F) := fun b => m (c, b)
/-- After the host line before region 0 (the labels as a 65536 × 1 column). -/
abbrev W1 (c : Dev nD) : Valuation τ sig (Elt F) := StableHlo.after hostOps0 (W0 m c)
/-- The same read at the TensorCore's references: what region 0 is entered with. -/
abbrev V1 : (c : Dev nD) → (b : Ref sig .tc) → Buf (Elt F) ((c : Thread nD τ).loc b) := fun c b => W1 m c b
/-- After region 0: its two result arrays at the cores' final accumulators, everything else as entered. -/
abbrev W2 (c : Dev nD) : Valuation τ sig (Elt F) :=
  Function.update (Function.update (W1 m c) main_v1_0 (G3 (V1 m) c)) main_v1_1 (G4 (V1 m) c)
/-- After the host lines between the regions (the class means, re-laid for region 1). -/
abbrev W3 (c : Dev nD) : Valuation τ sig (Elt F) := StableHlo.after hostOps1 (W2 m c)
/-- The same read at the TensorCore's references: what region 1 is entered with. -/
abbrev V3 : (c : Dev nD) → (b : Ref sig .tc) → Buf (Elt F) ((c : Thread nD τ).loc b) := fun c b => W3 m c b
/-- After region 1: its result array at the cores' final accumulators, everything else as entered. -/
abbrev W4 (c : Dev nD) : Valuation τ sig (Elt F) := Function.update (W3 m c) main_v10 (G10 (V3 m) c)
/-- After the host lines that close @main. -/
abbrev W5 (c : Dev nD) : Valuation τ sig (Elt F) := StableHlo.after hostOps2 (W4 m c)

end Cert.Kernel.Hand

end
-- ==== Proof.K.Run.lean ====
/-
  The kernel program's run, from the launch to the return: @main as three host stretches around two kernel regions,
  each region entered with every unscoped buffer at the boundary's contents and left with its result arrays at the
  cores' final accumulators.  Every weakly fair execution terminates, nothing faults, and every unscoped buffer ends at
  the last boundary's contents; the frame claim and the value of the result are read off that.
-/
import proofs.«413172_j20023137534376_3_alg».proof.Proof.K.Region0
import proofs.«413172_j20023137534376_3_alg».proof.Proof.K.Region1
import proofs.«413172_j20023137534376_3_alg».proof.Proof.K.ArrAt0
import proofs.«413172_j20023137534376_3_alg».proof.Proof.K.ArrAt1
import proofs.«413172_j20023137534376_3_alg».proof.Proof.K.Vals
import proofs.«413172_j20023137534376_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The boundary contents away from what an item writes

A host stretch leaves alone every buffer none of its lines writes; a region leaves alone every buffer that is not one
of its result arrays. -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v1_0, main_v1_1] : List (Ref sig .tc))) : W2 m c r = W1 m c r :=
  (Function.update_of_ne (StableHlo.devRef_ne_of_ne (List.ne_of_not_mem_cons (List.not_mem_of_not_mem_cons h))) _ _).trans
    (Function.update_of_ne (StableHlo.devRef_ne_of_ne (List.ne_of_not_mem_cons h)) _ _)
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ ([main_v10] : List (Ref sig .tc))) : W4 m c r = W3 m c r :=
  Function.update_of_ne (StableHlo.devRef_ne_of_ne (List.ne_of_not_mem_cons h)) _ _
theorem W5_of (c : Dev nD) (r : Ref sig .tc) (h : r ∉ hostOps2_W) : W5 m c r = W4 m c r :=
  StableHlo.after_of_writes_sub hostOps2 _ hostOps2_writes h

/-- What region 0 leaves in its result arrays. -/
theorem W2_v1_0 (c : Dev nD) : W2 m c main_v1_0 = G3 (V1 m) c :=
  (Function.update_of_ne (StableHlo.devRef_ne_of_ne (by decide)) _ _).trans (Function.update_self _ _ _)
theorem W2_v1_1 (c : Dev nD) : W2 m c main_v1_1 = G4 (V1 m) c := Function.update_self _ _ _
/-- What region 1 leaves in its result array. -/
theorem W4_v10 (c : Dev nD) : W4 m c main_v10 = G10 (V3 m) c := Function.update_self _ _ _

/-- The boundary contents after each region, read at the TensorCore's references. -/
abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b

/-! ## What each region leaves in the unscoped buffers

At a region's exit each of its arrays holds what the pipeline's fold of write-backs leaves (an input array is never
written back, a result array ends at the cores' final accumulators), and every other buffer what it held at entry. -/

theorem hF0 (Φ : Dev nD → Fin (cfg0.N + 1) → sProp 𝕄) (c : Dev nD) :
    ∀ w : Fin 5, (dat0 (V1 m) Φ c).arrAt w cfg0.N = V2 m c (Pipeline.arrRef spec0 w)
  | 0 => ((dat0 (V1 m) Φ c).arrAt_in 0 rfl _).trans (W2_of m c main_arg0 (by decide)).symm
  | 1 => ((dat0 (V1 m) Φ c).arrAt_in 1 rfl _).trans (W2_of m c main_arg1 (by decide)).symm
  | 2 => ((dat0 (V1 m) Φ c).arrAt_in 2 rfl _).trans (W2_of m c main_v0 (by decide)).symm
  | 3 => (arrAt0_3 (V1 m) Φ c).trans (W2_v1_0 m c).symm
  | 4 => (arrAt0_4 (V1 m) Φ c).trans (W2_v1_1 m c).symm
  | ⟨_ + 5, h⟩ => absurd h (Nat.not_lt.2 (Nat.le_add_left _ _))

theorem hrest0 (c : Dev nD) : ∀ b, b ∉ Finset.univ.image (Pipeline.arrRef spec0) → V2 m c b = V1 m c b :=
  fun b hb => W2_of m c b fun hmem => by
    rcases List.mem_cons.mp hmem with rfl | hmem
    · exact hb (Finset.mem_image.mpr ⟨3, Finset.mem_univ _, rfl⟩)
    rcases List.mem_cons.mp hmem with rfl | hmem
    · exact hb (Finset.mem_image.mpr ⟨4, Finset.mem_univ _, rfl⟩)
    · exact List.not_mem_nil hmem

theorem hF1 (Φ : Dev nD → Fin (cfg1.N + 1) → sProp 𝕄) (c : Dev nD) :
    ∀ w : Fin 5, (dat1 (V3 m) Φ c).arrAt w cfg1.N = V4 m c (Pipeline.arrRef spec1 w)
  | 0 => ((dat1 (V3 m) Φ c).arrAt_in 0 rfl _).trans (W4_of m c main_arg0 (by decide)).symm
  | 1 => ((dat1 (V3 m) Φ c).arrAt_in 1 rfl _).trans (W4_of m c main_arg1 (by decide)).symm
  | 2 => ((dat1 (V3 m) Φ c).arrAt_in 2 rfl _).trans (W4_of m c main_v0 (by decide)).symm
  | 3 => ((dat1 (V3 m) Φ c).arrAt_in 3 rfl _).trans (W4_of m c main_v9 (by decide)).symm
  | 4 => (arrAt1_4 (V3 m) Φ c).trans (W4_v10 m c).symm
  | ⟨_ + 5, h⟩ => absurd h (Nat.not_lt.2 (Nat.le_add_left _ _))

theorem hrest1 (c : Dev nD) : ∀ b, b ∉ Finset.univ.image (Pipeline.arrRef spec1) → V4 m c b = V3 m c b :=
  fun b hb => W4_of m c b fun hmem => by
    rcases List.mem_cons.mp hmem with rfl | hmem
    · exact hb (Finset.mem_image.mpr ⟨4, Finset.mem_univ _, rfl⟩)
    · exact List.not_mem_nil hmem

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => d0 (V1 m) c
  | ⟨1, _⟩ => fun c => d1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as an item: over the unscoped references from the contents `W`, `R` riding along; it ends with
    those references at the stretch's result on `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as items -/

set_option backward.isDefEq.respectTransparency.types false in
/-- Region 0 over the thread state: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m (PhiS0 (V1 m)) c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m (PhiS1 (V3 m)) c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's five items in order: a host item per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the items. -/
theorem main_run (c : Dev nD) : main (F := F) c = Pipeline.Seg.run (segs m) := (main_chain c).trans (by chain_rfl)

set_option backward.isDefEq.respectTransparency.types false in
/-- Every unscoped buffer of every core ends at the last boundary's contents. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- No host line and no region writes an argument array. -/
theorem W5_main_arg0 (c : Dev nD) : W5 m c main_arg0 = m ((c : Thread nD τ).loc main_arg0) :=
  (W5_of m c main_arg0 (by decide)).trans <| (W4_of m c main_arg0 (by decide)).trans <| (W3_of m c main_arg0 (by decide)).trans <|
    (W2_of m c main_arg0 (by decide)).trans <| (W1_of m c main_arg0 (by decide)).trans rfl
theorem W5_main_arg1 (c : Dev nD) : W5 m c main_arg1 = m ((c : Thread nD τ).loc main_arg1) :=
  (W5_of m c main_arg1 (by decide)).trans <| (W4_of m c main_arg1 (by decide)).trans <| (W3_of m c main_arg1 (by decide)).trans <|
    (W2_of m c main_arg1 (by decide)).trans <| (W1_of m c main_arg1 (by decide)).trans rfl
theorem W5_main_arg2 (c : Dev nD) : W5 m c main_arg2 = m ((c : Thread nD τ).loc main_arg2) :=
  (W5_of m c main_arg2 (by decide)).trans <| (W4_of m c main_arg2 (by decide)).trans <| (W3_of m c main_arg2 (by decide)).trans <|
    (W2_of m c main_arg2 (by decide)).trans <| (W1_of m c main_arg2 (by decide)).trans rfl

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v13) = W5 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v13 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.Kernel.Hand

end
-- ==== Proof.KI.Dat.lean ====
/-
  What the two regions of the kernel program compute, as definitions only (no proofs), at any float instance and at
  any contents `V` of the TensorCore's buffers when a region is entered.

  Region 0 (grid 2 × 16, point t = 16·core + tile) reads at point t the 2048-row blocks number t of z1, z2 and of the
  labels column, and keeps two accumulators across the 16 tiles of a core: a 256 × 256 array (per class, the sum of
  the normalised rows of that class) and a 1 × 256 array (twice the number of rows per class). Both are reset to zero
  at tile 0 and copied to the core's slab of the two results at tile 15.  Region 1 has the same schedule, reads the
  class-means table whole beside the three blocks, and keeps one 1 × 1 accumulator (the sum of the rows' log
  probabilities), copied to the core's entry of its result at tile 15.
-/
import proofs.«413172_j20023137534376_3_alg».proof.Proof.Gen.KernelIdeal.Launch
import proofs.«413172_j20023137534376_3_alg».proof.Proof.Gen.KernelIdeal.Skeleton
import proofs.«413172_j20023137534376_3_alg».proof.Proof.Gen.KernelIdeal.Points
import Idealize.ShloMosaic.Lib.Pipeline.FrameBody
import Idealize.ShloMosaic.Lib.Pipeline.Kit
import Idealize.ShloMosaic.Lib.ValueIdx

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

-- The TensorCore's buffer contents when a region is entered: the parameter everything here is stated at.
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks of point `t` at their literal types: 2048 rows of z1, of z2, of the labels column. -/
abbrev x1b0 (c : Dev nD) (t : Fin cfg0.N) : Vec F S2048x256 .f32 := iblk0 V c 0 t
abbrev x2b0 (c : Dev nD) (t : Fin cfg0.N) : Vec F S2048x256 .f32 := iblk0 V c 1 t
abbrev lb0 (c : Dev nD) (t : Fin cfg0.N) : Vec F S2048x1 .i32 := iblk0 V c 2 t

/-- The two accumulators: per-class sums (256 × 256) and per-class doubled counts (1 × 256). -/
abbrev Sc0 (F : FTy → Type) [FloatOps F] : Type := Vec F S256x256 .f32 × Vec F S1x256 .f32

/-- Both accumulators at zero. -/
def init0 : Sc0 F := (k0_pay5, k0_pay6)

/-- One point's update: the tile's per-class sums added to the first, twice the tile's per-class counts to the second. -/
def step0 (s : Sc0 F) (x1 x2 : Vec F S2048x256 .f32) (l : Vec F S2048x1 .i32) : Sc0 F :=
  (k0_pay1 s.1 (k0_pay9 x1 x2 l), k0_pay2 (k0_pay8 l) s.2)

/-- The accumulators after point `n`: restarted from zero at the first tile of a core. -/
def sAt0 (c : Dev nD) : (n : ℕ) → n < cfg0.N → Sc0 F
  | 0, hn => step0 init0 (x1b0 V c ⟨0, hn⟩) (x2b0 V c ⟨0, hn⟩) (lb0 V c ⟨0, hn⟩)
  | n + 1, hn =>
    if (n + 1) % 16 = 0 then step0 init0 (x1b0 V c ⟨n + 1, hn⟩) (x2b0 V c ⟨n + 1, hn⟩) (lb0 V c ⟨n + 1, hn⟩)
    else step0 (sAt0 c n (Nat.lt_of_succ_lt hn)) (x1b0 V c ⟨n + 1, hn⟩) (x2b0 V c ⟨n + 1, hn⟩) (lb0 V c ⟨n + 1, hn⟩)

/-- The proof data of region 0, the invariant `Φ` a parameter: the arrays as found; each input's buffer at its block;
    each result's buffer at the accumulator of the point, re-laid with a leading unit axis. -/
def dat0 (Φ : Dev nD → Fin (cfg0.N + 1) → sProp 𝕄) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (sAt0 V c t.val t.isLt).1
    | ⟨4, _⟩ => k0_pay4 (sAt0 V c t.val t.isLt).2
  Φ := Φ c
  q _ := fullShare
  owed _ := 0

/-- The accumulators a core ends with (after its tile 15). -/
def fin0 (c : Dev nD) (k : Fin 2) : Sc0 F :=
  sAt0 V c (16 * k.val + 15) (by have := k.isLt; have hN : cfg0.N = 32 := N_0; omega)

/-- What region 0 leaves in its two result arrays: core `k`'s slab is that core's final accumulator. -/
def G3 (c : Dev nD) : (⟨S2x256x256, .f32⟩ : BufTy).Contents (Elt F) :=
  fun i => (fin0 V c (i 0)).1 (ValueIdx.ix2 (i 1) (i 2))
def G4 (c : Dev nD) : (⟨S2x1x256, .f32⟩ : BufTy).Contents (Elt F) :=
  fun i => (fin0 V c (i 0)).2 (ValueIdx.ix2 (i 1) (i 2))

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks of point `t`: 2048 rows of z1, of z2, of the labels column, and the whole class-means table. -/
abbrev x1b1 (c : Dev nD) (t : Fin cfg1.N) : Vec F S2048x256 .f32 := iblk1 V c 0 t
abbrev x2b1 (c : Dev nD) (t : Fin cfg1.N) : Vec F S2048x256 .f32 := iblk1 V c 1 t
abbrev lb1 (c : Dev nD) (t : Fin cfg1.N) : Vec F S2048x1 .i32 := iblk1 V c 2 t
abbrev mub1 (c : Dev nD) (t : Fin cfg1.N) : Vec F S256x256 .bf16 := iblk1 V c 3 t

/-- One point's update of the 1 × 1 accumulator: the tile's rows' log probabilities, of both views, added to it. -/
def step1 (s : Vec F S1x1 .f32) (x1 x2 : Vec F S2048x256 .f32) (l : Vec F S2048x1 .i32) (mu : Vec F S256x256 .bf16) : Vec F S1x1 .f32 :=
  k1_pay1 (k1_pay5 x1 mu) (k1_pay6 x2 mu) (k1_pay7 l) (k1_pay8 x1 l mu) s

/-- The accumulator after point `n`: restarted from zero at the first tile of a core. -/
def sAt1 (c : Dev nD) : (n : ℕ) → n < cfg1.N → Vec F S1x1 .f32
  | 0, hn => step1 k1_pay3 (x1b1 V c ⟨0, hn⟩) (x2b1 V c ⟨0, hn⟩) (lb1 V c ⟨0, hn⟩) (mub1 V c ⟨0, hn⟩)
  | n + 1, hn =>
    if (n + 1) % 16 = 0 then step1 k1_pay3 (x1b1 V c ⟨n + 1, hn⟩) (x2b1 V c ⟨n + 1, hn⟩) (lb1 V c ⟨n + 1, hn⟩) (mub1 V c ⟨n + 1, hn⟩)
    else step1 (sAt1 c n (Nat.lt_of_succ_lt hn)) (x1b1 V c ⟨n + 1, hn⟩) (x2b1 V c ⟨n + 1, hn⟩) (lb1 V c ⟨n + 1, hn⟩) (mub1 V c ⟨n + 1, hn⟩)

/-- The proof data of region 1, the invariant `Φ` a parameter. -/
def dat1 (Φ : Dev nD → Fin (cfg1.N + 1) → sProp 𝕄) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (sAt1 V c t.val t.isLt)
  Φ := Φ c
  q _ := fullShare
  owed _ := 0

/-- The accumulator a core ends with. -/
def fin1 (c : Dev nD) (k : Fin 2) : Vec F S1x1 .f32 :=
  sAt1 V c (16 * k.val + 15) (by have := k.isLt; have hN : cfg1.N = 32 := N_1; omega)

/-- What region 1 leaves in its result array: core `k`'s entry is that core's final accumulator. -/
def G10 (c : Dev nD) : (⟨S2x1x1, .f32⟩ : BufTy).Contents (Elt F) :=
  fun i => fin1 V c (i 0) (ValueIdx.ix2 (i 1) (i 2))

end Cert.KernelIdeal.Hand

end
-- ==== Proof.KI.Region0.lean ====
/-
  Region 0 of the kernel program as the pipeline library wants it: the invariant that carries the two accumulators
  from point to point, the body's run in each of its three control cases, and the body obligation at every point.

  The grid is 2 × 16 and point t = 16·core + tile.  At tile 0 the body first stores zeros into both accumulators;
  at every tile it adds the tile's per-class sums to the first and twice the tile's per-class counts to the second;
  at tile 15 it copies both into the core's blocks of the two results, which are idle at every other tile.  So the
  accumulators after point t are `sAt0 V c t`: `step0 init0` of the point's blocks at tile 0, `step0` of what the
  point before left otherwise.
-/
import proofs.«413172_j20023137534376_3_alg».proof.Proof.KI.Dat
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The control cases -/

/-- The body's first conditional (the reset), from the grid coordinates: the tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16): decided over the 32 points. -/
theorem hcond0_0 : ∀ t : Fin cfg0.N, cond0_0 (grid0.coords t) ↔ t.val % 16 = 0 :=
  (by decide +kernel : ∀ t : Fin grid0.N, cond0_0 (grid0.coords t) ↔ t.val % 16 = 0)

/-- The body's second conditional (the copy-out): the tile coordinate is 15. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The two results are idle away from tile 15, and live at it. -/
theorem idleAt0_3 : ∀ t : Fin cfg0.N, ¬t.val % 16 = 15 → cfg0.idle 3 (grid0.coords t) = true :=
  (by decide +kernel : ∀ t : Fin grid0.N, ¬t.val % 16 = 15 → cfg0.idle 3 (grid0.coords t) = true)
theorem idleAt0_4 : ∀ t : Fin cfg0.N, ¬t.val % 16 = 15 → cfg0.idle 4 (grid0.coords t) = true :=
  (by decide +kernel : ∀ t : Fin grid0.N, ¬t.val % 16 = 15 → cfg0.idle 4 (grid0.coords t) = true)
theorem liveAt0_3 : ∀ t : Fin cfg0.N, t.val % 16 = 15 → cfg0.idle 3 (grid0.coords t) = false :=
  (by decide +kernel : ∀ t : Fin grid0.N, t.val % 16 = 15 → cfg0.idle 3 (grid0.coords t) = false)
theorem liveAt0_4 : ∀ t : Fin cfg0.N, t.val % 16 = 15 → cfg0.idle 4 (grid0.coords t) = false :=
  (by decide +kernel : ∀ t : Fin grid0.N, t.val % 16 = 15 → cfg0.idle 4 (grid0.coords t) = false)
/-- Away from tile 15 their blocks are not written back. -/
theorem noFlush0_3 (t : Fin cfg0.N) (h : ¬t.val % 16 = 15) : (cfg0.win 3).flush t = false :=
  Bool.eq_false_iff.mpr fun hf => h ((flush0_3 t).mp hf)
theorem noFlush0_4 (t : Fin cfg0.N) (h : ¬t.val % 16 = 15) : (cfg0.win 4).flush t = false :=
  Bool.eq_false_iff.mpr fun hf => h ((flush0_4 t).mp hf)

/-! ## The accumulators point by point -/

/-- At the first tile of a core the accumulators restart from zero. -/
theorem sAt0_reset (c : Dev nD) (t : Fin cfg0.N) (h0 : t.val % 16 = 0) :
    sAt0 V c t.val t.isLt = step0 init0 (x1b0 V c t) (x2b0 V c t) (lb0 V c t) := by
  obtain ⟨n, hn⟩ := t
  cases n with
  | zero => rfl
  | succ n => exact (if_pos h0).trans rfl

/-- At every other tile they continue from what the point before left. -/
theorem sAt0_step (c : Dev nD) (t : Fin cfg0.N) (h0 : ¬t.val % 16 = 0) :
    sAt0 V c t.val t.isLt
      = step0 (sAt0 V c (t.val - 1) (Nat.lt_of_le_of_lt (Nat.sub_le _ _) t.isLt)) (x1b0 V c t) (x2b0 V c t) (lb0 V c t) := by
  obtain ⟨n, hn⟩ := t
  cases n with
  | zero => exact absurd (Nat.zero_mod _) h0
  | succ n => exact (if_neg h0).trans rfl

/-! ## The invariant -/

/-- The two accumulators as memrefs: whole scoped buffers of the kernel's own. -/
abbrev scM0_0 : Memref sig .tc .vmem S256x256 .f32 := Memref.whole cc0_scratch0
abbrev scM0_1 : Memref sig .tc .vmem S1x256 .f32 := Memref.whole cc0_scratch1

/-- The core's other scoped buffers that no window of this region stages (the other region's staging buffers and
    its accumulator), each at some contents: this region never touches them. -/
def other0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f))

/-- What the launch hands the region, with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ other0 (F := F) c) ∗ (∃ r, prngReg c r)) := by
  unfold Pipeline.ΦA other0; rw [scopedRest0_eq]; simp only [scM0_0, scM0_1, owns_whole]; try rfl

/-- The invariant before position `n`: what the launch hands over before the first point; afterwards the two
    accumulators at what the point before left, the other scoped buffers at some contents, and the generator
    register at some state. -/
def PhiN0 (c : Dev nD) : (n : ℕ) → n ≤ cfg0.N → sProp 𝕄
  | 0, _ => Pipeline.ΦA spec0 c
  | n + 1, hn => iprop(iprop(owns (c : Thread nD τ) scM0_0 fullShare (sAt0 V c n hn).1 ∗ owns (c : Thread nD τ) scM0_1 fullShare (sAt0 V c n hn).2 ∗ other0 (F := F) c) ∗ (∃ r, prngReg c r))

theorem PhiN0_zero (c : Dev nD) (n : ℕ) (h : n ≤ cfg0.N) (hz : n = 0) : PhiN0 V c n h = Pipeline.ΦA spec0 c := by
  subst hz; rfl

theorem PhiN0_succ (c : Dev nD) (n : ℕ) (hn : n < cfg0.N) :
    PhiN0 V c (n + 1) hn = iprop(iprop(owns (c : Thread nD τ) scM0_0 fullShare (sAt0 V c n hn).1 ∗ owns (c : Thread nD τ) scM0_1 fullShare (sAt0 V c n hn).2 ∗ other0 (F := F) c) ∗ (∃ r, prngReg c r)) := rfl

theorem PhiN0_pos (c : Dev nD) (n : ℕ) (h : n ≤ cfg0.N) (hz : n ≠ 0) :
    PhiN0 V c n h = iprop(iprop(owns (c : Thread nD τ) scM0_0 fullShare (sAt0 V c (n - 1) (by omega)).1 ∗ owns (c : Thread nD τ) scM0_1 fullShare (sAt0 V c (n - 1) (by omega)).2 ∗ other0 (F := F) c) ∗ (∃ r, prngReg c r)) := by
  cases n with
  | zero => exact absurd rfl hz
  | succ n => rfl

/-- The invariant before point `t`: before the first point the scoped buffers no window of this region stages at any
    contents and the generator register; afterwards the accumulators at what the point before left, the other such
    buffers at any contents, and the generator register. -/
def PhiS0 (c : Dev nD) (t : Fin (cfg0.N + 1)) : sProp 𝕄 :=
  PhiN0 V c t.val (Nat.le_of_lt_succ t.isLt)

/-- The proof data of region 0 with that invariant. -/
abbrev d0 (c : Dev nD) : Dat τ (Elt F) Unit ℕ (UR sig nD τ) ℕ cfg0 c := dat0 V (PhiS0 V) c

/-! ## The body's run, case by case -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- A store through the whole-shape rectangle, made last, leaves its payload in the buffer whatever was stored before. -/
theorem read_writes_unit_zero {sg : RefSig} {κ : Kind} {sp : Space} {S : Shape} {e : EltTy} (v : View sg κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons.mpr (Or.inl rfl), View.mem_set_unit_zero hz inb y⟩).trans
    (View.canon_cons_unit_zero hz inb w L)

set_option maxHeartbeats 4000000 in
/-- AT TILE 0: the accumulators hold anything; the body stores zeros into both, then the tile's update of those zeros.
    The two results are not touched. -/
theorem runA (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x1 .i32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S256x256 .f32) (harg7 : arg7.IsWhole) (arg8 : Memref sig .tc .vmem S1x256 .f32) (harg8 : arg8.IsWhole) (hc0 : cond0_0 i) (hc1 : ¬cond0_1 i)
    (x1 x2 : Vec F S2048x256 .f32) (l : Vec F S2048x1 .i32) (xi3 : Vec F S1x256x256 .f32) (xi4 : Vec F S1x1x256 .f32) (E : Set ℕ) (K : PUnit → sProp 𝕄) :
    iprop(owns (c : Thread nD τ) arg2 fullShare x1 ∗ owns (c : Thread nD τ) arg3 fullShare x2 ∗ owns (c : Thread nD τ) arg4 fullShare l
        ∗ owns (c : Thread nD τ) arg5 fullShare xi3 ∗ owns (c : Thread nD τ) arg6 fullShare xi4
        ∗ (∃ d, owns (c : Thread nD τ) arg7 fullShare d) ∗ (∃ d, owns (c : Thread nD τ) arg8 fullShare d)
        ∗ (iprop(owns (c : Thread nD τ) arg2 fullShare x1 ∗ owns (c : Thread nD τ) arg3 fullShare x2 ∗ owns (c : Thread nD τ) arg4 fullShare l
            ∗ owns (c : Thread nD τ) arg5 fullShare xi3 ∗ owns (c : Thread nD τ) arg6 fullShare xi4
            ∗ owns (c : Thread nD τ) arg7 fullShare (step0 init0 x1 x2 l).1 ∗ owns (c : Thread nD τ) arg8 fullShare (step0 init0 x1 x2 l).2) -∗ K ⟨⟩))
      ⊢ wp frame (wpE (defs₀ (F := F)) Variants.none c none) E (cc0_seg_sum_kernel i arg2 harg2 arg3 harg3 arg4 harg4 arg5 harg5 arg6 harg6 arg7 harg7 arg8 harg8) K := by
  simp only [cc0_seg_sum_kernel_eq_skeleton]; unfold cc0_seg_sum_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    sl_unfold_words
    refine (read_writes_unit_zero (F := F) _ _ hz2 _ _ _).trans ?_
    simp only [View.readCov_unit_zero (S := S256x256) _ hz2, View.readAt_eq_ld, hf2, hf3, hf4, View.ld_unit_zero (S := S256x256) hz2, View.ld_unit_zero (S := S1x256) hz2, View.ld_unit_zero (S := S2048x256) hz2, View.ld_unit_zero (S := S2048x1) hz2, step0, init0]
  iexists _; isplitr
  swap; · iexact H8
  ipureintro
  sl_unfold_words
  refine (read_writes_unit_zero (F := F) _ _ hz2 _ _ _).trans ?_
  simp only [View.readCov_unit_zero (S := S1x256) _ hz2, View.readAt_eq_ld, hf2, hf3, hf4, View.ld_unit_zero (S := S256x256) hz2, View.ld_unit_zero (S := S1x256) hz2, View.ld_unit_zero (S := S2048x256) hz2, View.ld_unit_zero (S := S2048x1) hz2, step0, init0]

set_option maxHeartbeats 4000000 in
/-- AT TILES 1 TO 14: the accumulators hold `s`; the body stores the tile's update of `s`. The two results are not
    touched. -/
theorem runB (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x1 .i32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S256x256 .f32) (harg7 : arg7.IsWhole) (arg8 : Memref sig .tc .vmem S1x256 .f32) (harg8 : arg8.IsWhole) (hc0 : ¬cond0_0 i) (hc1 : ¬cond0_1 i)
    (x1 x2 : Vec F S2048x256 .f32) (l : Vec F S2048x1 .i32) (s : Sc0 F) (xi3 : Vec F S1x256x256 .f32) (xi4 : Vec F S1x1x256 .f32) (E : Set ℕ) (K : PUnit → sProp 𝕄) :
    iprop(owns (c : Thread nD τ) arg2 fullShare x1 ∗ owns (c : Thread nD τ) arg3 fullShare x2 ∗ owns (c : Thread nD τ) arg4 fullShare l
        ∗ owns (c : Thread nD τ) arg5 fullShare xi3 ∗ owns (c : Thread nD τ) arg6 fullShare xi4
        ∗ owns (c : Thread nD τ) arg7 fullShare s.1 ∗ owns (c : Thread nD τ) arg8 fullShare s.2
        ∗ (iprop(owns (c : Thread nD τ) arg2 fullShare x1 ∗ owns (c : Thread nD τ) arg3 fullShare x2 ∗ owns (c : Thread nD τ) arg4 fullShare l
            ∗ owns (c : Thread nD τ) arg5 fullShare xi3 ∗ owns (c : Thread nD τ) arg6 fullShare xi4
            ∗ owns (c : Thread nD τ) arg7 fullShare (step0 s x1 x2 l).1 ∗ owns (c : Thread nD τ) arg8 fullShare (step0 s x1 x2 l).2) -∗ K ⟨⟩))
      ⊢ wp frame (wpE (defs₀ (F := F)) Variants.none c none) E (cc0_seg_sum_kernel i arg2 harg2 arg3 harg3 arg4 harg4 arg5 harg5 arg6 harg6 arg7 harg7 arg8 harg8) K := by
  simp only [cc0_seg_sum_kernel_eq_skeleton]; unfold cc0_seg_sum_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    sl_unfold_words
    refine (read_writes_unit_zero (F := F) _ _ hz2 _ _ _).trans ?_
    simp only [View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]
  iexists _; isplitr
  swap; · iexact H8
  ipureintro
  sl_unfold_words
  refine (read_writes_unit_zero (F := F) _ _ hz2 _ _ _).trans ?_
  simp only [View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]

set_option maxHeartbeats 4000000 in
/-- AT TILE 15: as at tiles 1 to 14, and then the body copies the updated accumulators into the two results' buffers,
    each re-laid with a leading unit axis. -/
theorem runC (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x1 .i32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S256x256 .f32) (harg7 : arg7.IsWhole) (arg8 : Memref sig .tc .vmem S1x256 .f32) (harg8 : arg8.IsWhole) (hc0 : ¬cond0_0 i) (hc1 : cond0_1 i)
    (x1 x2 : Vec F S2048x256 .f32) (l : Vec F S2048x1 .i32) (s : Sc0 F) (E : Set ℕ) (K : PUnit → sProp 𝕄) :
    iprop(owns (c : Thread nD τ) arg2 fullShare x1 ∗ owns (c : Thread nD τ) arg3 fullShare x2 ∗ owns (c : Thread nD τ) arg4 fullShare l
        ∗ (∃ d, owns (c : Thread nD τ) arg5 fullShare d) ∗ (∃ d, owns (c : Thread nD τ) arg6 fullShare d)
        ∗ owns (c : Thread nD τ) arg7 fullShare s.1 ∗ owns (c : Thread nD τ) arg8 fullShare s.2
        ∗ (iprop(owns (c : Thread nD τ) arg2 fullShare x1 ∗ owns (c : Thread nD τ) arg3 fullShare x2 ∗ owns (c : Thread nD τ) arg4 fullShare l
            ∗ owns (c : Thread nD τ) arg5 fullShare (k0_pay3 (step0 s x1 x2 l).1) ∗ owns (c : Thread nD τ) arg6 fullShare (k0_pay4 (step0 s x1 x2 l).2)
            ∗ owns (c : Thread nD τ) arg7 fullShare (step0 s x1 x2 l).1 ∗ owns (c : Thread nD τ) arg8 fullShare (step0 s x1 x2 l).2) -∗ K ⟨⟩))
      ⊢ wp frame (wpE (defs₀ (F := F)) Variants.none c none) E (cc0_seg_sum_kernel i arg2 harg2 arg3 harg3 arg4 harg4 arg5 harg5 arg6 harg6 arg7 harg7 arg8 harg8) K := by
  simp only [cc0_seg_sum_kernel_eq_skeleton]; unfold cc0_seg_sum_kernel_skel
  simp only [k0_part1_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    refine (read_writes_unit_zero (F := F) _ _ hz3 _ _ _).trans ?_
    simp only [View.readCov_unit_zero (S := S256x256) _ hz2, View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]
  isplitl [H6]
  · iexists _; isplitr
    swap; · iexact H6
    ipureintro
    sl_unfold_words
    refine (read_writes_unit_zero (F := F) _ _ hz3 _ _ _).trans ?_
    simp only [View.readCov_unit_zero (S := S1x256) _ hz2, View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]
  isplitl [H7]
  · iexists _; isplitr
    swap; · iexact H7
    ipureintro
    sl_unfold_words
    refine (read_writes_unit_zero (F := F) _ _ hz2 _ _ _).trans ?_
    simp only [View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]
  iexists _; isplitr
  swap; · iexact H8
  ipureintro
  sl_unfold_words
  refine (read_writes_unit_zero (F := F) _ _ hz2 _ _ _).trans ?_
  simp only [View.readAt_eq_ld, hf2, hf3, hf4, hf7, hf8, View.ld_unit_zero (S := S256x256) hz2, View.ld_unit_zero (S := S1x256) hz2, View.ld_unit_zero (S := S2048x256) hz2, View.ld_unit_zero (S := S2048x1) hz2, step0]

/-! ## The proof data read field by field -/

theorem A_eq0 (c : Dev nD) (w : Fin cfg0.W) : (d0 V c).A w = V c (Pipeline.arrRef spec0 w) := by
  dsimp only [d0, dat0]

theorem after0_0 (c : Dev nD) (t : Fin cfg0.N) : (d0 V c).after 0 t = iblk0 V c 0 t := by dsimp only [d0, dat0]
theorem after0_1 (c : Dev nD) (t : Fin cfg0.N) : (d0 V c).after 1 t = iblk0 V c 1 t := by dsimp only [d0, dat0]
theorem after0_2 (c : Dev nD) (t : Fin cfg0.N) : (d0 V c).after 2 t = iblk0 V c 2 t := by dsimp only [d0, dat0]
theorem after0_3 (c : Dev nD) (t : Fin cfg0.N) : (d0 V c).after 3 t = k0_pay3 (sAt0 V c t.val t.isLt).1 := by dsimp only [d0, dat0]
theorem after0_4 (c : Dev nD) (t : Fin cfg0.N) : (d0 V c).after 4 t = k0_pay4 (sAt0 V c t.val t.isLt).2 := by dsimp only [d0, dat0]

/-- Each input's current staging buffer holds its block at every point, fetched there or not. -/
theorem before0_0 (c : Dev nD) (t : Fin cfg0.N) (d) : (d0 V c).before 0 t d = iblk0 V c 0 t :=
  ((d0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (d0 V c).before 1 t d = iblk0 V c 1 t :=
  ((d0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (d0 V c).before 2 t d = iblk0 V c 2 t :=
  ((d0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- The invariant at a point's start and end, restated at `t.val`. -/
theorem Phi_castSucc0 (c : Dev nD) (t : Fin cfg0.N) :
    (d0 V c).Φ t.castSucc = PhiN0 V c t.val (Nat.le_of_lt t.isLt) := by
  dsimp only [d0, dat0, PhiS0]; simp only [Fin.coe_castSucc]

theorem Phi_succ0 (c : Dev nD) (t : Fin cfg0.N) :
    (d0 V c).Φ t.succ = PhiN0 V c (t.val + 1) t.isLt := rfl

/-- The inputs are live at every point: each is left at its block. -/
theorem leaves0_0 (c : Dev nD) (t : Fin cfg0.N) : (d0 V c).leavesExact 0 t = owns (c : Thread nD τ) (win0_0.stage (cfg0.slots t 0)) fullShare (iblk0 V c 0 t) := by
  unfold Dat.leavesExact; rw [liveAt0_0 t, after0_0]
theorem leaves0_1 (c : Dev nD) (t : Fin cfg0.N) : (d0 V c).leavesExact 1 t = owns (c : Thread nD τ) (win0_1.stage (cfg0.slots t 1)) fullShare (iblk0 V c 1 t) := by
  unfold Dat.leavesExact; rw [liveAt0_1 t, after0_1]
theorem leaves0_2 (c : Dev nD) (t : Fin cfg0.N) : (d0 V c).leavesExact 2 t = owns (c : Thread nD τ) (win0_2.stage (cfg0.slots t 2)) fullShare (iblk0 V c 2 t) := by
  unfold Dat.leavesExact; rw [liveAt0_2 t, after0_2]
/-- At tile 15 the two results are live: each is left at the point's accumulator, re-laid. -/
theorem leaves0_3 (c : Dev nD) (t : Fin cfg0.N) (h1 : t.val % 16 = 15) : (d0 V c).leavesExact 3 t = owns (c : Thread nD τ) (win0_3.stage (cfg0.slots t 3)) fullShare (k0_pay3 (sAt0 V c t.val t.isLt).1) := by
  unfold Dat.leavesExact; rw [liveAt0_3 t h1, after0_3]
theorem leaves0_4 (c : Dev nD) (t : Fin cfg0.N) (h1 : t.val % 16 = 15) : (d0 V c).leavesExact 4 t = owns (c : Thread nD τ) (win0_4.stage (cfg0.slots t 4)) fullShare (k0_pay4 (sAt0 V c t.val t.isLt).2) := by
  unfold Dat.leavesExact; rw [liveAt0_4 t h1, after0_4]

/-! ## The body obligation, at a generic point -/

/-- What the body is called with at point `t` (the obligation's precondition, the windows one by one), -/
def bodyPre0 (c : Dev nD) (t : Fin cfg0.N) : sProp 𝕄 :=
  iprop((d0 V c).Φ t.castSucc ∗ (d0 V c).owesAt () t.castSucc
    ∗ (∃ d, owns (c : Thread nD τ) (win0_0.stage (cfg0.slots t 0)) fullShare ((d0 V c).before 0 t d))
    ∗ (∃ d, owns (c : Thread nD τ) (win0_1.stage (cfg0.slots t 1)) fullShare ((d0 V c).before 1 t d))
    ∗ (∃ d, owns (c : Thread nD τ) (win0_2.stage (cfg0.slots t 2)) fullShare ((d0 V c).before 2 t d))
    ∗ (∃ d, owns (c : Thread nD τ) (win0_3.stage (cfg0.slots t 3)) fullShare ((d0 V c).before 3 t d))
    ∗ (∃ d, owns (c : Thread nD τ) (win0_4.stage (cfg0.slots t 4)) fullShare ((d0 V c).before 4 t d)))

/-- and what it returns. -/
def bodyPost0 (c : Dev nD) (t : Fin cfg0.N) : sProp 𝕄 :=
  iprop((d0 V c).Φ t.succ ∗ (d0 V c).owesAt () t.succ
    ∗ (d0 V c).leavesExact 0 t
    ∗ (d0 V c).leavesExact 1 t
    ∗ (d0 V c).leavesExact 2 t
    ∗ (d0 V c).leavesExact 3 t
    ∗ (d0 V c).leavesExact 4 t)

set_option maxHeartbeats 4800000 in
/-- The body at any point: the inputs' buffers hold their blocks; the tile decides the case; the invariant hands the
    body the accumulators at what the point before left (at anything before the first point) and takes them back at
    this point's; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (d0 V c).owesAt () t.succ = (d0 V c).owesAt () t.castSucc from rfl]
  rw [Phi_succ0 V c t, PhiN0_succ V c t.val t.isLt, Phi_castSucc0 V c t]
  rw [leaves0_0 V c t, leaves0_1 V c t, leaves0_2 V c t]
  have hN : t.val < 32 := lt_of_lt_of_eq t.isLt (show cfg0.N = 32 from N_0)
  by_cases h0 : t.val % 16 = 0
  · have h1 : ¬t.val % 16 = 15 := by omega
    rw [Dat.leavesExact_idle (d0 V c) 3 t (idleAt0_3 t h1) (noFlush0_3 t h1), Dat.leavesExact_idle (d0 V c) 4 t (idleAt0_4 t h1) (noFlush0_4 t h1)]
    rw [sAt0_reset V c t h0]
    by_cases hz : t.val = 0
    · rw [PhiN0_zero V c _ _ hz, PhiA0_eq]
      iintro ⟨⟨⟨HS0, HS1, Hr⟩, Hg⟩, Ho, ⟨%e0, H0⟩, ⟨%e1, H1⟩, ⟨%e2, H2⟩, ⟨%e3, H3⟩, ⟨%e4, H4⟩⟩
      iapply (runA c (grid0.coords t) _ _ _ _ _ _ _ _ _ _ _ _ _ _ ((hcond0_0 t).mpr h0) (fun h => h1 ((hcond0_1 t).mp h)) (x1b0 V c t) (x2b0 V c t) (lb0 V c t) ((d0 V c).before 3 t e3) ((d0 V c).before 4 t e4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexists _; iexact H3
      iexists _; iexact H4
    · rw [PhiN0_pos V c _ _ hz]
      iintro ⟨⟨⟨HS0, HS1, Hr⟩, Hg⟩, Ho, ⟨%e0, H0⟩, ⟨%e1, H1⟩, ⟨%e2, H2⟩, ⟨%e3, H3⟩, ⟨%e4, H4⟩⟩
      iapply (runA c (grid0.coords t) _ _ _ _ _ _ _ _ _ _ _ _ _ _ ((hcond0_0 t).mpr h0) (fun h => h1 ((hcond0_1 t).mp h)) (x1b0 V c t) (x2b0 V c t) (lb0 V c t) ((d0 V c).before 3 t e3) ((d0 V c).before 4 t e4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    rw [sAt0_step V c t h0, PhiN0_pos V c _ _ hz]
    by_cases h1 : t.val % 16 = 15
    · rw [leaves0_3 V c t h1, leaves0_4 V c t h1, sAt0_step V c t h0]
      iintro ⟨⟨⟨HS0, HS1, Hr⟩, Hg⟩, Ho, ⟨%e0, H0⟩, ⟨%e1, H1⟩, ⟨%e2, H2⟩, ⟨%e3, H3⟩, ⟨%e4, H4⟩⟩
      iapply (runC c (grid0.coords t) _ _ _ _ _ _ _ _ _ _ _ _ _ _ (fun h => h0 ((hcond0_0 t).mp h)) ((hcond0_1 t).mpr h1) (x1b0 V c t) (x2b0 V c t) (lb0 V c t) (sAt0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (d0 V c) 3 t (idleAt0_3 t h1) (noFlush0_3 t h1), Dat.leavesExact_idle (d0 V c) 4 t (idleAt0_4 t h1) (noFlush0_4 t h1)]
      iintro ⟨⟨⟨HS0, HS1, Hr⟩, Hg⟩, Ho, ⟨%e0, H0⟩, ⟨%e1, H1⟩, ⟨%e2, H2⟩, ⟨%e3, H3⟩, ⟨%e4, H4⟩⟩
      iapply (runB c (grid0.coords t) _ _ _ _ _ _ _ _ _ _ _ _ _ _ (fun h => h0 ((hcond0_0 t).mp h)) (fun h => h1 ((hcond0_1 t).mp h)) (x1b0 V c t) (x2b0 V c t) (lb0 V c t) (sAt0 V c (t.val - 1) (Nat.lt_of_le_of_lt (Nat.sub_le _ _) t.isLt)) ((d0 V c).before 3 t e3) ((d0 V c).before 4 t e4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexists _; iexact H3
      iexists _; iexact H4

/-- The body obligation at every point. -/
theorem body_obligation0 (c : Dev nD) : BodyObligation (d0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (d0 V c).Φ 0 := by
  rw [show (d0 V c).Φ 0 = PhiN0 V c 0 (Nat.zero_le _) from rfl, PhiN0_zero V c 0 _ rfl]

/-- After the last point the invariant gives it back (the accumulator's contents forgotten). -/
theorem hout0 (c : Dev nD) : (d0 V c).Φ (Fin.last cfg0.N) ⊢ (Pipeline.ΦA spec0 c : sProp 𝕄) := by
  have hN : cfg0.N = 32 := N_0
  rw [show (d0 V c).Φ (Fin.last cfg0.N) = PhiN0 V c (Fin.last cfg0.N).val (Nat.le_of_lt_succ (Fin.last cfg0.N).isLt) from rfl,
    PhiN0_pos V c _ _ (by rw [Fin.val_last]; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.KernelIdeal.Hand

end
-- ==== Proof.KI.Region1.lean ====
/-
  Region 1 of the kernel program as the pipeline library wants it: the invariant that carries the accumulator from
  point to point, the body's run at a point, and the body obligation at every point.
-/
import proofs.«413172_j20023137534376_3_alg».proof.Proof.KI.Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditionals, decided over the grid -/

/-- The first conditional (the reset of the accumulator), from the grid coordinates: the tile is the first of its core. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The second conditional (the copy of the accumulator into the result's block): the tile is the last of its core. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The zero offsets of a rank-2 and of a rank-3 whole-buffer rectangle. -/
theorem zoff2 : (![0, 0] : Fin 2 → Nat) = fun _ => 0 := by funext a; fin_cases a <;> rfl
theorem zoff3 : (![0, 0, 0] : Fin 3 → Nat) = fun _ => 0 := by funext a; fin_cases a <;> rfl

/-- A store through the whole-shape rectangle, made last, leaves its payload in the buffer whatever was stored before. -/
theorem read_writes_last {sg : RefSig} {κ : Kind} {sp : Space} {S : Shape} {e : EltTy} (v : View sg κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons.mpr (Or.inl rfl), View.mem_set_unit_zero hz inb y⟩).trans
    (View.canon_cons_unit_zero hz inb w L)

/-! ## The body's run, case by case -/

set_option maxHeartbeats 4000000 in
/-- At the first tile of a core: the accumulator holds anything; the body stores zero into it, then the tile's update
    of that zero. The result's buffer is not touched. -/
theorem run1_A (c : Dev nD) (E : Set ℕ) (i : grid1.Coords)
    (arg2 : Memref sig .tc .vmem S2048x256 .f32) (harg2 : arg2.IsWhole) (arg3 : Memref sig .tc .vmem S2048x256 .f32) (harg3 : arg3.IsWhole)
    (arg4 : Memref sig .tc .vmem S2048x1 .i32) (harg4 : arg4.IsWhole) (arg5 : Memref sig .tc .vmem S256x256 .bf16) (harg5 : arg5.IsWhole)
    (arg6 : Memref sig .tc .vmem S1x1x1 .f32) (harg6 : arg6.IsWhole) (arg7 : Memref sig .tc .vmem S1x1 .f32) (harg7 : arg7.IsWhole)
    (hc0 : cond1_0 i) (hc1 : ¬cond1_1 i)
    (x1 x2 : Vec F S2048x256 .f32) (l : Vec F S2048x1 .i32) (mu : Vec F S256x256 .bf16) (xo : Vec F S1x1x1 .f32)
    (K : PUnit → sProp 𝕄) :
    iprop(owns (c : Thread nD τ) arg2 fullShare x1 ∗ owns (c : Thread nD τ) arg3 fullShare x2 ∗ owns (c : Thread nD τ) arg4 fullShare l
        ∗ owns (c : Thread nD τ) arg5 fullShare mu ∗ owns (c : Thread nD τ) arg6 fullShare xo ∗ (∃ d, owns (c : Thread nD τ) arg7 fullShare d)
        ∗ (iprop(owns (c : Thread nD τ) arg2 fullShare x1 ∗ owns (c : Thread nD τ) arg3 fullShare x2 ∗ owns (c : Thread nD τ) arg4 fullShare l
            ∗ owns (c : Thread nD τ) arg5 fullShare mu ∗ owns (c : Thread nD τ) arg6 fullShare xo
            ∗ owns (c : Thread nD τ) arg7 fullShare (step1 k1_pay3 x1 x2 l mu)) -∗ K ⟨⟩))
      ⊢ wp frame (wpE (defs₀ (F := F)) Variants.none c none) E (cc1_loss_kernel i arg2 harg2 arg3 harg3 arg4 harg4 arg5 harg5 arg6 harg6 arg7 harg7) K := by
  simp only [cc1_loss_kernel_eq_skeleton]; unfold cc1_loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  refine (read_writes_last (F := F) _ _ zoff2 _ _ _).trans ?_
  unfold step1
  simp only [View.readAt_eq_ld, harg2.read_unread, harg3.read_unread, harg4.read_unread, harg5.read_unread,
    View.readCov_unit_zero (S := S1x1) _ zoff2,
    View.ld_unit_zero (S := S2048x256) zoff2, View.ld_unit_zero (S := S2048x1) zoff2, View.ld_unit_zero (S := S256x256) zoff2, View.ld_unit_zero (S := S1x1) zoff2]

set_option maxHeartbeats 4000000 in
/-- At a middle tile: the accumulator holds `s`; the body stores the tile's update of `s`. The result's buffer is not
    touched. -/
theorem run1_B (c : Dev nD) (E : Set ℕ) (i : grid1.Coords)
    (arg2 : Memref sig .tc .vmem S2048x256 .f32) (harg2 : arg2.IsWhole) (arg3 : Memref sig .tc .vmem S2048x256 .f32) (harg3 : arg3.IsWhole)
    (arg4 : Memref sig .tc .vmem S2048x1 .i32) (harg4 : arg4.IsWhole) (arg5 : Memref sig .tc .vmem S256x256 .bf16) (harg5 : arg5.IsWhole)
    (arg6 : Memref sig .tc .vmem S1x1x1 .f32) (harg6 : arg6.IsWhole) (arg7 : Memref sig .tc .vmem S1x1 .f32) (harg7 : arg7.IsWhole)
    (hc0 : ¬cond1_0 i) (hc1 : ¬cond1_1 i)
    (x1 x2 : Vec F S2048x256 .f32) (l : Vec F S2048x1 .i32) (mu : Vec F S256x256 .bf16) (xo : Vec F S1x1x1 .f32) (s : Vec F S1x1 .f32)
    (K : PUnit → sProp 𝕄) :
    iprop(owns (c : Thread nD τ) arg2 fullShare x1 ∗ owns (c : Thread nD τ) arg3 fullShare x2 ∗ owns (c : Thread nD τ) arg4 fullShare l
        ∗ owns (c : Thread nD τ) arg5 fullShare mu ∗ owns (c : Thread nD τ) arg6 fullShare xo ∗ owns (c : Thread nD τ) arg7 fullShare s
        ∗ (iprop(owns (c : Thread nD τ) arg2 fullShare x1 ∗ owns (c : Thread nD τ) arg3 fullShare x2 ∗ owns (c : Thread nD τ) arg4 fullShare l
            ∗ owns (c : Thread nD τ) arg5 fullShare mu ∗ owns (c : Thread nD τ) arg6 fullShare xo
            ∗ owns (c : Thread nD τ) arg7 fullShare (step1 s x1 x2 l mu)) -∗ K ⟨⟩))
      ⊢ wp frame (wpE (defs₀ (F := F)) Variants.none c none) E (cc1_loss_kernel i arg2 harg2 arg3 harg3 arg4 harg4 arg5 harg5 arg6 harg6 arg7 harg7) K := by
  simp only [cc1_loss_kernel_eq_skeleton]; unfold cc1_loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  refine (read_writes_last (F := F) _ _ zoff2 _ _ _).trans ?_
  unfold step1
  simp only [View.readAt_eq_ld, harg2.read_unread, harg3.read_unread, harg4.read_unread, harg5.read_unread, harg7.read_unread,
    View.ld_unit_zero (S := S2048x256) zoff2, View.ld_unit_zero (S := S2048x1) zoff2, View.ld_unit_zero (S := S256x256) zoff2, View.ld_unit_zero (S := S1x1) zoff2]

set_option maxHeartbeats 4000000 in
/-- At the last tile of a core: as at a middle tile, and then the body copies the updated accumulator into the result's
    buffer, re-laid with a leading unit axis. -/
theorem run1_C (c : Dev nD) (E : Set ℕ) (i : grid1.Coords)
    (arg2 : Memref sig .tc .vmem S2048x256 .f32) (harg2 : arg2.IsWhole) (arg3 : Memref sig .tc .vmem S2048x256 .f32) (harg3 : arg3.IsWhole)
    (arg4 : Memref sig .tc .vmem S2048x1 .i32) (harg4 : arg4.IsWhole) (arg5 : Memref sig .tc .vmem S256x256 .bf16) (harg5 : arg5.IsWhole)
    (arg6 : Memref sig .tc .vmem S1x1x1 .f32) (harg6 : arg6.IsWhole) (arg7 : Memref sig .tc .vmem S1x1 .f32) (harg7 : arg7.IsWhole)
    (hc0 : ¬cond1_0 i) (hc1 : cond1_1 i)
    (x1 x2 : Vec F S2048x256 .f32) (l : Vec F S2048x1 .i32) (mu : Vec F S256x256 .bf16) (s : Vec F S1x1 .f32)
    (K : PUnit → sProp 𝕄) :
    iprop(owns (c : Thread nD τ) arg2 fullShare x1 ∗ owns (c : Thread nD τ) arg3 fullShare x2 ∗ owns (c : Thread nD τ) arg4 fullShare l
        ∗ owns (c : Thread nD τ) arg5 fullShare mu ∗ (∃ d, owns (c : Thread nD τ) arg6 fullShare d) ∗ owns (c : Thread nD τ) arg7 fullShare s
        ∗ (iprop(owns (c : Thread nD τ) arg2 fullShare x1 ∗ owns (c : Thread nD τ) arg3 fullShare x2 ∗ owns (c : Thread nD τ) arg4 fullShare l
            ∗ owns (c : Thread nD τ) arg5 fullShare mu ∗ owns (c : Thread nD τ) arg6 fullShare (k1_pay2 (step1 s x1 x2 l mu))
            ∗ owns (c : Thread nD τ) arg7 fullShare (step1 s x1 x2 l mu)) -∗ K ⟨⟩))
      ⊢ wp frame (wpE (defs₀ (F := F)) Variants.none c none) E (cc1_loss_kernel i arg2 harg2 arg3 harg3 arg4 harg4 arg5 harg5 arg6 harg6 arg7 harg7) K := by
  simp only [cc1_loss_kernel_eq_skeleton]; unfold cc1_loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (read_writes_last (F := F) _ _ zoff3 _ _ _).trans ?_
    unfold step1
    simp only [View.readAt_eq_ld, harg2.read_unread, harg3.read_unread, harg4.read_unread, harg5.read_unread, harg7.read_unread,
      View.readCov_unit_zero (S := S1x1) _ zoff2,
      View.ld_unit_zero (S := S2048x256) zoff2, View.ld_unit_zero (S := S2048x1) zoff2, View.ld_unit_zero (S := S256x256) zoff2, View.ld_unit_zero (S := S1x1) zoff2]
  iexists _; isplitr
  swap; · iexact H7
  ipureintro
  sl_unfold_words
  refine (read_writes_last (F := F) _ _ zoff2 _ _ _).trans ?_
  unfold step1
  simp only [View.readAt_eq_ld, harg2.read_unread, harg3.read_unread, harg4.read_unread, harg5.read_unread, harg7.read_unread,
    View.ld_unit_zero (S := S2048x256) zoff2, View.ld_unit_zero (S := S2048x1) zoff2, View.ld_unit_zero (S := S256x256) zoff2, View.ld_unit_zero (S := S1x1) zoff2]

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The result's window is idle, and not written back, at every tile but the last of a core; there it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The accumulator point by point -/

/-- At the first tile of a core the accumulator restarts from zero. -/
theorem sAt1_reset (c : Dev nD) (t : Fin cfg1.N) (h0 : t.val % 16 = 0) :
    sAt1 V c t.val t.isLt = step1 k1_pay3 (x1b1 V c t) (x2b1 V c t) (lb1 V c t) (mub1 V c t) := by
  obtain ⟨n, hn⟩ := t
  cases n with
  | zero => rfl
  | succ n => exact (if_pos h0).trans rfl

/-- At a later tile it is the point's update of what the point before left. -/
theorem sAt1_step (c : Dev nD) (t : Fin cfg1.N) (h0 : ¬t.val % 16 = 0) :
    sAt1 V c t.val t.isLt = step1 (sAt1 V c (t.val - 1) (Nat.lt_of_le_of_lt (Nat.sub_le _ _) t.isLt)) (x1b1 V c t) (x2b1 V c t) (lb1 V c t) (mub1 V c t) := by
  obtain ⟨n, hn⟩ := t
  cases n with
  | zero => exact absurd (Nat.zero_mod _) h0
  | succ n => exact (if_neg h0).trans rfl

/-! ## The invariant -/

/-- The region's scratch accumulator, a whole scoped buffer. -/
abbrev scM1 : Memref sig .tc .vmem S1x1 .f32 := Memref.whole cc1_scratch0

/-- A whole scoped buffer of the core at some contents. -/
abbrev anyAt (c : Dev nD) (b : Ref sig .tc) : sProp 𝕄 :=
  iprop(∃ f : Buf (Elt F) ((c : Thread nD τ).loc b), ((c : Thread nD τ).loc b) ↦{fullShare} f)

/-- The scoped buffers this region's windows do not stage and its kernel does not touch — the other region's staging
    buffers and its two accumulators —, each at some contents. -/
def oth1 (c : Dev nD) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1
    ∗ anyAt (F := F) c cc0_stg3_0 ∗ anyAt (F := F) c cc0_stg3_1 ∗ anyAt (F := F) c cc0_stg4_0 ∗ anyAt (F := F) c cc0_stg4_1 ∗ anyAt (F := F) c cc0_scratch0 ∗ anyAt (F := F) c cc0_scratch1)

/-- What the launch hands the region, listed: those buffers, then this region's accumulator at some contents, and the
    generator register. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1
          ∗ anyAt (F := F) c cc0_stg3_0 ∗ anyAt (F := F) c cc0_stg3_1 ∗ anyAt (F := F) c cc0_stg4_0 ∗ anyAt (F := F) c cc0_stg4_1 ∗ anyAt (F := F) c cc0_scratch0 ∗ anyAt (F := F) c cc0_scratch1
          ∗ (∃ d, owns (c : Thread nD τ) scM1 fullShare d)) ∗ (∃ r, prngReg c r)) := by
  unfold Pipeline.ΦA; rw [scopedRest1_eq]; simp only [scM1, owns_whole]; try rfl

/-- The same with the untouched buffers gathered into one factor. -/
theorem PhiA1_split (c : Dev nD) :
    (Pipeline.ΦA spec1 c : sProp 𝕄) ⊢ iprop(iprop(oth1 (F := F) c ∗ (∃ d, owns (c : Thread nD τ) scM1 fullShare d)) ∗ (∃ r, prngReg c r)) := by
  rw [PhiA1_eq]; unfold oth1
  iintro ⟨⟨A1, A2, A3, A4, A5, A6, A7, A8, A9, A10, A11, A12, HS⟩, Hg⟩
  isplitr [Hg]
  · isplitr [HS]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact A12
    iexact HS
  iexact Hg

theorem PhiA1_join (c : Dev nD) :
    iprop(iprop(oth1 (F := F) c ∗ (∃ d, owns (c : Thread nD τ) scM1 fullShare d)) ∗ (∃ r, prngReg c r)) ⊢ (Pipeline.ΦA spec1 c : sProp 𝕄) := by
  rw [PhiA1_eq]; unfold oth1
  iintro ⟨⟨⟨A1, A2, A3, A4, A5, A6, A7, A8, A9, A10, A11, A12⟩, HS⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact HS
  iexact Hg

/-- The invariant before position `n`: before the first point what the launch hands over; afterwards the untouched
    buffers, the accumulator at what the point before left in it, and the generator register. -/
def PhiS1n (c : Dev nD) : (n : ℕ) → n ≤ cfg1.N → sProp 𝕄
  | 0, _ => Pipeline.ΦA spec1 c
  | n + 1, hn => iprop(iprop(oth1 (F := F) c ∗ owns (c : Thread nD τ) scM1 fullShare (sAt1 V c n hn)) ∗ (∃ r, prngReg c r))

/-- The invariant before point `t`: before the first point the scoped buffers no window of this region stages at any
    contents and the generator register; afterwards the accumulator at what the point before left, the other such
    buffers at any contents, and the generator register. -/
def PhiS1 (c : Dev nD) (t : Fin (cfg1.N + 1)) : sProp 𝕄 :=
  PhiS1n V c t.val (Nat.le_of_lt_succ t.isLt)

/-- The proof data of region 1 with that invariant. -/
abbrev d1 (c : Dev nD) : Dat τ (Elt F) Unit ℕ (UR sig nD τ) ℕ cfg1 c := dat1 V (PhiS1 V) c

theorem PhiS1n_zero (c : Dev nD) (n : ℕ) (h : n ≤ cfg1.N) (hz : n = 0) : PhiS1n V c n h = Pipeline.ΦA spec1 c := by
  subst hz; rfl

theorem PhiS1n_succ (c : Dev nD) (n : ℕ) (hn : n < cfg1.N) :
    PhiS1n V c (n + 1) hn = iprop(iprop(oth1 (F := F) c ∗ owns (c : Thread nD τ) scM1 fullShare (sAt1 V c n hn)) ∗ (∃ r, prngReg c r)) := rfl

theorem PhiS1n_pos (c : Dev nD) (n : ℕ) (h : n ≤ cfg1.N) (hz : n ≠ 0) :
    PhiS1n V c n h = iprop(iprop(oth1 (F := F) c ∗ owns (c : Thread nD τ) scM1 fullShare (sAt1 V c (n - 1) (by omega))) ∗ (∃ r, prngReg c r)) := by
  cases n with
  | zero => exact absurd rfl hz
  | succ n => rfl

/-- The invariant at a point's start and at its end, restated at the point's position. -/
theorem Phi1_castSucc (c : Dev nD) (t : Fin cfg1.N) : (d1 V c).Φ t.castSucc = PhiS1n V c t.val (Nat.le_of_lt t.isLt) := rfl
theorem Phi1_succ (c : Dev nD) (t : Fin cfg1.N) : (d1 V c).Φ t.succ = PhiS1n V c (t.val + 1) t.isLt := rfl

/-! ## What the body finds and leaves, window by window -/

theorem A_eq1 (c : Dev nD) (w : Fin cfg1.W) : (d1 V c).A w = V c (Pipeline.arrRef spec1 w) := by
  dsimp only [d1, dat1]

theorem after1_0 (c : Dev nD) (t : Fin cfg1.N) : (d1 V c).after 0 t = iblk1 V c 0 t := by dsimp only [d1, dat1]
theorem after1_1 (c : Dev nD) (t : Fin cfg1.N) : (d1 V c).after 1 t = iblk1 V c 1 t := by dsimp only [d1, dat1]
theorem after1_2 (c : Dev nD) (t : Fin cfg1.N) : (d1 V c).after 2 t = iblk1 V c 2 t := by dsimp only [d1, dat1]
theorem after1_3 (c : Dev nD) (t : Fin cfg1.N) : (d1 V c).after 3 t = iblk1 V c 3 t := by dsimp only [d1, dat1]
theorem after1_4 (c : Dev nD) (t : Fin cfg1.N) : (d1 V c).after 4 t = k1_pay2 (sAt1 V c t.val t.isLt) := by dsimp only [d1, dat1]

/-- Each input's current staging buffer holds its block at every point, fetched there or not: an input not fetched at
    a point has the block index of the point before, and the body leaves every input's buffer as it found it. -/
theorem before1_0 (c : Dev nD) (t : Fin cfg1.N) (d) : (d1 V c).before 0 t d = iblk1 V c 0 t :=
  ((d1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (d1 V c).before 1 t d = iblk1 V c 1 t :=
  ((d1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (d1 V c).before 2 t d = iblk1 V c 2 t :=
  ((d1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (d1 V c).before 3 t d = iblk1 V c 3 t :=
  ((d1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The four inputs are live at every point: each is left at its block. -/
theorem leaves1_0 (c : Dev nD) (t : Fin cfg1.N) : (d1 V c).leavesExact 0 t = owns (c : Thread nD τ) (win1_0.stage (cfg1.slots t 0)) fullShare (iblk1 V c 0 t) := by
  unfold Dat.leavesExact; rw [liveAt1_0 t, after1_0]
theorem leaves1_1 (c : Dev nD) (t : Fin cfg1.N) : (d1 V c).leavesExact 1 t = owns (c : Thread nD τ) (win1_1.stage (cfg1.slots t 1)) fullShare (iblk1 V c 1 t) := by
  unfold Dat.leavesExact; rw [liveAt1_1 t, after1_1]
theorem leaves1_2 (c : Dev nD) (t : Fin cfg1.N) : (d1 V c).leavesExact 2 t = owns (c : Thread nD τ) (win1_2.stage (cfg1.slots t 2)) fullShare (iblk1 V c 2 t) := by
  unfold Dat.leavesExact; rw [liveAt1_2 t, after1_2]
theorem leaves1_3 (c : Dev nD) (t : Fin cfg1.N) : (d1 V c).leavesExact 3 t = owns (c : Thread nD τ) (win1_3.stage (cfg1.slots t 3)) fullShare (iblk1 V c 3 t) := by
  unfold Dat.leavesExact; rw [liveAt1_3 t, after1_3]
/-- At the last tile of a core the result is live: it is left at the point's accumulator, re-laid. -/
theorem leaves1_4 (c : Dev nD) (t : Fin cfg1.N) (h1 : cond1_1 (grid1.coords t)) : (d1 V c).leavesExact 4 t = owns (c : Thread nD τ) (win1_4.stage (cfg1.slots t 4)) fullShare (k1_pay2 (sAt1 V c t.val t.isLt)) := by
  unfold Dat.leavesExact; rw [liveAt1_4 t h1, after1_4]

/-- Whatever the position, the invariant holds the untouched buffers, the accumulator at some contents, and the
    generator register. -/
theorem PhiS1n_any (c : Dev nD) (n : ℕ) (h : n ≤ cfg1.N) :
    PhiS1n V c n h ⊢ iprop(iprop(oth1 (F := F) c ∗ (∃ d, owns (c : Thread nD τ) scM1 fullShare d)) ∗ (∃ r, prngReg c r)) := by
  cases n with
  | zero => exact PhiA1_split c
  | succ n =>
    rw [PhiS1n_succ]
    iintro ⟨⟨Hr, HS⟩, Hg⟩
    isplitr [Hg]
    · isplitl [Hr]; · iexact Hr
      iexists _; iexact HS
    iexact Hg

/-! ## The body obligation, at a generic point -/

/-- What the body is called with at point `t` (the obligation's precondition, the windows one by one), -/
def bodyPre1 (c : Dev nD) (t : Fin cfg1.N) : sProp 𝕄 :=
  iprop((d1 V c).Φ t.castSucc ∗ (d1 V c).owesAt () t.castSucc
    ∗ (∃ d, owns (c : Thread nD τ) (win1_0.stage (cfg1.slots t 0)) fullShare ((d1 V c).before 0 t d))
    ∗ (∃ d, owns (c : Thread nD τ) (win1_1.stage (cfg1.slots t 1)) fullShare ((d1 V c).before 1 t d))
    ∗ (∃ d, owns (c : Thread nD τ) (win1_2.stage (cfg1.slots t 2)) fullShare ((d1 V c).before 2 t d))
    ∗ (∃ d, owns (c : Thread nD τ) (win1_3.stage (cfg1.slots t 3)) fullShare ((d1 V c).before 3 t d))
    ∗ (∃ d, owns (c : Thread nD τ) (win1_4.stage (cfg1.slots t 4)) fullShare ((d1 V c).before 4 t d)))

/-- and what it returns. -/
def bodyPost1 (c : Dev nD) (t : Fin cfg1.N) : sProp 𝕄 :=
  iprop((d1 V c).Φ t.succ ∗ (d1 V c).owesAt () t.succ
    ∗ (d1 V c).leavesExact 0 t
    ∗ (d1 V c).leavesExact 1 t
    ∗ (d1 V c).leavesExact 2 t
    ∗ (d1 V c).leavesExact 3 t
    ∗ (d1 V c).leavesExact 4 t)

set_option maxHeartbeats 4800000 in
/-- The body at any point: the inputs' buffers hold their blocks; the tile decides the case; the invariant hands the
    body the accumulator at what the point before left (at anything where the body restarts it) and takes it back at
    this point's; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (d1 V c).owesAt () t.succ = (d1 V c).owesAt () t.castSucc from rfl]
  rw [Phi1_succ V c t, PhiS1n_succ V c t.val t.isLt, Phi1_castSucc V c t]
  rw [leaves1_0 V c t, leaves1_1 V c t, leaves1_2 V c t, leaves1_3 V c t]
  have hN : t.val < 32 := lt_of_lt_of_eq t.isLt (show cfg1.N = 32 from N_1)
  by_cases h0 : t.val % 16 = 0
  · have h1 : ¬t.val % 16 = 15 := by omega
    have hc1 : ¬cond1_1 (grid1.coords t) := fun h => h1 ((hcond1_1 t).mp h)
    rw [Dat.leavesExact_idle (d1 V c) 4 t (idleAt1_4 t hc1) (noFlush1_4 t hc1)]
    rw [sAt1_reset V c t h0]
    refine (sep_mono_left (PhiS1n_any V c t.val _)).trans ?_
    iintro ⟨⟨⟨Hr, HS⟩, Hg⟩, Ho, ⟨%e0, H0⟩, ⟨%e1, H1⟩, ⟨%e2, H2⟩, ⟨%e3, H3⟩, ⟨%e4, H4⟩⟩
    iapply (run1_A c Set.univ (grid1.coords t) _ _ _ _ _ _ _ _ _ _ _ _ ((hcond1_0 t).mpr h0) hc1 (x1b1 V c t) (x2b1 V c t) (lb1 V c t) (mub1 V c t) ((d1 V c).before 4 t e4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [Hr HS Hg]
    · isplitr [Hg]
      · isplitl [Hr]; · iexact Hr
        iexact HS
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    have hc0 : ¬cond1_0 (grid1.coords t) := fun h => h0 ((hcond1_0 t).mp h)
    rw [sAt1_step V c t h0, PhiS1n_pos V c _ _ hz]
    by_cases h1 : t.val % 16 = 15
    · have hc1 : cond1_1 (grid1.coords t) := (hcond1_1 t).mpr h1
      rw [leaves1_4 V c t hc1, sAt1_step V c t h0]
      iintro ⟨⟨⟨Hr, HS⟩, Hg⟩, Ho, ⟨%e0, H0⟩, ⟨%e1, H1⟩, ⟨%e2, H2⟩, ⟨%e3, H3⟩, ⟨%e4, H4⟩⟩
      iapply (run1_C c Set.univ (grid1.coords t) _ _ _ _ _ _ _ _ _ _ _ _ hc0 hc1 (x1b1 V c t) (x2b1 V c t) (lb1 V c t) (mub1 V c t) (sAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hr HS Hg]
      · isplitr [Hg]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (d1 V c) 4 t (idleAt1_4 t hc1) (noFlush1_4 t hc1)]
      iintro ⟨⟨⟨Hr, HS⟩, Hg⟩, Ho, ⟨%e0, H0⟩, ⟨%e1, H1⟩, ⟨%e2, H2⟩, ⟨%e3, H3⟩, ⟨%e4, H4⟩⟩
      iapply (run1_B c Set.univ (grid1.coords t) _ _ _ _ _ _ _ _ _ _ _ _ hc0 hc1 (x1b1 V c t) (x2b1 V c t) (lb1 V c t) (mub1 V c t) ((d1 V c).before 4 t e4) (sAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitr [Hg]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation1 (c : Dev nD) : BodyObligation (d1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (d1 V c).Φ 0 := by
  rw [show (d1 V c).Φ 0 = PhiS1n V c 0 (Nat.zero_le _) from rfl, PhiS1n_zero V c 0 _ rfl]

/-- After the last point the invariant gives it back (the accumulator's contents forgotten). -/
theorem hout1 (c : Dev nD) : (d1 V c).Φ (Fin.last cfg1.N) ⊢ (Pipeline.ΦA spec1 c : sProp 𝕄) := by
  have hN : cfg1.N = 32 := N_1
  rw [show (d1 V c).Φ (Fin.last cfg1.N) = PhiS1n V c (Fin.last cfg1.N).val (Nat.le_of_lt_succ (Fin.last cfg1.N).isLt) from rfl]
  exact (PhiS1n_any V c _ _).trans (PhiA1_join c)

end Cert.KernelIdeal.Hand

end
-- ==== Proof.KI.ArrAt0.lean ====
/-
  What the pipeline's fold of region 0's write-backs leaves in its result arrays, at any float instance: each core
  writes its slab back once, at its last tile, so the arrays end at the cores' final accumulators.
-/
import proofs.«413172_j20023137534376_3_alg».proof.Proof.KI.Dat
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace ArrAt0

/-- Two readings of the accumulators at equal points agree. -/
theorem sAt0_congr (c : Dev nD) {n m : ℕ} (e : n = m) (hn : n < cfg0.N) (hm : m < cfg0.N) :
    sAt0 V c n hn = sAt0 V c m hm := by subst e; rfl

/-- Result 0's block index at a point: the core on the leading axis, zero on the two others. -/
theorem idx0_3 : ∀ t : Fin cfg0.N, win0_3.index t (0 : Fin 3) = t.val / 16 ∧ win0_3.index t (1 : Fin 3) = 0 ∧ win0_3.index t (2 : Fin 3) = 0 :=
  (by decide +kernel : ∀ t : Fin grid0.N, _)

/-- What a core's last tile writes back into result 0 is that core's slab of the final sums. -/
theorem flushed0_3_eq (Φ : Dev nD → Fin (cfg0.N + 1) → sProp 𝕄) (c : Dev nD) (t : Fin cfg0.N) (hf : (cfg0.win 3).flush t = true) :
    (dat0 V Φ c).flushed 3 t = ((cfg0.win 3).blk t).view.read (Elt F) (G3 V c) := by
  have h15 : t.val % 16 = 15 := (flush0_3 t).mp hf
  obtain ⟨e0, e1, e2⟩ := idx0_3 t
  funext j
  show k0_pay3 (sAt0 V c t.val t.isLt).1 (win0_3.xinj (grid0.coords t) j) = G3 V c (((cfg0.win 3).blk t).view.emb j)
  unfold k0_pay3 G3 fin0
  rw [shapeCast_addUnit_apply]
  have hj0 : (j 0).val < 1 := (j 0).isLt
  -- the slab under the block is the point's core
  have a0 : (((cfg0.win 3).blk t).view.emb j 0).val = t.val / 16 := by
    show win0_3.index t (0 : Fin 3) * 1 + 1 * (j 0).val = t.val / 16
    rw [e0]; omega
  have key : ∀ h, sAt0 V c (16 * (((cfg0.win 3).blk t).view.emb j 0).val + 15) h = sAt0 V c t.val t.isLt :=
    fun h => sAt0_congr V c (by rw [a0]; omega) _ _
  rw [key]
  refine congrArg _ (funext fun a => Fin.ext ?_)
  match a with
  | ⟨0, _⟩ => show (j 1).val = win0_3.index t (1 : Fin 3) * 256 + 1 * (j 1).val; rw [e1]; omega
  | ⟨1, _⟩ => show (j 2).val = win0_3.index t (2 : Fin 3) * 256 + 1 * (j 2).val; rw [e2]; omega

/-- An index of result 0 is under a point's block iff each coordinate is in the block's range on its axis. -/
theorem mem_blk0_3 (t : Fin cfg0.N) (i : S2x256x256.Idx) :
    i ∈ ((cfg0.win 3).blk t).view.set ↔ ∀ a : Fin 3, win0_3.index t a * S1x256x256.size a ≤ (i a).val ∧ (i a).val < win0_3.index t a * S1x256x256.size a + S1x256x256.size a := by
  show i ∈ ((View.whole main_v1_0).slice (win0_3.rect t)).set ↔ _
  rw [View.set_slice_whole, Rect.mem_set_unit]
  exact Iff.rfl

/-- Result 1's block index at a point: the core on the leading axis, zero on the two others. -/
theorem idx0_4 : ∀ t : Fin cfg0.N, win0_4.index t (0 : Fin 3) = t.val / 16 ∧ win0_4.index t (1 : Fin 3) = 0 ∧ win0_4.index t (2 : Fin 3) = 0 :=
  (by decide +kernel : ∀ t : Fin grid0.N, _)

/-- What a core's last tile writes back into result 1 is that core's slab of the final doubled counts. -/
theorem flushed0_4_eq (Φ : Dev nD → Fin (cfg0.N + 1) → sProp 𝕄) (c : Dev nD) (t : Fin cfg0.N) (hf : (cfg0.win 4).flush t = true) :
    (dat0 V Φ c).flushed 4 t = ((cfg0.win 4).blk t).view.read (Elt F) (G4 V c) := by
  have h15 : t.val % 16 = 15 := (flush0_4 t).mp hf
  obtain ⟨e0, e1, e2⟩ := idx0_4 t
  funext j
  show k0_pay4 (sAt0 V c t.val t.isLt).2 (win0_4.xinj (grid0.coords t) j) = G4 V c (((cfg0.win 4).blk t).view.emb j)
  unfold k0_pay4 G4 fin0
  rw [shapeCast_addUnit_apply]
  have hj0 : (j 0).val < 1 := (j 0).isLt
  -- the slab under the block is the point's core
  have a0 : (((cfg0.win 4).blk t).view.emb j 0).val = t.val / 16 := by
    show win0_4.index t (0 : Fin 3) * 1 + 1 * (j 0).val = t.val / 16
    rw [e0]; omega
  have key : ∀ h, sAt0 V c (16 * (((cfg0.win 4).blk t).view.emb j 0).val + 15) h = sAt0 V c t.val t.isLt :=
    fun h => sAt0_congr V c (by rw [a0]; omega) _ _
  rw [key]
  refine congrArg _ (funext fun a => Fin.ext ?_)
  match a with
  | ⟨0, _⟩ => show (j 1).val = win0_4.index t (1 : Fin 3) * 1 + 1 * (j 1).val; rw [e1]; omega
  | ⟨1, _⟩ => show (j 2).val = win0_4.index t (2 : Fin 3) * 256 + 1 * (j 2).val; rw [e2]; omega

/-- An index of result 1 is under a point's block iff each coordinate is in the block's range on its axis. -/
theorem mem_blk0_4 (t : Fin cfg0.N) (i : S2x1x256.Idx) :
    i ∈ ((cfg0.win 4).blk t).view.set ↔ ∀ a : Fin 3, win0_4.index t a * S1x1x256.size a ≤ (i a).val ∧ (i a).val < win0_4.index t a * S1x1x256.size a + S1x1x256.size a := by
  show i ∈ ((View.whole main_v1_1).slice (win0_4.rect t)).set ↔ _
  rw [View.set_slice_whole, Rect.mem_set_unit]
  exact Iff.rfl

end ArrAt0

/-- The pipeline's fold of region 0's write-backs into result 0 is the cores' final sums. -/
theorem arrAt0_3 (Φ : Dev nD → Fin (cfg0.N + 1) → sProp 𝕄) (c : Dev nD) : (dat0 V Φ c).arrAt 3 cfg0.N = G3 V c :=
  (dat0 V Φ c).arrAt_eq_of_cover 3 (G3 V c) (ArrAt0.flushed0_3_eq V Φ c) fun i => by
    -- slab k is covered by the last tile of core k
    have hN : cfg0.N = 32 := N_0
    have hi0 : (i 0).val < 2 := (i 0).isLt
    have hi1 : (i 1).val < 256 := (i 1).isLt
    have hi2 : (i 2).val < 256 := (i 2).isLt
    refine ⟨⟨16 * (i 0).val + 15, by omega⟩, (flush0_3 _).mpr (by show (16 * (i 0).val + 15) % 16 = 15; omega), ?_⟩
    obtain ⟨e0, e1, e2⟩ := ArrAt0.idx0_3 ⟨16 * (i 0).val + 15, by omega⟩
    rw [ArrAt0.mem_blk0_3]
    intro a
    match a with
    | ⟨0, _⟩ => show win0_3.index _ (0 : Fin 3) * 1 ≤ (i 0).val ∧ (i 0).val < win0_3.index _ (0 : Fin 3) * 1 + 1; rw [e0]; dsimp only; omega
    | ⟨1, _⟩ => show win0_3.index _ (1 : Fin 3) * 256 ≤ (i 1).val ∧ (i 1).val < win0_3.index _ (1 : Fin 3) * 256 + 256; rw [e1]; omega
    | ⟨2, _⟩ => show win0_3.index _ (2 : Fin 3) * 256 ≤ (i 2).val ∧ (i 2).val < win0_3.index _ (2 : Fin 3) * 256 + 256; rw [e2]; omega

/-- Into result 1: the cores' final doubled counts. -/
theorem arrAt0_4 (Φ : Dev nD → Fin (cfg0.N + 1) → sProp 𝕄) (c : Dev nD) : (dat0 V Φ c).arrAt 4 cfg0.N = G4 V c :=
  (dat0 V Φ c).arrAt_eq_of_cover 4 (G4 V c) (ArrAt0.flushed0_4_eq V Φ c) fun i => by
    -- slab k is covered by the last tile of core k
    have hN : cfg0.N = 32 := N_0
    have hi0 : (i 0).val < 2 := (i 0).isLt
    have hi1 : (i 1).val < 1 := (i 1).isLt
    have hi2 : (i 2).val < 256 := (i 2).isLt
    refine ⟨⟨16 * (i 0).val + 15, by omega⟩, (flush0_4 _).mpr (by show (16 * (i 0).val + 15) % 16 = 15; omega), ?_⟩
    obtain ⟨e0, e1, e2⟩ := ArrAt0.idx0_4 ⟨16 * (i 0).val + 15, by omega⟩
    rw [ArrAt0.mem_blk0_4]
    intro a
    match a with
    | ⟨0, _⟩ => show win0_4.index _ (0 : Fin 3) * 1 ≤ (i 0).val ∧ (i 0).val < win0_4.index _ (0 : Fin 3) * 1 + 1; rw [e0]; dsimp only; omega
    | ⟨1, _⟩ => show win0_4.index _ (1 : Fin 3) * 1 ≤ (i 1).val ∧ (i 1).val < win0_4.index _ (1 : Fin 3) * 1 + 1; rw [e1]; omega
    | ⟨2, _⟩ => show win0_4.index _ (2 : Fin 3) * 256 ≤ (i 2).val ∧ (i 2).val < win0_4.index _ (2 : Fin 3) * 256 + 256; rw [e2]; omega

end Cert.KernelIdeal.Hand

end
-- ==== Proof.KI.ArrAt1.lean ====
/-
  What the pipeline's fold of region 1's write-backs leaves in its result array, at any float instance: each core
  writes its slab back once, at its last tile, so the array ends at the cores' final accumulators.
-/
import proofs.«413172_j20023137534376_3_alg».proof.Proof.KI.Dat
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace ArrAt1

/-- Two readings of the accumulator at equal points agree. -/
theorem sAt1_congr (c : Dev nD) {n m : ℕ} (e : n = m) (hn : n < cfg1.N) (hm : m < cfg1.N) :
    sAt1 V c n hn = sAt1 V c m hm := by subst e; rfl

/-- The result's block index at a point: the core on the leading axis, zero on the two others. -/
theorem idx1_4 : ∀ t : Fin cfg1.N, win1_4.index t (0 : Fin 3) = t.val / 16 ∧ win1_4.index t (1 : Fin 3) = 0 ∧ win1_4.index t (2 : Fin 3) = 0 :=
  (by decide +kernel : ∀ t : Fin grid1.N, _)

/-- What a core's last tile writes back into the result is that core's entry of the final accumulators. -/
theorem flushed1_4_eq (Φ : Dev nD → Fin (cfg1.N + 1) → sProp 𝕄) (c : Dev nD) (t : Fin cfg1.N) (hf : (cfg1.win 4).flush t = true) :
    (dat1 V Φ c).flushed 4 t = ((cfg1.win 4).blk t).view.read (Elt F) (G10 V c) := by
  have h15 : t.val % 16 = 15 := (flush1_4 t).mp hf
  obtain ⟨e0, e1, e2⟩ := idx1_4 t
  funext j
  show k1_pay2 (sAt1 V c t.val t.isLt) (win1_4.xinj (grid1.coords t) j) = G10 V c (((cfg1.win 4).blk t).view.emb j)
  unfold k1_pay2 G10 fin1
  rw [shapeCast_addUnit_apply]
  have hj0 : (j 0).val < 1 := (j 0).isLt
  -- the entry under the block is the point's core
  have a0 : (((cfg1.win 4).blk t).view.emb j 0).val = t.val / 16 := by
    show win1_4.index t (0 : Fin 3) * 1 + 1 * (j 0).val = t.val / 16
    rw [e0]; omega
  have key : ∀ h, sAt1 V c (16 * (((cfg1.win 4).blk t).view.emb j 0).val + 15) h = sAt1 V c t.val t.isLt :=
    fun h => sAt1_congr V c (by rw [a0]; omega) _ _
  rw [key]
  refine congrArg _ (funext fun a => Fin.ext ?_)
  match a with
  | ⟨0, _⟩ => show (j 1).val = win1_4.index t (1 : Fin 3) * 1 + 1 * (j 1).val; rw [e1]; omega
  | ⟨1, _⟩ => show (j 2).val = win1_4.index t (2 : Fin 3) * 1 + 1 * (j 2).val; rw [e2]; omega

/-- An index of the result is under a point's block iff each coordinate is in the block's range on its axis. -/
theorem mem_blk1_4 (t : Fin cfg1.N) (i : S2x1x1.Idx) :
    i ∈ ((cfg1.win 4).blk t).view.set ↔ ∀ a : Fin 3, win1_4.index t a * S1x1x1.size a ≤ (i a).val ∧ (i a).val < win1_4.index t a * S1x1x1.size a + S1x1x1.size a := by
  show i ∈ ((View.whole main_v10).slice (win1_4.rect t)).set ↔ _
  rw [View.set_slice_whole, Rect.mem_set_unit]
  exact Iff.rfl

end ArrAt1

/-- The pipeline's fold of region 1's write-backs into its result is the cores' final accumulators. -/
theorem arrAt1_4 (Φ : Dev nD → Fin (cfg1.N + 1) → sProp 𝕄) (c : Dev nD) : (dat1 V Φ c).arrAt 4 cfg1.N = G10 V c :=
  (dat1 V Φ c).arrAt_eq_of_cover 4 (G10 V c) (ArrAt1.flushed1_4_eq V Φ c) fun i => by
    -- entry k is covered by the last tile of core k
    have hN : cfg1.N = 32 := N_1
    have hi0 : (i 0).val < 2 := (i 0).isLt
    have hi1 : (i 1).val < 1 := (i 1).isLt
    have hi2 : (i 2).val < 1 := (i 2).isLt
    refine ⟨⟨16 * (i 0).val + 15, by omega⟩, (flush1_4 _).mpr (by show (16 * (i 0).val + 15) % 16 = 15; omega), ?_⟩
    obtain ⟨e0, e1, e2⟩ := ArrAt1.idx1_4 ⟨16 * (i 0).val + 15, by omega⟩
    rw [ArrAt1.mem_blk1_4]
    intro a
    match a with
    | ⟨0, _⟩ => show win1_4.index _ (0 : Fin 3) * 1 ≤ (i 0).val ∧ (i 0).val < win1_4.index _ (0 : Fin 3) * 1 + 1; rw [e0]; dsimp only; omega
    | ⟨1, _⟩ => show win1_4.index _ (1 : Fin 3) * 1 ≤ (i 1).val ∧ (i 1).val < win1_4.index _ (1 : Fin 3) * 1 + 1; rw [e1]; omega
    | ⟨2, _⟩ => show win1_4.index _ (2 : Fin 3) * 1 ≤ (i 2).val ∧ (i 2).val < win1_4.index _ (2 : Fin 3) * 1 + 1; rw [e2]; omega

end Cert.KernelIdeal.Hand

end
-- ==== Proof.KI.Vals.lean ====
/-
  The contents of the TensorCore's unscoped buffers at each boundary of the kernel program's @main, from the launch
  memory `m`: the labels re-laid as a column; region 0's two result arrays at the cores' final accumulators; the host
  lines that sum the two cores' slabs, divide by the clipped counts and re-lay the means; region 1's result array at
  the cores' final accumulators; the host lines that sum the two entries, divide by 131072 and negate.
-/
import proofs.«413172_j20023137534376_3_alg».proof.Proof.KI.Dat
import Idealize.ShloMosaic.Lib.StableHlo.Run

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Core `c`'s unscoped buffers at launch. -/
abbrev W0 (c : Dev nD) : Valuation τ sig (Elt F) := fun b => m (c, b)
/-- After the host line before region 0 (the labels as a 65536 × 1 column). -/
abbrev W1 (c : Dev nD) : Valuation τ sig (Elt F) := StableHlo.after hostOps0 (W0 m c)
/-- The same read at the TensorCore's references: what region 0 is entered with. -/
abbrev V1 : (c : Dev nD) → (b : Ref sig .tc) → Buf (Elt F) ((c : Thread nD τ).loc b) := fun c b => W1 m c b
/-- After region 0: its two result arrays at the cores' final accumulators, everything else as entered. -/
abbrev W2 (c : Dev nD) : Valuation τ sig (Elt F) :=
  Function.update (Function.update (W1 m c) main_v1_0 (G3 (V1 m) c)) main_v1_1 (G4 (V1 m) c)
/-- After the host lines between the regions (the class means, re-laid for region 1). -/
abbrev W3 (c : Dev nD) : Valuation τ sig (Elt F) := StableHlo.after hostOps1 (W2 m c)
/-- The same read at the TensorCore's references: what region 1 is entered with. -/
abbrev V3 : (c : Dev nD) → (b : Ref sig .tc) → Buf (Elt F) ((c : Thread nD τ).loc b) := fun c b => W3 m c b
/-- After region 1: its result array at the cores' final accumulators, everything else as entered. -/
abbrev W4 (c : Dev nD) : Valuation τ sig (Elt F) := Function.update (W3 m c) main_v10 (G10 (V3 m) c)
/-- After the host lines that close @main. -/
abbrev W5 (c : Dev nD) : Valuation τ sig (Elt F) := StableHlo.after hostOps2 (W4 m c)

end Cert.KernelIdeal.Hand

end
-- ==== Proof.KI.Run.lean ====
/-
  The kernel program's run, from the launch to the return: @main as three host stretches around two kernel regions,
  each region entered with every unscoped buffer at the boundary's contents and left with its result arrays at the
  cores' final accumulators.  Every weakly fair execution terminates, nothing faults, and every unscoped buffer ends at
  the last boundary's contents; the frame claim and the value of the result are read off that.
-/
import proofs.«413172_j20023137534376_3_alg».proof.Proof.KI.Region0
import proofs.«413172_j20023137534376_3_alg».proof.Proof.KI.Region1
import proofs.«413172_j20023137534376_3_alg».proof.Proof.KI.ArrAt0
import proofs.«413172_j20023137534376_3_alg».proof.Proof.KI.ArrAt1
import proofs.«413172_j20023137534376_3_alg».proof.Proof.KI.Vals
import proofs.«413172_j20023137534376_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The boundary contents away from what an item writes

A host stretch leaves alone every buffer none of its lines writes; a region leaves alone every buffer that is not one
of its result arrays. -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v1_0, main_v1_1] : List (Ref sig .tc))) : W2 m c r = W1 m c r :=
  (Function.update_of_ne (StableHlo.devRef_ne_of_ne (List.ne_of_not_mem_cons (List.not_mem_of_not_mem_cons h))) _ _).trans
    (Function.update_of_ne (StableHlo.devRef_ne_of_ne (List.ne_of_not_mem_cons h)) _ _)
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ ([main_v10] : List (Ref sig .tc))) : W4 m c r = W3 m c r :=
  Function.update_of_ne (StableHlo.devRef_ne_of_ne (List.ne_of_not_mem_cons h)) _ _
theorem W5_of (c : Dev nD) (r : Ref sig .tc) (h : r ∉ hostOps2_W) : W5 m c r = W4 m c r :=
  StableHlo.after_of_writes_sub hostOps2 _ hostOps2_writes h

/-- What region 0 leaves in its result arrays. -/
theorem W2_v1_0 (c : Dev nD) : W2 m c main_v1_0 = G3 (V1 m) c :=
  (Function.update_of_ne (StableHlo.devRef_ne_of_ne (by decide)) _ _).trans (Function.update_self _ _ _)
theorem W2_v1_1 (c : Dev nD) : W2 m c main_v1_1 = G4 (V1 m) c := Function.update_self _ _ _
/-- What region 1 leaves in its result array. -/
theorem W4_v10 (c : Dev nD) : W4 m c main_v10 = G10 (V3 m) c := Function.update_self _ _ _

/-- The boundary contents after each region, read at the TensorCore's references. -/
abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b

/-! ## What each region leaves in the unscoped buffers

At a region's exit each of its arrays holds what the pipeline's fold of write-backs leaves (an input array is never
written back, a result array ends at the cores' final accumulators), and every other buffer what it held at entry. -/

theorem hF0 (Φ : Dev nD → Fin (cfg0.N + 1) → sProp 𝕄) (c : Dev nD) :
    ∀ w : Fin 5, (dat0 (V1 m) Φ c).arrAt w cfg0.N = V2 m c (Pipeline.arrRef spec0 w)
  | 0 => ((dat0 (V1 m) Φ c).arrAt_in 0 rfl _).trans (W2_of m c main_arg0 (by decide)).symm
  | 1 => ((dat0 (V1 m) Φ c).arrAt_in 1 rfl _).trans (W2_of m c main_arg1 (by decide)).symm
  | 2 => ((dat0 (V1 m) Φ c).arrAt_in 2 rfl _).trans (W2_of m c main_v0 (by decide)).symm
  | 3 => (arrAt0_3 (V1 m) Φ c).trans (W2_v1_0 m c).symm
  | 4 => (arrAt0_4 (V1 m) Φ c).trans (W2_v1_1 m c).symm
  | ⟨_ + 5, h⟩ => absurd h (Nat.not_lt.2 (Nat.le_add_left _ _))

theorem hrest0 (c : Dev nD) : ∀ b, b ∉ Finset.univ.image (Pipeline.arrRef spec0) → V2 m c b = V1 m c b :=
  fun b hb => W2_of m c b fun hmem => by
    rcases List.mem_cons.mp hmem with rfl | hmem
    · exact hb (Finset.mem_image.mpr ⟨3, Finset.mem_univ _, rfl⟩)
    rcases List.mem_cons.mp hmem with rfl | hmem
    · exact hb (Finset.mem_image.mpr ⟨4, Finset.mem_univ _, rfl⟩)
    · exact List.not_mem_nil hmem

theorem hF1 (Φ : Dev nD → Fin (cfg1.N + 1) → sProp 𝕄) (c : Dev nD) :
    ∀ w : Fin 5, (dat1 (V3 m) Φ c).arrAt w cfg1.N = V4 m c (Pipeline.arrRef spec1 w)
  | 0 => ((dat1 (V3 m) Φ c).arrAt_in 0 rfl _).trans (W4_of m c main_arg0 (by decide)).symm
  | 1 => ((dat1 (V3 m) Φ c).arrAt_in 1 rfl _).trans (W4_of m c main_arg1 (by decide)).symm
  | 2 => ((dat1 (V3 m) Φ c).arrAt_in 2 rfl _).trans (W4_of m c main_v0 (by decide)).symm
  | 3 => ((dat1 (V3 m) Φ c).arrAt_in 3 rfl _).trans (W4_of m c main_v9 (by decide)).symm
  | 4 => (arrAt1_4 (V3 m) Φ c).trans (W4_v10 m c).symm
  | ⟨_ + 5, h⟩ => absurd h (Nat.not_lt.2 (Nat.le_add_left _ _))

theorem hrest1 (c : Dev nD) : ∀ b, b ∉ Finset.univ.image (Pipeline.arrRef spec1) → V4 m c b = V3 m c b :=
  fun b hb => W4_of m c b fun hmem => by
    rcases List.mem_cons.mp hmem with rfl | hmem
    · exact hb (Finset.mem_image.mpr ⟨4, Finset.mem_univ _, rfl⟩)
    · exact List.not_mem_nil hmem

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => d0 (V1 m) c
  | ⟨1, _⟩ => fun c => d1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as an item: over the unscoped references from the contents `W`, `R` riding along; it ends with
    those references at the stretch's result on `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as items -/

set_option backward.isDefEq.respectTransparency.types false in
/-- Region 0 over the thread state: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m (PhiS0 (V1 m)) c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m (PhiS1 (V3 m)) c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's five items in order: a host item per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the items. -/
theorem main_run (c : Dev nD) : main (F := F) c = Pipeline.Seg.run (segs m) := (main_chain c).trans (by chain_rfl)

set_option backward.isDefEq.respectTransparency.types false in
/-- Every unscoped buffer of every core ends at the last boundary's contents. -/
theorem run_all : θ_run defs (onTc (τ := τ) (main (F := F))) ⟨m, fun _ => 0, ρ⟩ (fun r => ∀ c : Dev nD,
    ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- No host line and no region writes an argument array. -/
theorem W5_main_arg0 (c : Dev nD) : W5 m c main_arg0 = m ((c : Thread nD τ).loc main_arg0) :=
  (W5_of m c main_arg0 (by decide)).trans <| (W4_of m c main_arg0 (by decide)).trans <| (W3_of m c main_arg0 (by decide)).trans <|
    (W2_of m c main_arg0 (by decide)).trans <| (W1_of m c main_arg0 (by decide)).trans rfl
theorem W5_main_arg1 (c : Dev nD) : W5 m c main_arg1 = m ((c : Thread nD τ).loc main_arg1) :=
  (W5_of m c main_arg1 (by decide)).trans <| (W4_of m c main_arg1 (by decide)).trans <| (W3_of m c main_arg1 (by decide)).trans <|
    (W2_of m c main_arg1 (by decide)).trans <| (W1_of m c main_arg1 (by decide)).trans rfl
theorem W5_main_arg2 (c : Dev nD) : W5 m c main_arg2 = m ((c : Thread nD τ).loc main_arg2) :=
  (W5_of m c main_arg2 (by decide)).trans <| (W4_of m c main_arg2 (by decide)).trans <| (W3_of m c main_arg2 (by decide)).trans <|
    (W2_of m c main_arg2 (by decide)).trans <| (W1_of m c main_arg2 (by decide)).trans rfl

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v13) = W5 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v13 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.KernelIdeal.Hand

end
-- ==== Proof.Spec.lean ====
/-
  The common value of the two programs, as one function of the three argument arrays over the extended reals, and the
  finite-sum facts by which each program's own arrangement of the sums is brought to it.

  Rows are normalised: zn(x)_d = x_d / max(sqrt(Σ_k x_k²), eps).  For a class c, the class mean is
  mu_{c,d} = (Σ_{i : lab i = c} zn(z1_i)_d + Σ_{i : lab i = c} zn(z2_i)_d) / max(2·#{i : lab i = c}, 1).
  A normalised row x with label l contributes  lp(x, l) = s_l - log Σ_c exp(s_c - s_l),  s_c = Σ_d x_d · mu_{c,d},
  and the result is  -( Σ_i lp(zn z1_i, lab i) + Σ_i lp(zn z2_i, lab i) ) / 131072.
  The float literals stay as the words both programs print (eps, 131072); only 0, 1 and 2 are evaluated.
-/
import Idealize.ShloMosaic.PureOps.Ideal
import Idealize.ShloMosaic.PureOps.Ideal.Laws
import Idealize.ShloMosaic.Lib.ValueIdx
import Mathlib.Algebra.BigOperators.Fin
import Mathlib.Algebra.BigOperators.Ring.Finset
import Mathlib.Data.EReal.Basic

noncomputable section

namespace Cert.Spec

open Idealize.ShloMosaic

/-- A 65536 × 256 array by row and column; a column of 65536 label words. -/
abbrev Arr : Type := Fin 65536 → Fin 256 → EReal
abbrev Lab : Type := Fin 65536 → BitVec 32

/-- An f32 word read as the extended real it denotes. -/
abbrev lit (b : BitVec 32) : EReal := Ideal.ofBits .f32 b

/-- A row divided by its Euclidean norm, the norm kept at least eps. -/
def zn (x : Fin 256 → EReal) (d : Fin 256) : EReal :=
  Ideal.div (x d) (max (Ideal.sqrt (∑ k : Fin 256, x k * x k)) (lit 0x2B8CBCCC#32))

/-- The rows labelled c. -/
def inClass (lab : Lab) (c : Fin 256) : Finset (Fin 65536) :=
  Finset.univ.filter fun i => lab i = BitVec.ofNat 32 c.val

/-- Per class and column, the sum of the normalised rows of both views. -/
def sums (z1 z2 : Arr) (lab : Lab) (c d : Fin 256) : EReal :=
  (∑ i ∈ inClass lab c, zn (z1 i) d) + ∑ i ∈ inClass lab c, zn (z2 i) d

/-- Per class, the number of rows of both views. -/
def cnt (lab : Lab) (c : Fin 256) : EReal := ((2 * (inClass lab c).card : ℕ) : EReal)

/-- The class means. -/
def mu (z1 z2 : Arr) (lab : Lab) (c d : Fin 256) : EReal :=
  Ideal.div (sums z1 z2 lab c d) (max (cnt lab c) 1)

/-- A row's similarity to class c's mean. -/
def sim (μ : Fin 256 → Fin 256 → EReal) (x : Fin 256 → EReal) (c : Fin 256) : EReal := ∑ d : Fin 256, x d * μ c d

/-- A row's log probability of its own class. -/
def rowLP (μ : Fin 256 → Fin 256 → EReal) (x : Fin 256 → EReal) (l : Fin 256) : EReal :=
  sim μ x l - Ideal.log (∑ c : Fin 256, Ideal.exp (sim μ x c - sim μ x l))

/-- A label word in range, as a class. -/
def cls (w : BitVec 32) : Fin 256 := ⟨w.toNat % 256, Nat.mod_lt _ (by decide)⟩

/-- The loss: minus the mean log probability over the rows of both views. -/
def result (z1 z2 : Arr) (lab : Lab) : EReal :=
  - Ideal.div ((∑ i : Fin 65536, rowLP (mu z1 z2 lab) (zn (z1 i)) (cls (lab i)))
      + ∑ i : Fin 65536, rowLP (mu z1 z2 lab) (zn (z2 i)) (cls (lab i))) (lit 0x48000000#32)

/-! ## The words 0, 1 and 2 -/

theorem lit_zero : lit 0x00000000#32 = 0 := by simp [Ideal.ofBits, Ideal.ieee]
theorem lit_one : lit 0x3F800000#32 = 1 := by simp [Ideal.ofBits, Ideal.ieee, -EReal.coe_mul]; norm_num
theorem lit_two : lit 0x40000000#32 = 2 := by simp [Ideal.ofBits, Ideal.ieee, -EReal.coe_mul]; norm_num; rfl

/-- Dividing by the word 1, and multiplying by it, change nothing. -/
theorem div_lit_one (x : EReal) : Ideal.div x (lit 0x3F800000#32) = x := by
  rw [lit_one]
  have h1 : (1 : EReal) = ((1 : ℝ) : EReal) := rfl
  rw [h1, Ideal.div_coe one_ne_zero]
  simp
theorem mul_lit_one (x : EReal) : x * lit 0x3F800000#32 = x := by rw [lit_one, mul_one]

/-! ## Labels in range -/

theorem cls_eq_iff {w : BitVec 32} (hw : w.toNat < 256) (c : Fin 256) : w = BitVec.ofNat 32 c.val ↔ cls w = c := by
  have hc := c.isLt
  constructor
  · intro h
    apply Fin.ext
    simp only [cls]
    rw [h, BitVec.toNat_ofNat]
    omega
  · intro h
    have h1 : w.toNat % 256 = c.val := congrArg Fin.val h
    apply BitVec.eq_of_toNat_eq
    rw [BitVec.toNat_ofNat]
    omega

/-! ## Finite sums rearranged (any commutative additive monoid unless said otherwise) -/

/-- Core, tile and row within the tile against the row of the whole array: row (16·k + j)·2048 + r, and back by
    quotient and remainder. -/
def tileEquiv : Fin 2 × Fin 16 × Fin 2048 ≃ Fin 65536 where
  toFun x := ⟨(16 * x.1.val + x.2.1.val) * 2048 + x.2.2.val, by
    have := x.1.isLt; have := x.2.1.isLt; have := x.2.2.isLt; omega⟩
  invFun i := (⟨i.val / 32768, by have := i.isLt; omega⟩, ⟨i.val / 2048 % 16, by omega⟩, ⟨i.val % 2048, by omega⟩)
  left_inv := by
    rintro ⟨k, j, r⟩
    have := k.isLt; have := j.isLt; have := r.isLt
    refine Prod.ext (Fin.ext ?_) (Prod.ext (Fin.ext ?_) (Fin.ext ?_)) <;> simp only <;> omega
  right_inv := by
    intro i
    have := i.isLt
    refine Fin.ext ?_
    simp only
    omega

/-- A sum over 65536 rows is the sum over 2 cores, 16 tiles and 2048 rows of a tile: row (16·k + j)·2048 + r. -/
theorem sum_tiles {M : Type*} [AddCommMonoid M] (f : Fin 65536 → M) :
    ∑ i : Fin 65536, f i = ∑ k : Fin 2, ∑ j : Fin 16, ∑ r : Fin 2048,
      f ⟨(16 * k.val + j.val) * 2048 + r.val, by have := k.isLt; have := j.isLt; have := r.isLt; omega⟩ := by
  rw [← tileEquiv.sum_comp f, Fintype.sum_prod_type]
  refine Finset.sum_congr rfl fun k _ => ?_
  rw [Fintype.sum_prod_type]
  rfl

/-- The same restricted to the rows of a class, as a sum of a function that vanishes off the class. -/
theorem sum_filter_eq_sum_ite {M : Type*} [AddCommMonoid M] {ι : Type*} [Fintype ι] (p : ι → Prop) [DecidablePred p] (f : ι → M) :
    ∑ i ∈ Finset.univ.filter p, f i = ∑ i : ι, if p i then f i else 0 := Finset.sum_filter p f

/-- A sum over the 131072 rows of the two views stacked is the sum over the first view plus the sum over the second. -/
theorem sum_stacked {M : Type*} [AddCommMonoid M] (f : Fin 131072 → M) :
    ∑ j : Fin 131072, f j = (∑ i : Fin 65536, f ⟨i.val, by have := i.isLt; omega⟩)
      + ∑ i : Fin 65536, f ⟨65536 + i.val, by have := i.isLt; omega⟩ :=
  Fin.sum_univ_add (a := 65536) (b := 65536) f

/-- An accumulator started at a₀ + g 0 and raised by g at each later step holds a₀ plus the sum so far. -/
theorem acc_eq_sum {M : Type*} [AddCommMonoid M] (a : ℕ → M) (g : ℕ → M) (a₀ : M) (h0 : a 0 = a₀ + g 0)
    (hs : ∀ n, a (n + 1) = a n + g (n + 1)) (n : ℕ) : a n = a₀ + ∑ j ∈ Finset.range (n + 1), g j := by
  induction n with
  | zero => rw [h0, Finset.sum_range_one]
  | succ n ih => rw [hs, ih, Finset.sum_range_succ _ (n + 1), add_assoc]

/-- A one-hot weight (the word 1 on the class's rows, the word 0 elsewhere) times a term, summed: the class's terms. -/
theorem sum_onehot_mul {ι : Type*} [Fintype ι] (p : ι → Prop) [DecidablePred p] (f : ι → EReal) :
    ∑ i : ι, (if p i then lit 0x3F800000#32 else lit 0x00000000#32) * f i = ∑ i ∈ Finset.univ.filter p, f i := by
  rw [Finset.sum_filter]
  refine Finset.sum_congr rfl fun i _ => ?_
  by_cases h : p i
  · rw [if_pos h, if_pos h, lit_one, one_mul]
  · rw [if_neg h, if_neg h, lit_zero, zero_mul]

/-- One-hot weights summed: the number of rows of the class. -/
theorem sum_onehot {ι : Type*} [Fintype ι] (p : ι → Prop) [DecidablePred p] :
    ∑ i : ι, (if p i then lit 0x3F800000#32 else lit 0x00000000#32) = (((Finset.univ.filter p).card : ℕ) : EReal) := by
  rw [lit_one, lit_zero, ← Finset.sum_filter, Finset.sum_const, nsmul_one]

/-- Twice a natural number, and sums of natural numbers, stay natural numbers (the doubled counts of the tiles add up). -/
theorem two_mul_natCast (n : ℕ) : lit 0x40000000#32 * ((n : ℕ) : EReal) = ((2 * n : ℕ) : EReal) := by
  rw [lit_two, EReal.natCast_mul, Nat.cast_ofNat]
theorem sum_natCast {ι : Type*} (s : Finset ι) (f : ι → ℕ) : ∑ i ∈ s, ((f i : ℕ) : EReal) = ((∑ i ∈ s, f i : ℕ) : EReal) :=
  (Nat.cast_sum s f).symm

/-- Of a row's similarities, the one its label selects: the others are replaced by the word 0. -/
theorem sum_select_eq {l : Fin 256} (s : Fin 256 → EReal) :
    ∑ c : Fin 256, (if l = c then s c else lit 0x00000000#32) = s l := by
  rw [lit_zero, Finset.sum_ite_eq]
  simp

end Cert.Spec

end
-- ==== Proof.KI.Args.lean ====
/-
  The argument arrays, the labels column and the class-means table, read off a region's entry contents at the ideal
  instance by row and column.
-/
import proofs.«413172_j20023137534376_3_alg».proof.Proof.KI.Dat
import proofs.«413172_j20023137534376_3_alg».proof.Proof.Spec

noncomputable section

namespace Cert.KernelIdeal.Hand

open Idealize.ShloMosaic Idealize.ShloMosaic.TcCoe
open Idealize.SL Idealize.SL.Sem
open Cert.KernelIdeal Cert.KernelIdeal.Gen

variable (V : (c : Dev nD) → (b : Ref sig .tc) → Buf (Elt Ideal) ((c : Thread nD τ).loc b))

/-- z1 and z2 by row and column. -/
def arr0 (c : Dev nD) : Cert.Spec.Arr := fun i d => (V c main_arg0 : FVec Ideal S65536x256 .f32) (ValueIdx.ix2 i d)
def arr1 (c : Dev nD) : Cert.Spec.Arr := fun i d => (V c main_arg1 : FVec Ideal S65536x256 .f32) (ValueIdx.ix2 i d)
/-- The labels column (the labels re-laid as 65536 × 1). -/
def labc (c : Dev nD) : Cert.Spec.Lab := fun i => (V c main_v0 : IVec S65536x1 32) (ValueIdx.ix2 i 0)
/-- The class-means table region 1 reads. -/
def muc (c : Dev nD) : Fin 256 → Fin 256 → EReal := fun cc d => (V c main_v9 : FVec Ideal S256x256 .bf16) (ValueIdx.ix2 cc d)

end Cert.KernelIdeal.Hand

end
-- ==== Proof.KI.Rows.lean ====
/-
  What both regions read and compute row by row, at the ideal instance: a window's block at a point is the 2048 rows
  number 2048·t … 2048·t + 2047 of its array (the class-means table whole); a block's rows normalised are the rows
  divided by their Euclidean norms, the norms kept at least eps; the label mask at row r and class cc says the row's
  label word is cc.  The payloads of both kernel functions are built from these pieces.
-/
import proofs.«413172_j20023137534376_3_alg».proof.Proof.KI.Args
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.Sem
open Cert.KernelIdeal Cert.KernelIdeal.Gen

/-! ## The pieces, at any float instance -/

section Pieces
variable {F : FTy → Type} [FloatOps F]

/-- A block's rows, each divided by max(sqrt(Σ of its squares), eps). -/
def znBlock (x : Vec F S2048x256 .f32) : FVec F S2048x256 .f32 :=
  divf x (broadcastTo S2048x256
    (maximumf (sqrt (shapeCast S2048x1 (multiReduction .add [1] S2048 (mulf x x) 0x00000000#32 reduces_S2048x256_S2048 (.inl rfl) rfl) shapeCasts_S2048_S2048x1))
      (broadcast S2048x1 (Scalar.ofBits .f32 0x2B8CBCCC#32)))
    broadcasts_S2048x1_S2048x256)

/-- The label mask: at row r and class cc, whether the row's label word equals the class's number. -/
def maskBlock (l : Vec F S2048x1 .i32) : IVec S2048x256 1 :=
  cmpi .eq (broadcastTo S2048x256 (shapeCast S2048x1 l shapeCasts_S2048x1_S2048x1) broadcasts_S2048x1_S2048x256)
    (iota .tc S2048x256 32 [1] iota_S2048x256_d1_w32)

/-- Region 0's payloads over the pieces. -/
theorem k0_pay7_eq (l : Vec F S2048x1 .i32) :
    k0_pay7 l = select (maskBlock l) (broadcast S2048x256 (Scalar.ofBits (F := F) .f32 0x3F800000#32)) (broadcast S2048x256 (Scalar.ofBits (F := F) .f32 0x00000000#32)) := rfl
theorem k0_pay9_eq (x1 x2 : Vec F S2048x256 .f32) (l : Vec F S2048x1 .i32) :
    k0_pay9 x1 x2 l = addf
      (matmul dot_S2048x256_S2048x256_S256x256_0_0_1_1_n_n none (truncf .bf16 (k0_pay7 l) bitsLt_bf16_f32) (truncf .bf16 (znBlock x1) bitsLt_bf16_f32) (constant S256x256 .f32 0x00000000#32))
      (matmul dot_S2048x256_S2048x256_S256x256_0_0_1_1_n_n none (truncf .bf16 (k0_pay7 l) bitsLt_bf16_f32) (truncf .bf16 (znBlock x2) bitsLt_bf16_f32) (constant S256x256 .f32 0x00000000#32)) := rfl

/-- Region 1's payloads over the pieces. -/
theorem k1_pay7_eq (l : Vec F S2048x1 .i32) : k1_pay7 l = maskBlock l := rfl
theorem k1_pay5_eq (x : Vec F S2048x256 .f32) (mu : Vec F S256x256 .bf16) :
    k1_pay5 x mu = mulf
      (matmul dot_S2048x256_S256x256_S2048x256_1_1_0_0_n_n none (truncf .bf16 (znBlock x) bitsLt_bf16_f32) (k1_pay4 mu) (constant S2048x256 .f32 0x00000000#32))
      (broadcast S2048x256 (Scalar.ofBits (F := F) .f32 0x3F800000#32)) := rfl
theorem k1_pay6_eq (x : Vec F S2048x256 .f32) (mu : Vec F S256x256 .bf16) :
    k1_pay6 x mu = mulf
      (matmul dot_S2048x256_S256x256_S2048x256_1_1_0_0_n_n none (truncf .bf16 (znBlock x) bitsLt_bf16_f32) (k1_pay4 mu) (constant S2048x256 .f32 0x00000000#32))
      (broadcast S2048x256 (Scalar.ofBits (F := F) .f32 0x3F800000#32)) := rfl

end Pieces

/-! ## The pieces read at an index, at the ideal instance -/

namespace Rows

/-- A vector of length a re-laid as a column a × 1 reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column a × 1 broadcast along its rows to a × b reads, at (p, c), the column at (p, 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-- The sum along the columns of a block reads, at row r, the sum of that row's 256 entries. -/
theorem rowSum_apply (y : FVec Ideal S2048x256 .f32) (r : Fin 2048) :
    multiReduction (F := Ideal) .add [1] S2048 y 0x00000000#32 reduces_S2048x256_S2048 (.inl rfl) rfl (ValueIdx.ix1 r)
      = ∑ k : Fin 256, y (ValueIdx.ix2 r k) := by
  refine (Ideal.multiReduction_add_single (φ := .f32) y _ reduces_S2048x256_S2048 (.inl rfl) rfl (ValueIdx.ix1 r)).trans ?_
  refine Finset.sum_congr rfl fun k _ => congrArg y ?_
  funext a
  match a with
  | ⟨0, _⟩ => exact Fin.ext rfl
  | ⟨1, _⟩ => exact Fin.ext rfl

end Rows

/-- A normalised block at row r, column d is the normalised row. -/
theorem znBlock_apply (x : Vec Ideal S2048x256 .f32) (r : Fin 2048) (d : Fin 256) :
    (znBlock (F := Ideal) x) (ValueIdx.ix2 r d) = Cert.Spec.zn (fun k => x (ValueIdx.ix2 r k)) d := by
  have e1 : broadcastTo S2048x256
      (maximumf (sqrt (shapeCast S2048x1 (multiReduction (F := Ideal) .add [1] S2048 (mulf x x) 0x00000000#32 reduces_S2048x256_S2048 (.inl rfl) rfl) shapeCasts_S2048_S2048x1))
        (broadcast S2048x1 (Scalar.ofBits (F := Ideal) .f32 0x2B8CBCCC#32)))
      broadcasts_S2048x1_S2048x256 (ValueIdx.ix2 r d)
      = max (Ideal.sqrt (∑ k : Fin 256, x (ValueIdx.ix2 r k) * x (ValueIdx.ix2 r k))) (Cert.Spec.lit 0x2B8CBCCC#32) := by
    refine (Rows.broadcastTo_a1_ab_apply _ _ r d).trans ?_
    show max (Ideal.sqrt (shapeCast S2048x1 _ shapeCasts_S2048_S2048x1 (ValueIdx.ix2 r (0 : Fin 1)))) (Ideal.ofBits .f32 0x2B8CBCCC#32) = _
    rw [Rows.shapeCast_a_a1_apply, Rows.rowSum_apply]
    rfl
  exact congrArg (Ideal.div (x (ValueIdx.ix2 r d))) e1

/-- The mask at row r, class cc. -/
theorem maskBlock_apply (l : Vec Ideal S2048x1 .i32) (r : Fin 2048) (cc : Fin 256) :
    (maskBlock (F := Ideal) l) (ValueIdx.ix2 r cc) = 1#1 ↔ l (ValueIdx.ix2 r 0) = BitVec.ofNat 32 cc.val := by
  show IntOp.cmpi .eq (broadcastTo S2048x256 (shapeCast S2048x1 l shapeCasts_S2048x1_S2048x1) broadcasts_S2048x1_S2048x256 (ValueIdx.ix2 r cc))
      (iota .tc S2048x256 32 [1] iota_S2048x256_d1_w32 (ValueIdx.ix2 r cc)) = 1#1 ↔ _
  rw [IntOp.cmpi_eq, Rows.broadcastTo_a1_ab_apply, shapeCast_self, iota_single_apply]

/-! ## The windows' blocks read at an index -/

/-- The printed index maps of region 0's three input windows, decided over the grid: block t along the rows, block 0
    along the columns. -/
theorem idx_in0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The same for region 1's three row windows; its class-means window stays at block (0, 0). -/
theorem idx_in1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

variable (V : (c : Dev nD) → (b : Ref sig .tc) → Buf (Elt Ideal) ((c : Thread nD τ).loc b))

/-- The row of the whole array that row r of the block of point t is. -/
def rowOf (t : ℕ) (ht : t < 32) (r : Fin 2048) : Fin 65536 := ⟨2048 * t + r.val, by have := r.isLt; omega⟩

theorem x1b0_apply (c : Dev nD) (t : Fin cfg0.N) (r : Fin 2048) (d : Fin 256) :
    x1b0 V c t (ValueIdx.ix2 r d) = arr0 V c (rowOf t.val (lt_of_lt_of_eq t.isLt N_0) r) d := by
  obtain ⟨e0, e1, -⟩ := idx_in0 t
  show V c main_arg0 (((cfg0.win 0).blk t).view.emb (ValueIdx.ix2 r d)) = V c main_arg0 (ValueIdx.ix2 (rowOf t.val (lt_of_lt_of_eq t.isLt N_0) r) d)
  refine congrArg (V c main_arg0) ?_
  funext a; apply Fin.ext
  match a with
  | ⟨0, _⟩ => show win0_0.index t (0 : Fin 2) * 2048 + 1 * r.val = 2048 * t.val + r.val; omega
  | ⟨1, _⟩ => show win0_0.index t (1 : Fin 2) * 256 + 1 * d.val = d.val; omega
theorem x2b0_apply (c : Dev nD) (t : Fin cfg0.N) (r : Fin 2048) (d : Fin 256) :
    x2b0 V c t (ValueIdx.ix2 r d) = arr1 V c (rowOf t.val (lt_of_lt_of_eq t.isLt N_0) r) d := by
  obtain ⟨-, -, e0, e1, -⟩ := idx_in0 t
  show V c main_arg1 (((cfg0.win 1).blk t).view.emb (ValueIdx.ix2 r d)) = V c main_arg1 (ValueIdx.ix2 (rowOf t.val (lt_of_lt_of_eq t.isLt N_0) r) d)
  refine congrArg (V c main_arg1) ?_
  funext a; apply Fin.ext
  match a with
  | ⟨0, _⟩ => show win0_1.index t (0 : Fin 2) * 2048 + 1 * r.val = 2048 * t.val + r.val; omega
  | ⟨1, _⟩ => show win0_1.index t (1 : Fin 2) * 256 + 1 * d.val = d.val; omega
theorem lb0_apply (c : Dev nD) (t : Fin cfg0.N) (r : Fin 2048) :
    lb0 V c t (ValueIdx.ix2 r 0) = labc V c (rowOf t.val (lt_of_lt_of_eq t.isLt N_0) r) := by
  obtain ⟨-, -, -, -, e0, e1⟩ := idx_in0 t
  show V c main_v0 (((cfg0.win 2).blk t).view.emb (ValueIdx.ix2 r (0 : Fin 1))) = V c main_v0 (ValueIdx.ix2 (rowOf t.val (lt_of_lt_of_eq t.isLt N_0) r) (0 : Fin 1))
  refine congrArg (V c main_v0) ?_
  funext a; apply Fin.ext
  match a with
  | ⟨0, _⟩ => show win0_2.index t (0 : Fin 2) * 2048 + 1 * r.val = 2048 * t.val + r.val; omega
  | ⟨1, _⟩ => show win0_2.index t (1 : Fin 2) * 1 + 1 * 0 = 0; omega
theorem x1b1_apply (c : Dev nD) (t : Fin cfg1.N) (r : Fin 2048) (d : Fin 256) :
    x1b1 V c t (ValueIdx.ix2 r d) = arr0 V c (rowOf t.val (lt_of_lt_of_eq t.isLt N_1) r) d := by
  obtain ⟨e0, e1, -⟩ := idx_in1 t
  show V c main_arg0 (((cfg1.win 0).blk t).view.emb (ValueIdx.ix2 r d)) = V c main_arg0 (ValueIdx.ix2 (rowOf t.val (lt_of_lt_of_eq t.isLt N_1) r) d)
  refine congrArg (V c main_arg0) ?_
  funext a; apply Fin.ext
  match a with
  | ⟨0, _⟩ => show win1_0.index t (0 : Fin 2) * 2048 + 1 * r.val = 2048 * t.val + r.val; omega
  | ⟨1, _⟩ => show win1_0.index t (1 : Fin 2) * 256 + 1 * d.val = d.val; omega
theorem x2b1_apply (c : Dev nD) (t : Fin cfg1.N) (r : Fin 2048) (d : Fin 256) :
    x2b1 V c t (ValueIdx.ix2 r d) = arr1 V c (rowOf t.val (lt_of_lt_of_eq t.isLt N_1) r) d := by
  obtain ⟨-, -, e0, e1, -⟩ := idx_in1 t
  show V c main_arg1 (((cfg1.win 1).blk t).view.emb (ValueIdx.ix2 r d)) = V c main_arg1 (ValueIdx.ix2 (rowOf t.val (lt_of_lt_of_eq t.isLt N_1) r) d)
  refine congrArg (V c main_arg1) ?_
  funext a; apply Fin.ext
  match a with
  | ⟨0, _⟩ => show win1_1.index t (0 : Fin 2) * 2048 + 1 * r.val = 2048 * t.val + r.val; omega
  | ⟨1, _⟩ => show win1_1.index t (1 : Fin 2) * 256 + 1 * d.val = d.val; omega
theorem lb1_apply (c : Dev nD) (t : Fin cfg1.N) (r : Fin 2048) :
    lb1 V c t (ValueIdx.ix2 r 0) = labc V c (rowOf t.val (lt_of_lt_of_eq t.isLt N_1) r) := by
  obtain ⟨-, -, -, -, e0, e1, -⟩ := idx_in1 t
  show V c main_v0 (((cfg1.win 2).blk t).view.emb (ValueIdx.ix2 r (0 : Fin 1))) = V c main_v0 (ValueIdx.ix2 (rowOf t.val (lt_of_lt_of_eq t.isLt N_1) r) (0 : Fin 1))
  refine congrArg (V c main_v0) ?_
  funext a; apply Fin.ext
  match a with
  | ⟨0, _⟩ => show win1_2.index t (0 : Fin 2) * 2048 + 1 * r.val = 2048 * t.val + r.val; omega
  | ⟨1, _⟩ => show win1_2.index t (1 : Fin 2) * 1 + 1 * 0 = 0; omega
/-- The class-means table is read whole at every point. -/
theorem mub1_apply (c : Dev nD) (t : Fin cfg1.N) (cc d : Fin 256) :
    mub1 V c t (ValueIdx.ix2 cc d) = muc V c cc d := by
  obtain ⟨-, -, -, -, -, -, e0, e1⟩ := idx_in1 t
  show V c main_v9 (((cfg1.win 3).blk t).view.emb (ValueIdx.ix2 cc d)) = V c main_v9 (ValueIdx.ix2 cc d)
  refine congrArg (V c main_v9) ?_
  funext a; apply Fin.ext
  match a with
  | ⟨0, _⟩ => show win1_3.index t (0 : Fin 2) * 256 + 1 * cc.val = cc.val; omega
  | ⟨1, _⟩ => show win1_3.index t (1 : Fin 2) * 256 + 1 * d.val = d.val; omega

end Cert.KernelIdeal.Hand

end
-- ==== Proof.KI.Value0.lean ====
/-
  What region 0 leaves in its two result arrays: the pipeline's fold of write-backs is the cores' final accumulators,
  and at the ideal instance the two cores' slabs add up to the per-class sums and doubled counts of the whole input.
-/
import proofs.«413172_j20023137534376_3_alg».proof.Proof.KI.Args
import proofs.«413172_j20023137534376_3_alg».proof.Proof.KI.Rows
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace V0

open Idealize.ShloMosaic.ValueIdx

/-! ## Layout forms of a kept unit column -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane sums of a 2048 × 256 tile -/

/-- Summing a tile along its columns: row `r`'s sum. -/
theorem rowSum_apply (src : FVec Ideal S2048x256 .f32) (h : S2048x256.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ k : Fin 256, src (ix2 r k) := by
  refine (Ideal.multiReduction_add_single src _ h hφ hacc (ix1 r)).trans ?_
  refine Finset.sum_congr rfl fun k _ => congrArg src (funext fun a => Fin.ext ?_)
  match a with
  | ⟨0, _⟩ => rfl
  | ⟨1, _⟩ => rfl

/-- Summing a tile along its rows: column `c`'s sum. -/
theorem colSum_apply (src : FVec Ideal S2048x256 .f32) (h : S2048x256.Reduces [0] S256) (hφ : FKind.Formats .f32)
    (hacc : (0x00000000#32 : BitVec 32) = FKind.add.neutral .f32 hφ) (c : Fin 256) :
    multiReduction (F := Ideal) .add [0] S256 src 0x00000000#32 h hφ hacc (ix1 c) = ∑ r : Fin 2048, src (ix2 r c) := by
  refine (Ideal.multiReduction_add_single src _ h hφ hacc (ix1 c)).trans ?_
  refine Finset.sum_congr rfl fun k _ => congrArg src (funext fun a => Fin.ext ?_)
  match a with
  | ⟨0, _⟩ => rfl
  | ⟨1, _⟩ => rfl

end V0

namespace V0
open Idealize.ShloMosaic.ValueIdx

/-! ## The one-hot array of a tile's labels -/

/-- The weight of a row with label word `w` for class `cc`: the word 1 when `w` is the class's word, else the word 0. -/
def oh (w : BitVec 32) (cc : Fin 256) : EReal :=
  if w = BitVec.ofNat 32 cc.val then Cert.Spec.lit 0x3F800000#32 else Cert.Spec.lit 0x00000000#32

theorem pay7_apply (l : Vec Ideal S2048x1 .i32) (r : Fin 2048) (cc : Fin 256) :
    k0_pay7 (F := Ideal) l (ix2 r cc) = oh (l (ix2 r 0)) cc := by
  unfold k0_pay7
  simp only [shapeCast_self]
  rw [select_apply]
  show Scalar.select (IntOp.cmpi .eq (broadcastTo S2048x256 l broadcasts_S2048x1_S2048x256 (ix2 r cc))
      (iota .tc S2048x256 32 [1] iota_S2048x256_d1_w32 (ix2 r cc))) _ _ = _
  rw [broadcastTo_a1_ab_apply, iota_single_apply]
  show (if BitVec.ofBool (l (ix2 r 0) == BitVec.ofNat 32 cc.val) = 1 then Ideal.ofBits .f32 0x3F800000#32 else Ideal.ofBits .f32 0x00000000#32) = _
  unfold oh
  by_cases h : l (ix2 r 0) = BitVec.ofNat 32 cc.val
  · rw [if_pos h, beq_iff_eq.mpr h]; rfl
  · rw [if_neg h, beq_eq_false_iff_ne.mpr h]; rfl

/-! ## A tile's rows normalised -/

theorem zn_apply (x : Vec Ideal S2048x256 .f32) (r : Fin 2048) (d : Fin 256)
    (h : S2048x256.Reduces [1] S2048) (hφ : FKind.Formats .f32) (hacc : (0x00000000#32 : BitVec 32) = FKind.add.neutral .f32 hφ)
    (hc : S2048.ShapeCasts S2048x1) (hb : S2048x1.Broadcasts S2048x256) :
    divf (F := Ideal) x (broadcastTo S2048x256 (maximumf (sqrt (shapeCast S2048x1 (multiReduction (F := Ideal) .add [1] S2048 (mulf x x) 0x00000000#32 h hφ hacc) hc))
      (broadcast S2048x1 (Scalar.ofBits .f32 0x2B8CBCCC#32))) hb) (ix2 r d)
      = Cert.Spec.zn (fun k => x (ix2 r k)) d := by
  rw [divf_apply, broadcastTo_a1_ab_apply, maximumf_apply, broadcast_apply]
  show Ideal.div _ (max (Ideal.sqrt (shapeCast S2048x1 _ hc (ix2 r 0))) _) = _
  rw [shapeCast_a_a1_apply, rowSum_apply]
  rfl

/-! ## The product of a transposed tile with a tile -/

theorem mm_lhs_0 (i : S256x256.Idx) (q : dot_S2048x256_S2048x256_S256x256_0_0_1_1_n_n.contr.Idx) :
    (dot_S2048x256_S2048x256_S256x256_0_0_1_1_n_n.lhsIdx i q 0).val = (q ⟨0, by decide⟩).val :=
  dot_S2048x256_S2048x256_S256x256_0_0_1_1_n_n.lhsIdx_val_of_single rfl i q
theorem mm_lhs_1 (i : S256x256.Idx) (q : dot_S2048x256_S2048x256_S256x256_0_0_1_1_n_n.contr.Idx) :
    (dot_S2048x256_S2048x256_S256x256_0_0_1_1_n_n.lhsIdx i q 1).val = (i 0).val := by
  unfold DotDims.lhsIdx
  rw [dif_neg (show ¬(1 : Fin S2048x256.rank) ∈ dot_S2048x256_S2048x256_S256x256_0_0_1_1_n_n.lhsBatch by decide), dif_pos (show (1 : Fin S2048x256.rank) ∈ dot_S2048x256_S2048x256_S256x256_0_0_1_1_n_n.lhsNonContracting by decide)]
  rfl
theorem mm_rhs_0 (i : S256x256.Idx) (q : dot_S2048x256_S2048x256_S256x256_0_0_1_1_n_n.contr.Idx) :
    (dot_S2048x256_S2048x256_S256x256_0_0_1_1_n_n.rhsIdx i q 0).val = (q ⟨0, by decide⟩).val :=
  dot_S2048x256_S2048x256_S256x256_0_0_1_1_n_n.rhsIdx_val_of_single rfl i q
theorem mm_rhs_1 (i : S256x256.Idx) (q : dot_S2048x256_S2048x256_S256x256_0_0_1_1_n_n.contr.Idx) :
    (dot_S2048x256_S2048x256_S256x256_0_0_1_1_n_n.rhsIdx i q 1).val = (i 1).val := by
  unfold DotDims.rhsIdx
  rw [dif_neg (show ¬(1 : Fin S2048x256.rank) ∈ dot_S2048x256_S2048x256_S256x256_0_0_1_1_n_n.rhsBatch by decide), dif_pos (show (1 : Fin S2048x256.rank) ∈ dot_S2048x256_S2048x256_S256x256_0_0_1_1_n_n.rhsNonContracting by decide)]
  rfl

/-- Entry `(cc, d)` of the product into the zero array: the sum over the 2048 rows of the left tile's column `cc` times
    the right tile's column `d`. -/
theorem mm_apply (A B : FVec Ideal S2048x256 .bf16) (cc d : Fin 256) :
    matmul (F := Ideal) dot_S2048x256_S2048x256_S256x256_0_0_1_1_n_n none A B (constant (F := Ideal) S256x256 .f32 0x00000000#32) (ix2 cc d)
      = ∑ r : Fin 2048, A (ix2 r cc) * B (ix2 r d) := by
  simp only [matmul]
  rw [Ideal.matmul_constant_zero_apply, ← Equiv.sum_comp (ValueIdx.contrEquiv1 dot_S2048x256_S2048x256_S256x256_0_0_1_1_n_n 2048 rfl rfl).symm]
  refine Finset.sum_congr rfl fun k _ => ?_
  have hk := ValueIdx.contrEquiv1_symm_val dot_S2048x256_S2048x256_S256x256_0_0_1_1_n_n 2048 rfl rfl k
  have el : dot_S2048x256_S2048x256_S256x256_0_0_1_1_n_n.lhsIdx (ix2 cc d) ((ValueIdx.contrEquiv1 dot_S2048x256_S2048x256_S256x256_0_0_1_1_n_n 2048 rfl rfl).symm k) = ix2 k cc := funext fun a => Fin.ext (by
    match a with
    | ⟨0, _⟩ => exact (mm_lhs_0 _ _).trans hk
    | ⟨1, _⟩ => exact mm_lhs_1 _ _)
  have er : dot_S2048x256_S2048x256_S256x256_0_0_1_1_n_n.rhsIdx (ix2 cc d) ((ValueIdx.contrEquiv1 dot_S2048x256_S2048x256_S256x256_0_0_1_1_n_n 2048 rfl rfl).symm k) = ix2 k d := funext fun a => Fin.ext (by
    match a with
    | ⟨0, _⟩ => exact (mm_rhs_0 _ _).trans hk
    | ⟨1, _⟩ => exact mm_rhs_1 _ _)
  rw [el, er]

/-! ## The payloads of the sums kernel at an index -/

/-- The zero accumulators. -/
theorem pay5_apply (i : S256x256.Idx) : (k0_pay5 (F := Ideal)) i = 0 := by
  show shapeCast S256x256 (broadcast S256x256 (Scalar.ofBits (F := Ideal) .f32 0x00000000#32)) shapeCasts_S256x256_S256x256 i = 0
  rw [shapeCast_self]
  exact Cert.Spec.lit_zero
theorem pay6_apply (i : S1x256.Idx) : (k0_pay6 (F := Ideal)) i = 0 := by
  show shapeCast S1x256 (broadcast S1x256 (Scalar.ofBits (F := Ideal) .f32 0x00000000#32)) shapeCasts_S1x256_S1x256 i = 0
  rw [shapeCast_self]
  exact Cert.Spec.lit_zero

/-- The first accumulator's update adds the tile's array to it. -/
theorem pay1_apply (s : Vec Ideal S256x256 .f32) (v : FVec Ideal S256x256 .f32) (i : S256x256.Idx) :
    k0_pay1 (F := Ideal) s v i = s i + v i := by
  show shapeCast S256x256 (addf s v) shapeCasts_S256x256_S256x256 i = _
  rw [shapeCast_self]
  rfl

/-- The second accumulator's update adds twice the tile's row to it. -/
theorem pay2_apply (v30 : FVec Ideal S1x256 .f32) (v42 : Vec Ideal S1x256 .f32) (i : S1x256.Idx) :
    k0_pay2 (F := Ideal) v30 v42 i = v42 i + Cert.Spec.lit 0x40000000#32 * v30 i := by
  show shapeCast S1x256 (addf v42 (mulf (broadcast S1x256 (Scalar.ofBits (F := Ideal) .f32 0x40000000#32)) v30)) shapeCasts_S1x256_S1x256 i = _
  rw [shapeCast_self]
  rfl

/-- The tile's one-hot weights summed over its rows, per class. -/
theorem pay8_apply (l : Vec Ideal S2048x1 .i32) (u : Fin 1) (cc : Fin 256) :
    k0_pay8 (F := Ideal) l (ix2 u cc) = ∑ r : Fin 2048, oh (l (ix2 r 0)) cc := by
  show shapeCast S1x256 (multiReduction (F := Ideal) .add [0] S256 (k0_pay7 l) 0x00000000#32 reduces_S2048x256_S256 (.inl rfl) rfl) shapeCasts_S256_S1x256 (ix2 u cc) = _
  exact (shapeCast_a_1a_apply _ _ u cc).trans ((colSum_apply _ _ _ _ cc).trans (Finset.sum_congr rfl fun r _ => pay7_apply l r cc))

/-- The tile's per-class sums of its normalised rows, view 1 plus view 2. -/
theorem pay9_apply (x1 x2 : Vec Ideal S2048x256 .f32) (l : Vec Ideal S2048x1 .i32) (cc d : Fin 256) :
    k0_pay9 (F := Ideal) x1 x2 l (ix2 cc d)
      = (∑ r : Fin 2048, oh (l (ix2 r 0)) cc * Cert.Spec.zn (fun k => x1 (ix2 r k)) d)
        + ∑ r : Fin 2048, oh (l (ix2 r 0)) cc * Cert.Spec.zn (fun k => x2 (ix2 r k)) d := by
  rw [k0_pay9_eq, addf_apply, mm_apply, mm_apply]
  congr 1 <;> exact Finset.sum_congr rfl fun r _ => by rw [truncf_apply, truncf_apply, pay7_apply, znBlock_apply]

/-- One point's update at an entry of each accumulator. -/
theorem step0_fst (s : Sc0 Ideal) (x1 x2 : Vec Ideal S2048x256 .f32) (l : Vec Ideal S2048x1 .i32) (cc d : Fin 256) :
    (step0 s x1 x2 l).1 (ix2 cc d) = s.1 (ix2 cc d)
      + ((∑ r : Fin 2048, oh (l (ix2 r 0)) cc * Cert.Spec.zn (fun k => x1 (ix2 r k)) d)
        + ∑ r : Fin 2048, oh (l (ix2 r 0)) cc * Cert.Spec.zn (fun k => x2 (ix2 r k)) d) := by
  show k0_pay1 (F := Ideal) s.1 (k0_pay9 x1 x2 l) (ix2 cc d) = _
  rw [pay1_apply, pay9_apply]
theorem step0_snd (s : Sc0 Ideal) (x1 x2 : Vec Ideal S2048x256 .f32) (l : Vec Ideal S2048x1 .i32) (u : Fin 1) (cc : Fin 256) :
    (step0 s x1 x2 l).2 (ix2 u cc) = s.2 (ix2 u cc) + Cert.Spec.lit 0x40000000#32 * ∑ r : Fin 2048, oh (l (ix2 r 0)) cc := by
  show k0_pay2 (F := Ideal) (k0_pay8 l) s.2 (ix2 u cc) = _
  rw [pay2_apply, pay8_apply]

end V0

namespace V0
open Idealize.ShloMosaic.ValueIdx

/-! ## The accumulators along a core's tiles -/

section Tiles
variable (V : (c : Dev nD) → (b : Ref sig .tc) → Buf (Elt Ideal) ((c : Thread nD τ).loc b))

/-- Row r of tile t of the whole array (the tile's number read modulo the 32 tiles). -/
def row (t : ℕ) (r : Fin 2048) : Fin 65536 := ⟨(2048 * t + r.val) % 65536, Nat.mod_lt _ (by decide)⟩

theorem rowOf_eq (t : ℕ) (ht : t < 32) (r : Fin 2048) : rowOf t ht r = row t r :=
  Fin.ext (by
    show 2048 * t + r.val = (2048 * t + r.val) % 65536
    have := r.isLt
    omega)

theorem tile_row (k : Fin 2) (j : Fin 16) (r : Fin 2048) (h : (16 * k.val + j.val) * 2048 + r.val < 65536) :
    (⟨(16 * k.val + j.val) * 2048 + r.val, h⟩ : Fin 65536) = row (16 * k.val + j.val) r :=
  Fin.ext (by
    show (16 * k.val + j.val) * 2048 + r.val = (2048 * (16 * k.val + j.val) + r.val) % 65536
    omega)

/-- Tile t's term of the sums, per class and column: over its rows, the one-hot weight times the normalised row, view 1 plus view 2. -/
def tileSum (c : Dev nD) (t : ℕ) (cc d : Fin 256) : EReal :=
  (∑ r : Fin 2048, oh (labc V c (row t r)) cc * Cert.Spec.zn (arr0 V c (row t r)) d)
    + ∑ r : Fin 2048, oh (labc V c (row t r)) cc * Cert.Spec.zn (arr1 V c (row t r)) d

/-- The number of tile t's rows of a class. -/
def tileCnt (c : Dev nD) (t : ℕ) (cc : Fin 256) : ℕ :=
  (Finset.univ.filter fun r : Fin 2048 => labc V c (row t r) = BitVec.ofNat 32 cc.val).card

theorem lt_N0 (k : Fin 2) (j : ℕ) (hj : j < 16) : 16 * k.val + j < cfg0.N := by
  have := k.isLt
  have hN : cfg0.N = 32 := N_0
  omega

/-- One point's update over the point's blocks, in terms of the whole arrays. -/
theorem step0_fst_at (c : Dev nD) (s : Sc0 Ideal) (t : Fin cfg0.N) (cc d : Fin 256) :
    (step0 s (x1b0 V c t) (x2b0 V c t) (lb0 V c t)).1 (ix2 cc d) = s.1 (ix2 cc d) + tileSum V c t.val cc d := by
  rw [step0_fst]
  unfold tileSum
  have e1 : ∀ r : Fin 2048, (fun k => x1b0 V c t (ix2 r k)) = arr0 V c (row t.val r) := fun r => funext fun k => by
    rw [x1b0_apply, rowOf_eq]
  have e2 : ∀ r : Fin 2048, (fun k => x2b0 V c t (ix2 r k)) = arr1 V c (row t.val r) := fun r => funext fun k => by
    rw [x2b0_apply, rowOf_eq]
  have e3 : ∀ r : Fin 2048, lb0 V c t (ix2 r 0) = labc V c (row t.val r) := fun r => by
    rw [lb0_apply, rowOf_eq]
  refine congrArg (fun x => s.1 (ix2 cc d) + x) (congrArg₂ (fun x y : EReal => x + y) ?_ ?_)
  · exact Finset.sum_congr rfl fun r _ => by rw [e1, e3]
  · exact Finset.sum_congr rfl fun r _ => by rw [e2, e3]

theorem step0_snd_at (c : Dev nD) (s : Sc0 Ideal) (t : Fin cfg0.N) (u : Fin 1) (cc : Fin 256) :
    (step0 s (x1b0 V c t) (x2b0 V c t) (lb0 V c t)).2 (ix2 u cc) = s.2 (ix2 u cc) + ((2 * tileCnt V c t.val cc : ℕ) : EReal) := by
  rw [step0_snd, ← Cert.Spec.two_mul_natCast]
  unfold tileCnt
  rw [← Cert.Spec.sum_onehot]
  refine congrArg (fun x => s.2 (ix2 u cc) + Cert.Spec.lit 0x40000000#32 * x) ?_
  exact Finset.sum_congr rfl fun r _ => by
    rw [lb0_apply, rowOf_eq]
    rfl

/-- The accumulators restart from zero at the first tile of a core and continue from the point before at the others. -/
theorem sAt0_first (c : Dev nD) (n : ℕ) (hn : n < cfg0.N) (h0 : n % 16 = 0) :
    sAt0 V c n hn = step0 init0 (x1b0 V c ⟨n, hn⟩) (x2b0 V c ⟨n, hn⟩) (lb0 V c ⟨n, hn⟩) := by
  cases n with
  | zero => rfl
  | succ n => exact (if_pos h0).trans rfl
theorem sAt0_next (c : Dev nD) (n : ℕ) (hn : n + 1 < cfg0.N) (h0 : ¬(n + 1) % 16 = 0) :
    sAt0 V c (n + 1) hn = step0 (sAt0 V c n (Nat.lt_of_succ_lt hn)) (x1b0 V c ⟨n + 1, hn⟩) (x2b0 V c ⟨n + 1, hn⟩) (lb0 V c ⟨n + 1, hn⟩) :=
  (if_neg h0).trans rfl

/-- After tile j of core k the first accumulator holds the terms of the core's tiles 0 … j. -/
theorem sAt0_fst_sum (c : Dev nD) (k : Fin 2) (cc d : Fin 256) (j : ℕ) (hj : j < 16) :
    (sAt0 V c (16 * k.val + j) (lt_N0 k j hj)).1 (ix2 cc d) = ∑ j' ∈ Finset.range (j + 1), tileSum V c (16 * k.val + j') cc d := by
  induction j with
  | zero =>
    rw [sAt0_first V c (16 * k.val + 0) (lt_N0 k 0 hj) (by omega), step0_fst_at, Finset.sum_range_one]
    show k0_pay5 (F := Ideal) (ix2 cc d) + _ = _
    rw [pay5_apply, zero_add]
  | succ j ih =>
    have e := sAt0_next V c (16 * k.val + j) (lt_N0 k (j + 1) hj) (by omega)
    refine (congrArg (fun s : Sc0 Ideal => s.1 (ix2 cc d)) e).trans ?_
    show (step0 _ _ _ _).1 (ix2 cc d) = _
    rw [step0_fst_at, Finset.sum_range_succ]
    exact congrArg₂ (fun x y : EReal => x + y) (ih (by omega)) rfl

/-- After tile j of core k the second accumulator holds twice the number of rows of the class in the core's tiles 0 … j. -/
theorem sAt0_snd_sum (c : Dev nD) (k : Fin 2) (u : Fin 1) (cc : Fin 256) (j : ℕ) (hj : j < 16) :
    (sAt0 V c (16 * k.val + j) (lt_N0 k j hj)).2 (ix2 u cc) = ((∑ j' ∈ Finset.range (j + 1), 2 * tileCnt V c (16 * k.val + j') cc : ℕ) : EReal) := by
  induction j with
  | zero =>
    rw [sAt0_first V c (16 * k.val + 0) (lt_N0 k 0 hj) (by omega), step0_snd_at, Finset.sum_range_one]
    show k0_pay6 (F := Ideal) (ix2 u cc) + _ = _
    rw [pay6_apply, zero_add]
  | succ j ih =>
    have e := sAt0_next V c (16 * k.val + j) (lt_N0 k (j + 1) hj) (by omega)
    refine (congrArg (fun s : Sc0 Ideal => s.2 (ix2 u cc)) e).trans ?_
    show (step0 _ _ _ _).2 (ix2 u cc) = _
    rw [step0_snd_at, Finset.sum_range_succ, Nat.cast_add]
    exact congrArg₂ (fun x y : EReal => x + y) (ih (by omega)) rfl

/-- A sum over a class's rows of the whole array, tile by tile with one-hot weights. -/
theorem sum_class_tiles (c : Dev nD) (z : Cert.Spec.Arr) (cc d : Fin 256) :
    ∑ i ∈ Cert.Spec.inClass (labc V c) cc, Cert.Spec.zn (z i) d
      = ∑ k : Fin 2, ∑ j : Fin 16, ∑ r : Fin 2048,
          oh (labc V c (row (16 * k.val + j.val) r)) cc * Cert.Spec.zn (z (row (16 * k.val + j.val) r)) d := by
  unfold Cert.Spec.inClass
  rw [← Cert.Spec.sum_onehot_mul, Cert.Spec.sum_tiles]
  refine Finset.sum_congr rfl fun k _ => Finset.sum_congr rfl fun j _ => Finset.sum_congr rfl fun r _ => ?_
  rw [tile_row]
  rfl

/-- The number of a class's rows, tile by tile. -/
theorem card_class_tiles (c : Dev nD) (cc : Fin 256) :
    (Cert.Spec.inClass (labc V c) cc).card = ∑ k : Fin 2, ∑ j : Fin 16, tileCnt V c (16 * k.val + j.val) cc := by
  unfold Cert.Spec.inClass tileCnt
  rw [Finset.card_filter, Cert.Spec.sum_tiles]
  refine Finset.sum_congr rfl fun k _ => Finset.sum_congr rfl fun j _ => ?_
  rw [Finset.card_filter]
  exact Finset.sum_congr rfl fun r _ => by rw [tile_row]

end Tiles

end V0

variable {F : FTy → Type} [FloatOps F]

local notation "𝕄" => MT nD τ sig Unit (Elt F) ℕ (UR sig nD τ) ℕ

section AtIdeal
variable (V : (c : Dev nD) → (b : Ref sig .tc) → Buf (Elt Ideal) ((c : Thread nD τ).loc b))
open V0 Idealize.ShloMosaic.ValueIdx

/-- The two cores' sums slabs add up, per class and column, to the sums over all rows of the class. -/
theorem G3_sum (c : Dev nD) (cc d : Fin 256) :
    ∑ k : Fin 2, (G3 V c : FVec Ideal S2x256x256 .f32) (ValueIdx.ix3 k cc d) = Cert.Spec.sums (arr0 V c) (arr1 V c) (labc V c) cc d := by
  have hG : ∀ k : Fin 2, (G3 V c : FVec Ideal S2x256x256 .f32) (ValueIdx.ix3 k cc d) = ∑ j : Fin 16, tileSum V c (16 * k.val + j.val) cc d := fun k => by
    show (sAt0 V c (16 * k.val + 15) _).1 (ix2 cc d) = _
    rw [sAt0_fst_sum V c k cc d 15 (by omega), Finset.sum_range]
  rw [Finset.sum_congr rfl fun k _ => hG k]
  unfold Cert.Spec.sums
  rw [sum_class_tiles, sum_class_tiles, ← Finset.sum_add_distrib]
  refine Finset.sum_congr rfl fun k _ => ?_
  rw [← Finset.sum_add_distrib]
  rfl
/-- The two cores' count slabs add up, per class, to twice the number of rows of the class. -/
theorem G4_sum (c : Dev nD) (cc : Fin 256) :
    ∑ k : Fin 2, (G4 V c : FVec Ideal S2x1x256 .f32) (ValueIdx.ix3 k 0 cc) = Cert.Spec.cnt (labc V c) cc := by
  have hG : ∀ k : Fin 2, (G4 V c : FVec Ideal S2x1x256 .f32) (ValueIdx.ix3 k 0 cc)
      = ((∑ j : Fin 16, 2 * tileCnt V c (16 * k.val + j.val) cc : ℕ) : EReal) := fun k => by
    show (sAt0 V c (16 * k.val + 15) _).2 (ix2 0 cc) = _
    rw [sAt0_snd_sum V c k 0 cc 15 (by omega), Finset.sum_range]
  rw [Finset.sum_congr rfl fun k _ => hG k, Cert.Spec.sum_natCast]
  unfold Cert.Spec.cnt
  rw [card_class_tiles, Finset.mul_sum]
  refine congrArg _ (Finset.sum_congr rfl fun k _ => ?_)
  rw [Finset.mul_sum]
end AtIdeal

end Cert.KernelIdeal.Hand

end
-- ==== Proof.KI.Value1.lean ====
/-
  What region 1 leaves in its result array: the pipeline's fold of write-backs is the cores' final accumulators, and at
  the ideal instance, labels in range, the two cores' entries add up to the rows' log probabilities of both views.
-/
import proofs.«413172_j20023137534376_3_alg».proof.Proof.KI.Args
import proofs.«413172_j20023137534376_3_alg».proof.Proof.KI.Rows
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Reading the pointwise and layout operations at an index -/

section Reads
open Idealize.ShloMosaic.ValueIdx
variable {α : Type}

/-- The exponential and the logarithm act element by element; at the ideal instance they are the extended reals'. -/
theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl

/-- A vector of length a re-laid as a column a × 1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column a × 1 broadcast along its rows to a × b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Reads

/-! ## The lane sums and the product with the class-means table -/

section Sums
open Idealize.ShloMosaic.ValueIdx

/-- The sum along the columns of an a × b array reads, at row r, the sum of that row's entries. -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ v acc h hφ hacc (ix1 r) = ∑ k : Fin b, v (ix2 r k) :=
  (Ideal.multiReduction_add_single v acc h hφ hacc (ix1 r)).trans (Finset.sum_congr rfl fun k _ => congrArg v (by
    funext c; apply Fin.ext
    match c with
    | ⟨0, _⟩ => rfl
    | ⟨1, _⟩ => rfl))

/-- The sum along the rows of a column a × 1 reads, at its one entry, the sum of the column. -/
theorem colSum_apply {a : ℕ} {φ : FTy} (v : FVec Ideal (⟨2, ![a, 1]⟩ : Shape) φ) (acc : BitVec φ.bits)
    (h : (⟨2, ![a, 1]⟩ : Shape).Reduces [0] ⟨1, ![1]⟩) (hφ : FKind.Formats φ) (hacc : acc = FKind.add.neutral φ hφ) (u : Fin 1) :
    multiReduction (F := Ideal) .add [0] ⟨1, ![1]⟩ v acc h hφ hacc (ix1 u) = ∑ r : Fin a, v (ix2 r (0 : Fin 1)) :=
  (Ideal.multiReduction_add_single v acc h hφ hacc (ix1 u)).trans (Finset.sum_congr rfl fun k _ => congrArg v (by
    funext c; apply Fin.ext
    match c with
    | ⟨0, _⟩ => rfl
    | ⟨1, _⟩ => show u.val = 0; omega))

/-- The product's operand indices, axis by axis: the left operand's row is the result's row, the right operand's row is the
    result's column, and both operands' columns are the contraction position. -/
theorem lhs_mm_0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem lhs_mm_1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q
theorem rhs_mm_0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem rhs_mm_1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q

/-- The product of a 2048 × 256 block with the transposed 256 × 256 table, accumulated into zero: at row r and class cc,
    the sum over the 256 columns of the block's row r times the table's row cc. -/
theorem mm_apply (A : FVec Ideal S2048x256 .bf16) (B : FVec Ideal S256x256 .bf16) (r : Fin 2048) (cc : Fin 256) :
    matmul dot_S2048x256_S256x256_S2048x256_1_1_0_0_n_n none A B (constant (F := Ideal) S2048x256 .f32 0x00000000#32) (ix2 r cc)
      = ∑ k : Fin 256, A (ix2 r k) * B (ix2 cc k) := by
  simp only [matmul]
  rw [Ideal.matmul_constant_zero_apply, ← Equiv.sum_comp (ValueIdx.contrEquiv1 dot_S2048x256_S256x256_S2048x256_1_1_0_0_n_n 256 rfl rfl).symm]
  refine Finset.sum_congr rfl fun k _ => ?_
  have hk := ValueIdx.contrEquiv1_symm_val dot_S2048x256_S256x256_S2048x256_1_1_0_0_n_n 256 rfl rfl k
  have el : dot_S2048x256_S256x256_S2048x256_1_1_0_0_n_n.lhsIdx (ix2 r cc) ((ValueIdx.contrEquiv1 dot_S2048x256_S256x256_S2048x256_1_1_0_0_n_n 256 rfl rfl).symm k) = ix2 r k := funext fun a => Fin.ext (by
    match a with
    | ⟨0, _⟩ => exact lhs_mm_0 _ _
    | ⟨1, _⟩ => exact (lhs_mm_1 _ _).trans hk)
  have er : dot_S2048x256_S256x256_S2048x256_1_1_0_0_n_n.rhsIdx (ix2 r cc) ((ValueIdx.contrEquiv1 dot_S2048x256_S256x256_S2048x256_1_1_0_0_n_n 256 rfl rfl).symm k) = ix2 cc k := funext fun a => Fin.ext (by
    match a with
    | ⟨0, _⟩ => exact rhs_mm_0 _ _
    | ⟨1, _⟩ => exact (rhs_mm_1 _ _).trans hk)
  rw [el, er]

end Sums

/-! ## The payloads of the loss kernel at an index -/

section Payloads
open Idealize.ShloMosaic.ValueIdx

/-- The sums of a block's rows, kept as a column. -/
def rowSums (v : FVec Ideal S2048x256 .f32) : FVec Ideal S2048x1 .f32 :=
  shapeCast S2048x1 (multiReduction (F := Ideal) .add [1] S2048 v 0x00000000#32 reduces_S2048x256_S2048 (.inl rfl) rfl) shapeCasts_S2048_S2048x1

theorem rowSums_apply (v : FVec Ideal S2048x256 .f32) (r : Fin 2048) (u : Fin 1) :
    rowSums v (ix2 r u) = ∑ k : Fin 256, v (ix2 r k) :=
  (shapeCast_a_a1_apply _ _ r u).trans (rowSum_apply v _ _ _ _ r)

/-- The total of a column, kept as a 1 × 1 array. -/
def colTotal (v : FVec Ideal S2048x1 .f32) : FVec Ideal S1x1 .f32 :=
  shapeCast S1x1 (multiReduction (F := Ideal) .add [0] S1 v 0x00000000#32 reduces_S2048x1_S1 (.inl rfl) rfl) shapeCasts_S1_S1x1

theorem colTotal_apply (v : FVec Ideal S2048x1 .f32) (u u' : Fin 1) :
    colTotal v (ix2 u u') = ∑ r : Fin 2048, v (ix2 r (0 : Fin 1)) :=
  (shapeCast_a_1a_apply _ _ u u').trans (colSum_apply v _ _ _ _ u')

/-- The similarities of a block's rows to the class means: the product of the normalised block with the transposed table,
    times the word 1. -/
theorem pay5_apply (x : Vec Ideal S2048x256 .f32) (mu : Vec Ideal S256x256 .bf16) (r : Fin 2048) (cc : Fin 256) :
    k1_pay5 (F := Ideal) x mu (ix2 r cc) = Cert.Spec.sim (fun c d => mu (ix2 c d)) (Cert.Spec.zn (fun k => x (ix2 r k))) cc := by
  rw [k1_pay5_eq, mulf_apply, broadcast_apply, mm_apply]
  refine (Cert.Spec.mul_lit_one _).trans ?_
  unfold Cert.Spec.sim k1_pay4
  rw [shapeCast_self]
  exact Finset.sum_congr rfl fun k _ => by rw [truncf_apply, znBlock_apply]

/-- The second view's similarities are formed in the same way. -/
theorem pay6_eq (x : Vec Ideal S2048x256 .f32) (mu : Vec Ideal S256x256 .bf16) : k1_pay6 (F := Ideal) x mu = k1_pay5 (F := Ideal) x mu := rfl

/-- Selecting by the mask at row r and class cc, the label in range: whether cc is the row's class. -/
theorem pay7_select {α : Type} (l : Vec Ideal S2048x1 .i32) (r : Fin 2048) (cc : Fin 256) (hl : (l (ix2 r 0)).toNat < 256) (p q : α) :
    Scalar.select (k1_pay7 (F := Ideal) l (ix2 r cc)) p q = if Cert.Spec.cls (l (ix2 r 0)) = cc then p else q := by
  rw [k1_pay7_eq]
  show (if maskBlock (F := Ideal) l (ix2 r cc) = 1 then p else q) = _
  exact if_congr ((maskBlock_apply l r cc).trans (Cert.Spec.cls_eq_iff hl cc)) rfl rfl

/-- The accumulator's update, as the operations it is made of. -/
theorem pay1_eq (v29 v32 : FVec Ideal S2048x256 .f32) (v35 : IVec S2048x256 1) (v37 : FVec Ideal S2048x256 .f32) (s : Vec Ideal S1x1 .f32) :
    k1_pay1 (F := Ideal) v29 v32 v35 v37 s = shapeCast S1x1 (addf s (addf
      (colTotal (subf (rowSums v37) (log (rowSums (exp (subf v29 (broadcastTo S2048x256 (rowSums v37) broadcasts_S2048x1_S2048x256)))))))
      (colTotal (subf (rowSums (select v35 v32 (broadcast S2048x256 (Scalar.ofBits (F := Ideal) .f32 0x00000000#32))))
        (log (rowSums (exp (subf v32 (broadcastTo S2048x256
          (rowSums (select v35 v32 (broadcast S2048x256 (Scalar.ofBits (F := Ideal) .f32 0x00000000#32)))) broadcasts_S2048x1_S2048x256))))))))) shapeCasts_S1x1_S1x1 := rfl

/-- The accumulator's update at its one entry: the old value plus, over the tile's rows and for each view, the row's selected
    similarity minus the logarithm of the sum over the classes of the exponentials of the similarities less the selected one. -/
theorem pay1_apply (v29 v32 : FVec Ideal S2048x256 .f32) (v35 : IVec S2048x256 1) (v37 : FVec Ideal S2048x256 .f32) (s : Vec Ideal S1x1 .f32) (u u' : Fin 1) :
    k1_pay1 (F := Ideal) v29 v32 v35 v37 s (ix2 u u') = s (ix2 u u') +
      ((∑ r : Fin 2048, ((∑ cc : Fin 256, v37 (ix2 r cc))
          - Ideal.log (∑ cc : Fin 256, Ideal.exp (v29 (ix2 r cc) - ∑ c' : Fin 256, v37 (ix2 r c')))))
      + ∑ r : Fin 2048, ((∑ cc : Fin 256, Scalar.select (v35 (ix2 r cc)) (v32 (ix2 r cc)) (Cert.Spec.lit 0x00000000#32))
          - Ideal.log (∑ cc : Fin 256, Ideal.exp (v32 (ix2 r cc)
              - ∑ c' : Fin 256, Scalar.select (v35 (ix2 r c')) (v32 (ix2 r c')) (Cert.Spec.lit 0x00000000#32))))) := by
  rw [pay1_eq, shapeCast_self, addf_apply, addf_apply, colTotal_apply, colTotal_apply]
  simp only [subf_apply, log_at, exp_at, rowSums_apply, broadcastTo_a1_ab_apply, select_apply, broadcast_apply]
  rfl

/-- The zero accumulator. -/
theorem pay3_apply (i : S1x1.Idx) : (k1_pay3 (F := Ideal)) i = 0 := by
  show shapeCast S1x1 (broadcast S1x1 (Scalar.ofBits (F := Ideal) .f32 0x00000000#32)) shapeCasts_S1x1_S1x1 i = 0
  rw [shapeCast_self]
  exact Cert.Spec.lit_zero

/-- One point's update at the accumulator's entry: the labels in range, the old value plus the log probabilities of the tile's
    rows, view 1 then view 2. The blocks and the table enter through what they hold, by row and column. -/
theorem step1_apply (s : Vec Ideal S1x1 .f32) (x1 x2 : Vec Ideal S2048x256 .f32) (l : Vec Ideal S2048x1 .i32) (mu : Vec Ideal S256x256 .bf16)
    (μ : Fin 256 → Fin 256 → EReal) (a1 a2 : Fin 2048 → Fin 256 → EReal) (lw : Fin 2048 → BitVec 32)
    (hμ : ∀ cc d, mu (ix2 cc d) = μ cc d) (h1 : ∀ r d, x1 (ix2 r d) = a1 r d) (h2 : ∀ r d, x2 (ix2 r d) = a2 r d)
    (hl : ∀ r, l (ix2 r 0) = lw r) (hlt : ∀ r, (lw r).toNat < 256) (u u' : Fin 1) :
    step1 s x1 x2 l mu (ix2 u u') = s (ix2 u u') +
      ((∑ r : Fin 2048, Cert.Spec.rowLP μ (Cert.Spec.zn (a1 r)) (Cert.Spec.cls (lw r)))
      + ∑ r : Fin 2048, Cert.Spec.rowLP μ (Cert.Spec.zn (a2 r)) (Cert.Spec.cls (lw r))) := by
  obtain rfl : μ = fun cc d => mu (ix2 cc d) := (funext fun cc => funext fun d => hμ cc d).symm
  obtain rfl : a1 = fun r d => x1 (ix2 r d) := (funext fun r => funext fun d => h1 r d).symm
  obtain rfl : a2 = fun r d => x2 (ix2 r d) := (funext fun r => funext fun d => h2 r d).symm
  obtain rfl : lw = fun r => l (ix2 r 0) := (funext fun r => hl r).symm
  unfold step1
  rw [pay1_apply]
  have hsel : ∀ (r : Fin 2048) (f : Fin 256 → EReal),
      ∑ cc : Fin 256, Scalar.select (k1_pay7 (F := Ideal) l (ix2 r cc)) (f cc) (Cert.Spec.lit 0x00000000#32) = f (Cert.Spec.cls (l (ix2 r 0))) := fun r f => by
    rw [← Cert.Spec.sum_select_eq (l := Cert.Spec.cls (l (ix2 r 0))) f]
    exact Finset.sum_congr rfl fun cc _ => pay7_select l r cc (hlt r) _ _
  have h8 : ∀ r : Fin 2048, ∑ cc : Fin 256, k1_pay8 (F := Ideal) x1 l mu (ix2 r cc)
      = Cert.Spec.sim (fun c d => mu (ix2 c d)) (Cert.Spec.zn (fun k => x1 (ix2 r k))) (Cert.Spec.cls (l (ix2 r 0))) := fun r => by
    rw [← hsel r (fun cc => Cert.Spec.sim (fun c d => mu (ix2 c d)) (Cert.Spec.zn (fun k => x1 (ix2 r k))) cc)]
    exact Finset.sum_congr rfl fun cc _ => by
      show Scalar.select (k1_pay7 (F := Ideal) l (ix2 r cc)) (k1_pay5 (F := Ideal) x1 mu (ix2 r cc)) _ = _
      rw [pay5_apply]; rfl
  congr 1
  congr 1
  · refine Finset.sum_congr rfl fun r _ => ?_
    rw [h8 r]
    unfold Cert.Spec.rowLP
    congr 2
    exact Finset.sum_congr rfl fun cc _ => by rw [pay5_apply]
  · refine Finset.sum_congr rfl fun r _ => ?_
    have e : ∑ cc : Fin 256, Scalar.select (k1_pay7 (F := Ideal) l (ix2 r cc)) (k1_pay6 (F := Ideal) x2 mu (ix2 r cc)) (Cert.Spec.lit 0x00000000#32)
        = Cert.Spec.sim (fun c d => mu (ix2 c d)) (Cert.Spec.zn (fun k => x2 (ix2 r k))) (Cert.Spec.cls (l (ix2 r 0))) := by
      rw [← hsel r (fun cc => Cert.Spec.sim (fun c d => mu (ix2 c d)) (Cert.Spec.zn (fun k => x2 (ix2 r k))) cc)]
      exact Finset.sum_congr rfl fun cc _ => by rw [pay6_eq, pay5_apply]
    rw [e]
    unfold Cert.Spec.rowLP
    congr 2
    exact Finset.sum_congr rfl fun cc _ => by rw [pay6_eq, pay5_apply]

end Payloads

section AtIdeal
open Idealize.ShloMosaic.ValueIdx
variable (V : (c : Dev nD) → (b : Ref sig .tc) → Buf (Elt Ideal) ((c : Thread nD τ).loc b))

namespace V1

/-- Row r of tile n as a row of the whole array, n · 2048 + r, reduced modulo 65536 so that it is defined for every n;
    for n < 32 nothing is reduced. -/
def tileRow (n : ℕ) (r : Fin 2048) : Fin 65536 := ⟨(n * 2048 + r.val) % 65536, Nat.mod_lt _ (by decide)⟩

theorem rowOf_eq_tileRow (n : ℕ) (hn : n < 32) (r : Fin 2048) : rowOf n hn r = tileRow n r :=
  Fin.ext (by
    have := r.isLt
    show 2048 * n + r.val = (n * 2048 + r.val) % 65536
    omega)

theorem tileRow_eq (n : ℕ) (r : Fin 2048) (h : n * 2048 + r.val < 65536) : tileRow n r = ⟨n * 2048 + r.val, h⟩ :=
  Fin.ext (Nat.mod_eq_of_lt h)

/-- The log probabilities of tile n's rows, view 1 then view 2. -/
def tileLP (c : Dev nD) (n : ℕ) : EReal :=
  (∑ r : Fin 2048, Cert.Spec.rowLP (muc V c) (Cert.Spec.zn (arr0 V c (tileRow n r))) (Cert.Spec.cls (labc V c (tileRow n r))))
    + ∑ r : Fin 2048, Cert.Spec.rowLP (muc V c) (Cert.Spec.zn (arr1 V c (tileRow n r))) (Cert.Spec.cls (labc V c (tileRow n r)))

/-- At the first tile of a core the accumulator is the point's update of zero. -/
theorem sAt1_first (c : Dev nD) (n : ℕ) (hn : n < cfg1.N) (h0 : n % 16 = 0) :
    sAt1 V c n hn = step1 k1_pay3 (x1b1 V c ⟨n, hn⟩) (x2b1 V c ⟨n, hn⟩) (lb1 V c ⟨n, hn⟩) (mub1 V c ⟨n, hn⟩) := by
  cases n with
  | zero => rfl
  | succ n => exact (if_pos h0).trans rfl

/-- At a later tile it is the point's update of what the point before left. -/
theorem sAt1_next (c : Dev nD) (n : ℕ) (hn : n + 1 < cfg1.N) (h0 : ¬(n + 1) % 16 = 0) :
    sAt1 V c (n + 1) hn = step1 (sAt1 V c n (Nat.lt_of_succ_lt hn))
      (x1b1 V c ⟨n + 1, hn⟩) (x2b1 V c ⟨n + 1, hn⟩) (lb1 V c ⟨n + 1, hn⟩) (mub1 V c ⟨n + 1, hn⟩) :=
  (if_neg h0).trans rfl

/-- The labels in range, one point's update over the blocks of point t adds tile t's log probabilities. -/
theorem step1_tile (c : Dev nD) (hlab : ∀ i : Fin 65536, (labc V c i).toNat < 256) (t : Fin cfg1.N) (s : Vec Ideal S1x1 .f32) (u u' : Fin 1) :
    step1 s (x1b1 V c t) (x2b1 V c t) (lb1 V c t) (mub1 V c t) (ix2 u u') = s (ix2 u u') + tileLP V c t.val :=
  step1_apply s _ _ _ _ (muc V c) (fun r => arr0 V c (tileRow t.val r)) (fun r => arr1 V c (tileRow t.val r))
    (fun r => labc V c (tileRow t.val r))
    (fun cc d => mub1_apply V c t cc d)
    (fun r d => (x1b1_apply V c t r d).trans (congrArg (fun i => arr0 V c i d) (rowOf_eq_tileRow _ _ r)))
    (fun r d => (x2b1_apply V c t r d).trans (congrArg (fun i => arr1 V c i d) (rowOf_eq_tileRow _ _ r)))
    (fun r => (lb1_apply V c t r).trans (congrArg (fun i => labc V c i) (rowOf_eq_tileRow _ _ r)))
    (fun r => hlab _) u u'

/-- The labels in range, after tile j of core k the accumulator holds the log probabilities of the core's tiles 0 … j. -/
theorem sAt1_core (c : Dev nD) (hlab : ∀ i : Fin 65536, (labc V c i).toNat < 256) (k : ℕ) (hk : k < 2) (u u' : Fin 1) :
    ∀ (j : ℕ) (hj : j < 16), sAt1 V c (16 * k + j) (by have hN : cfg1.N = 32 := N_1; omega) (ix2 u u')
      = ∑ i ∈ Finset.range (j + 1), tileLP V c (16 * k + i) := by
  intro j
  induction j with
  | zero =>
    intro hj
    rw [sAt1_first V c (16 * k + 0) _ (by omega), step1_tile V c hlab, pay3_apply, zero_add]
    exact (Finset.sum_range_one (fun i => tileLP V c (16 * k + i))).symm
  | succ j ih =>
    intro hj
    show sAt1 V c (16 * k + j + 1) _ (ix2 u u') = _
    rw [sAt1_next V c (16 * k + j) _ (by omega), step1_tile V c hlab, ih (by omega)]
    exact (Finset.sum_range_succ (fun i => tileLP V c (16 * k + i)) (j + 1)).symm

end V1

/-- Labels in range: the two cores' entries add up to the sum of the rows' log probabilities, view 1 then view 2. -/
theorem G10_sum (c : Dev nD) (hlab : ∀ i : Fin 65536, (labc V c i).toNat < 256) :
    ∑ k : Fin 2, (G10 V c : FVec Ideal S2x1x1 .f32) (ValueIdx.ix3 k 0 0)
      = (∑ i : Fin 65536, Cert.Spec.rowLP (muc V c) (Cert.Spec.zn (arr0 V c i)) (Cert.Spec.cls (labc V c i)))
        + ∑ i : Fin 65536, Cert.Spec.rowLP (muc V c) (Cert.Spec.zn (arr1 V c i)) (Cert.Spec.cls (labc V c i)) := by
  have hcore : ∀ k : Fin 2, (G10 V c : FVec Ideal S2x1x1 .f32) (ValueIdx.ix3 k 0 0) = ∑ j : Fin 16, V1.tileLP V c (16 * k.val + j.val) := fun k => by
    rw [← Finset.sum_range (fun i => V1.tileLP V c (16 * k.val + i))]
    exact V1.sAt1_core V c hlab k.val k.isLt 0 0 15 (by decide)
  rw [Finset.sum_congr rfl fun k _ => hcore k,
    Cert.Spec.sum_tiles (fun i => Cert.Spec.rowLP (muc V c) (Cert.Spec.zn (arr0 V c i)) (Cert.Spec.cls (labc V c i))),
    Cert.Spec.sum_tiles (fun i => Cert.Spec.rowLP (muc V c) (Cert.Spec.zn (arr1 V c i)) (Cert.Spec.cls (labc V c i))),
    ← Finset.sum_add_distrib]
  refine Finset.sum_congr rfl fun k _ => ?_
  rw [← Finset.sum_add_distrib]
  refine Finset.sum_congr rfl fun j _ => ?_
  have hr : ∀ r : Fin 2048, (16 * k.val + j.val) * 2048 + r.val < 65536 := fun r => by
    have := k.isLt; have := j.isLt; have := r.isLt; omega
  unfold V1.tileLP
  congr 1 <;> exact Finset.sum_congr rfl fun r _ => by rw [V1.tileRow_eq _ r (hr r)]
end AtIdeal

end Cert.KernelIdeal.Hand

end
-- ==== Proof.KI.Assemble.lean ====
/-
  The kernel program's result at the ideal instance, labels in range, as the common function of the three argument
  arrays: the host lines between the regions turn region 0's slabs into the class means, and the lines after region 1
  turn its two entries into minus the mean log probability.
-/
import proofs.«413172_j20023137534376_3_alg».proof.Proof.KI.Vals
import proofs.«413172_j20023137534376_3_alg».proof.Proof.KI.Value0
import proofs.«413172_j20023137534376_3_alg».proof.Proof.KI.Value1
import proofs.«413172_j20023137534376_3_alg».proof.Proof.Gen.KernelIdeal.Regions
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ)

/-- The three argument arrays of the launch memory by row and column. -/
def z1Of (c : Dev nD) : Cert.Spec.Arr := fun i d => (m ((c : Thread nD τ).loc main_arg0) : FVec Ideal S65536x256 .f32) (ValueIdx.ix2 i d)
def z2Of (c : Dev nD) : Cert.Spec.Arr := fun i d => (m ((c : Thread nD τ).loc main_arg1) : FVec Ideal S65536x256 .f32) (ValueIdx.ix2 i d)
def labOf (c : Dev nD) : Cert.Spec.Lab := fun i => (m ((c : Thread nD τ).loc main_arg2) : IVec S65536 32) (ValueIdx.ix1 i)

/-! ## The arguments at the two regions' entries -/

/-- The line before region 0 writes only the labels column: the two argument arrays are the launch memory's. -/
theorem V1_arg0 (c : Dev nD) : V1 m c main_arg0 = m ((c : Thread nD τ).loc main_arg0) :=
  (StableHlo.after_of_writes_sub hostOps0 _ hostOps0_writes (by decide)).trans rfl
theorem V1_arg1 (c : Dev nD) : V1 m c main_arg1 = m ((c : Thread nD τ).loc main_arg1) :=
  (StableHlo.after_of_writes_sub hostOps0 _ hostOps0_writes (by decide)).trans rfl

/-- The labels column is the labels vector re-laid. -/
theorem V1_v0 (c : Dev nD) : (V1 m c main_v0 : IVec S65536x1 32)
    = shapeCast S65536x1 (m ((c : Thread nD τ).loc main_arg2) : IVec S65536 32) shapeCasts_S65536_S65536x1 := by
  show StableHlo.after hostOps0 _ (Proc.devRef .tc main_v0) = _
  after_results
  rfl

/-- A column re-laid from a vector reads, at row i, the vector at i: both sit at row-major position i. -/
theorem col_apply (x : IVec S65536 32) (i : Fin 65536) :
    shapeCast S65536x1 x shapeCasts_S65536_S65536x1 (ValueIdx.ix2 i 0) = x (ValueIdx.ix1 i) :=
  shapeCast_apply x _ _ _ (by
    rw [Shape.rowMajor_val_two, Shape.rowMajor_val_one]
    show i.val = i.val * 1 + 0
    omega)

theorem arr0_V1 (c : Dev nD) : arr0 (V1 m) c = z1Of m c := by
  unfold arr0 z1Of
  rw [V1_arg0]
theorem arr1_V1 (c : Dev nD) : arr1 (V1 m) c = z2Of m c := by
  unfold arr1 z2Of
  rw [V1_arg1]
theorem labc_V1 (c : Dev nD) : labc (V1 m) c = labOf m c := by
  funext i
  unfold labc labOf
  rw [V1_v0]
  exact col_apply _ i

/-- No line between the regions writes an argument array or the labels column, and region 0 changes only its two
    result arrays: region 1 is entered with what region 0 was. -/
theorem V3_of_V1 (c : Dev nD) (r : Ref sig .tc) (h1 : r ∉ hostOps1_W) (h2 : r ≠ main_v1_0) (h3 : r ≠ main_v1_1) :
    V3 m c r = V1 m c r := by
  show StableHlo.after hostOps1 (W2 m c) (Proc.devRef .tc r) = _
  rw [StableHlo.after_of_writes_sub hostOps1 _ hostOps1_writes h1]
  show Function.update (Function.update (W1 m c) main_v1_0 (G3 (V1 m) c)) main_v1_1 (G4 (V1 m) c) (Proc.devRef .tc r) = _
  rw [Function.update_of_ne (StableHlo.devRef_ne_of_ne h3), Function.update_of_ne (StableHlo.devRef_ne_of_ne h2)]

theorem arr0_V3 (c : Dev nD) : arr0 (V3 m) c = z1Of m c := by
  rw [← arr0_V1]; unfold arr0; rw [V3_of_V1 m c main_arg0 (by decide) (by decide) (by decide)]
theorem arr1_V3 (c : Dev nD) : arr1 (V3 m) c = z2Of m c := by
  rw [← arr1_V1]; unfold arr1; rw [V3_of_V1 m c main_arg1 (by decide) (by decide) (by decide)]
theorem labc_V3 (c : Dev nD) : labc (V3 m) c = labOf m c := by
  rw [← labc_V1]; unfold labc; rw [V3_of_V1 m c main_v0 (by decide) (by decide) (by decide)]

/-! ## The class means -/

/-- The initial word of the host's sums is zero. -/
theorem init_zero : (constant (F := Ideal) S_ .f32 0x00000000#32) (Shape.Idx.first h_S_) = 0 := Ideal.ofBits_zero_f32

/-- The host lines between the regions as one function of region 0's two result arrays: the slabs summed over the
    cores, the counts re-laid as a column and kept at least 1, the sums divided by them. -/
def meansOf (g3 : FVec Ideal S2x256x256 .f32) (g4 : FVec Ideal S2x1x256 .f32) : FVec Ideal S256x256 .bf16 :=
  truncf .bf16
    (Host.divf
      (Host.reduceAdd g3 (constant (F := Ideal) S_ .f32 0x00000000#32) reducesTo_S2x256x256_S256x256_d0 h_S_)
      (broadcastInDim S256x256 ![0, 1] bcast_S256x1_S256x256_0_1
        (maximumf
          (shapeCast S256x1 (Host.reduceAdd g4 (constant (F := Ideal) S_ .f32 0x00000000#32) reducesTo_S2x1x256_S1x256_d0 h_S_) shapeCasts_S1x256_S256x1)
          (broadcastInDim S256x1 ![] bcast_S_S256x1 (constant (F := Ideal) S_ .f32 0x3F800000#32)))))
    bitsLt_bf16_f32

/-- Region 0's result arrays as the lines between the regions find them. -/
theorem W2_sums (c : Dev nD) : W2 m c (Proc.devRef .tc main_v1_0) = G3 (V1 m) c := by
  show Function.update (Function.update (W1 m c) main_v1_0 (G3 (V1 m) c)) main_v1_1 (G4 (V1 m) c) (Proc.devRef .tc main_v1_0) = _
  rw [Function.update_of_ne (StableHlo.devRef_ne_of_ne (by decide)), Function.update_self]
theorem W2_counts (c : Dev nD) : W2 m c (Proc.devRef .tc main_v1_1) = G4 (V1 m) c := by
  show Function.update (Function.update (W1 m c) main_v1_0 (G3 (V1 m) c)) main_v1_1 (G4 (V1 m) c) (Proc.devRef .tc main_v1_1) = _
  rw [Function.update_self]

/-- The table region 1 reads is that function of the cores' final accumulators. -/
theorem V3_v9 (c : Dev nD) : (V3 m c main_v9 : FVec Ideal S256x256 .bf16) = meansOf (G3 (V1 m) c) (G4 (V1 m) c) := by
  show StableHlo.after hostOps1 (W2 m c) (Proc.devRef .tc main_v9) = _
  after_results
  rw [W2_sums, W2_counts]
  rfl

/-- The sums slabs added over the cores, at a class and a column. -/
theorem sum3_apply (g3 : FVec Ideal S2x256x256 .f32) (cc d : Fin 256) :
    Host.reduceAdd g3 (constant (F := Ideal) S_ .f32 0x00000000#32) reducesTo_S2x256x256_S256x256_d0 h_S_ (ValueIdx.ix2 cc d)
      = ∑ k : Fin 2, g3 (ValueIdx.ix3 k cc d) := by
  simp only [Host.reduceAdd, Ideal.hostReduceAdd_def]
  rw [Ideal.hostReduceAdd_single reducesTo_S2x256x256_S256x256_d0 (by decide), init_zero, zero_add]
  refine Finset.sum_congr rfl fun k _ => ?_
  exact congrArg g3 (funext fun a => Fin.ext (by match a with | ⟨0, _⟩ => rfl | ⟨1, _⟩ => rfl | ⟨2, _⟩ => rfl))

/-- The count slabs added over the cores, at a class. -/
theorem sum4_apply (g4 : FVec Ideal S2x1x256 .f32) (cc : Fin 256) :
    Host.reduceAdd g4 (constant (F := Ideal) S_ .f32 0x00000000#32) reducesTo_S2x1x256_S1x256_d0 h_S_ (ValueIdx.ix2 0 cc)
      = ∑ k : Fin 2, g4 (ValueIdx.ix3 k 0 cc) := by
  simp only [Host.reduceAdd, Ideal.hostReduceAdd_def]
  rw [Ideal.hostReduceAdd_single reducesTo_S2x1x256_S1x256_d0 (by decide), init_zero, zero_add]
  refine Finset.sum_congr rfl fun k _ => ?_
  exact congrArg g4 (funext fun a => Fin.ext (by match a with | ⟨0, _⟩ => rfl | ⟨1, _⟩ => rfl | ⟨2, _⟩ => rfl))

/-- A 1 × 256 row re-laid as a 256 × 1 column reads, at row cc, the row at cc. -/
theorem relay_apply (x : FVec Ideal S1x256 .f32) (cc : Fin 256) :
    shapeCast S256x1 x shapeCasts_S1x256_S256x1 (ValueIdx.ix2 cc 0) = x (ValueIdx.ix2 0 cc) :=
  shapeCast_apply x _ _ _ (by
    rw [Shape.rowMajor_val_two, Shape.rowMajor_val_two]
    show 0 * 256 + cc.val = cc.val * 1 + 0
    omega)

/-- The word 1.0 spread over a column is 1 everywhere. -/
theorem one_apply (j : S256x1.Idx) :
    broadcastInDim S256x1 ![] bcast_S_S256x1 (constant (F := Ideal) S_ .f32 0x3F800000#32) j = 1 :=
  (broadcastInDim_apply _ bcast_S_S256x1 _ j ValueIdx.ix0 (fun a => a.elim0)).trans Cert.Spec.lit_one

/-- A column spread along the columns reads, at (cc, d), the column at cc. -/
theorem bcol_apply (y : FVec Ideal S256x1 .f32) (cc d : Fin 256) :
    broadcastInDim S256x256 ![0, 1] bcast_S256x1_S256x256_0_1 y (ValueIdx.ix2 cc d) = y (ValueIdx.ix2 cc 0) :=
  broadcastInDim_apply _ bcast_S256x1_S256x256_0_1 y _ _ (fun a => match a with
    | ⟨0, _⟩ => by show cc.val = if (256 : Nat) = 1 then 0 else cc.val; rw [if_neg (by decide)]
    | ⟨1, _⟩ => by show 0 = if (1 : Nat) = 1 then 0 else d.val; rw [if_pos rfl])

/-- The table at a class and a column: the two cores' sums added, divided by the two cores' counts added and kept at
    least 1 (the conversion to bf16 changes nothing at the ideal values). -/
theorem meansOf_apply (g3 : FVec Ideal S2x256x256 .f32) (g4 : FVec Ideal S2x1x256 .f32) (cc d : Fin 256) :
    meansOf g3 g4 (ValueIdx.ix2 cc d)
      = Ideal.div (∑ k : Fin 2, g3 (ValueIdx.ix3 k cc d)) (max (∑ k : Fin 2, g4 (ValueIdx.ix3 k 0 cc)) 1) := by
  have hB : broadcastInDim S256x256 ![0, 1] bcast_S256x1_S256x256_0_1
      (maximumf
        (shapeCast S256x1 (Host.reduceAdd g4 (constant (F := Ideal) S_ .f32 0x00000000#32) reducesTo_S2x1x256_S1x256_d0 h_S_) shapeCasts_S1x256_S256x1)
        (broadcastInDim S256x1 ![] bcast_S_S256x1 (constant (F := Ideal) S_ .f32 0x3F800000#32))) (ValueIdx.ix2 cc d)
      = max (∑ k : Fin 2, g4 (ValueIdx.ix3 k 0 cc)) 1 := by
    rw [bcol_apply]
    refine (congrArg₂ max (relay_apply _ cc) (one_apply _)).trans ?_
    rw [sum4_apply]
  unfold meansOf
  exact congrArg₂ Ideal.div (sum3_apply g3 cc d) hB

/-- The class-means table region 1 reads is the class means of the launch arrays. -/
theorem muc_V3 (c : Dev nD) : muc (V3 m) c = Cert.Spec.mu (z1Of m c) (z2Of m c) (labOf m c) := by
  funext cc d
  unfold muc
  rw [V3_v9, meansOf_apply, G3_sum, G4_sum, arr0_V1, arr1_V1, labc_V1]
  rfl

/-! ## The loss -/

/-- A 2 × 1 × 1 index set is its first coordinate's range. -/
def e211 : Fin 2 ≃ S2x1x1.Idx where
  toFun k := ValueIdx.ix3 k 0 0
  invFun i := i 0
  left_inv k := rfl
  right_inv i := funext fun a => match a with
    | ⟨0, _⟩ => rfl
    | ⟨1, _⟩ => Fin.ext (by have h : (i 1).val < 1 := (i 1).isLt; show 0 = (i 1).val; omega)
    | ⟨2, _⟩ => Fin.ext (by have h : (i 2).val < 1 := (i 2).isLt; show 0 = (i 2).val; omega)

/-- So a sum over it is the sum over the two cores. -/
theorem sum_211 {M : Type*} [AddCommMonoid M] (f : S2x1x1.Idx → M) : ∑ i, f i = ∑ k : Fin 2, f (ValueIdx.ix3 k 0 0) :=
  (Fintype.sum_equiv e211 (fun k => f (ValueIdx.ix3 k 0 0)) f (fun k => rfl)).symm

/-- The host lines that close @main as one function of region 1's result array: its entries summed, divided by the
    word 131072.0, negated. -/
def lossOf (g10 : FVec Ideal S2x1x1 .f32) : FVec Ideal S_ .f32 :=
  Host.negf (Host.divf
    (Host.reduceAdd g10 (constant (F := Ideal) S_ .f32 0x00000000#32) reducesTo_S2x1x1_S_d0_1_2 h_S_)
    (constant (F := Ideal) S_ .f32 0x48000000#32))

/-- Region 1's result array as the closing lines find it. -/
theorem W4_logp (c : Dev nD) : W4 m c (Proc.devRef .tc main_v10) = G10 (V3 m) c := by
  show Function.update (W3 m c) main_v10 (G10 (V3 m) c) (Proc.devRef .tc main_v10) = _
  rw [Function.update_self]

/-- The result buffer is that function of the cores' final accumulators. -/
theorem W5_v13 (c : Dev nD) : (W5 m c main_v13 : FVec Ideal S_ .f32) = lossOf (G10 (V3 m) c) := by
  show StableHlo.after hostOps2 (W4 m c) (Proc.devRef .tc main_v13) = _
  after_results
  rw [W4_logp]
  rfl

/-- The loss: minus the two cores' entries added, divided by the word 131072.0. -/
theorem lossOf_apply (g10 : FVec Ideal S2x1x1 .f32) (i : S_.Idx) :
    lossOf g10 i = - Ideal.div (∑ k : Fin 2, g10 (ValueIdx.ix3 k 0 0)) (Cert.Spec.lit 0x48000000#32) := by
  have hS : Host.reduceAdd g10 (constant (F := Ideal) S_ .f32 0x00000000#32) reducesTo_S2x1x1_S_d0_1_2 h_S_ i
      = ∑ k : Fin 2, g10 (ValueIdx.ix3 k 0 0) := by
    simp only [Host.reduceAdd, Ideal.hostReduceAdd_def]
    rw [Ideal.hostReduceAdd_total reducesTo_S2x1x1_S_d0_1_2 (fun b => b.elim0), init_zero, zero_add]
    exact sum_211 g10
  unfold lossOf
  exact congrArg (fun s => - Ideal.div s (Cert.Spec.lit 0x48000000#32)) hS

/-- Labels in range: the result buffer's last contents are the common value. -/
theorem kernel_value (c : Dev nD) (hlab : ∀ i : Fin 65536, (labOf m c i).toNat < 256) :
    (W5 m c main_v13 : FVec Ideal S_ .f32) = fun _ => Cert.Spec.result (z1Of m c) (z2Of m c) (labOf m c) := by
  funext i
  rw [W5_v13, lossOf_apply, G10_sum (V3 m) c (by rw [labc_V3]; exact hlab), muc_V3, arr0_V3, arr1_V3, labc_V3]
  rfl

end Cert.KernelIdeal.Hand

end
-- ==== Proof.RefValue.Index.lean ====
/-
  The reference's five operations whose element depends on an operand's values or on which operand a row comes from,
  read at an index at the ideal instance, the index words being class numbers: the two views stacked (rows below
  65536 from the first, the others from the second), the labels stacked twice, the accumulating scatters (class c's
  entry gains the updates of the rows labelled c), and the gather (row j reads the table's row of its own class).
-/
import proofs.«413172_j20023137534376_3_alg».proof.ReferenceIdeal
import proofs.«413172_j20023137534376_3_alg».proof.Proof.Gen.ReferenceIdeal
import proofs.«413172_j20023137534376_3_alg».proof.Proof.Spec
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

namespace Cert.ReferenceIdeal.RefValue

open Idealize.ShloMosaic Idealize.ShloMosaic.TcCoe Idealize.SL.Sem
open Cert.ReferenceIdeal Cert.ReferenceIdeal.Gen

/-- Stacked row j's place in its own view. -/
def unstack (j : Fin 131072) : Fin 65536 := ⟨j.val % 65536, Nat.mod_lt _ (by decide)⟩

namespace Index

open Idealize.ShloMosaic.ValueIdx

/-! ## Class words -/

/-- A word below 256 read signed is its natural number. -/
theorem toInt_of_lt256 {w : BitVec 32} (h : w.toNat < 256) : w.toInt = (w.toNat : Int) := by
  rw [BitVec.toInt_eq_toNat_cond, if_pos (by omega)]

/-- A word below 256 is class c's word exactly when its number is c's. -/
theorem eq_ofNat_iff {w : BitVec 32} (h : w.toNat < 256) (c : Fin 256) : w = BitVec.ofNat 32 c.val ↔ w.toNat = c.val := by
  have hc := c.isLt
  constructor
  · intro e; rw [e, BitVec.toNat_ofNat]; omega
  · intro e; apply BitVec.eq_of_toNat_eq; rw [BitVec.toNat_ofNat]; omega

/-! ## Sums over a rank-1 index set -/

/-- A rank-1 index set is its coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The accumulating scatter of rows: where an update lands -/

abbrev d20 := scatter_S256x256_S131072x1_S131072x256_1_0_0_1

/-- Along the class axis the window starts at the row's index word, read signed. -/
theorem d20_start0 (j : S131072x256.Idx) (idx : IVec S131072x1 32) : d20.start j idx 0 = (idx (ix2 (j 0) 0)).toInt := by
  unfold ScatterDims.start
  rw [dif_pos (show (0 : Fin 2) ∈ d20.scatterDimsToOperandDims by decide)]
  congr 2
  funext b
  match b with
  | ⟨0, _⟩ => rfl
  | ⟨1, _⟩ => rfl

/-- Along the column axis the window starts at zero. -/
theorem d20_start1 (j : S131072x256.Idx) (idx : IVec S131072x1 32) : d20.start j idx 1 = 0 := by
  unfold ScatterDims.start
  rw [dif_neg (show ¬ (1 : Fin 2) ∈ d20.scatterDimsToOperandDims by decide)]

/-- The class axis is inserted: no window coordinate. -/
theorem d20_window0 (j : S131072x256.Idx) : d20.window j 0 = 0 := by
  unfold ScatterDims.window
  rw [dif_neg (show ¬ (0 : Fin 2) ∈ d20.sKept by decide)]

/-- The column axis carries the update's column. -/
theorem d20_window1 (j : S131072x256.Idx) : d20.window j 1 = (j 1).val := by
  unfold ScatterDims.window
  rw [dif_pos (show (1 : Fin 2) ∈ d20.sKept by decide)]
  rfl

/-- Update (r, e) of the row scatter lands on (c, d) exactly when row r's word is class c's and e is d. -/
theorem d20_resultIdx (idx : IVec S131072x1 32) (r : Fin 131072) (e : Fin 256) (h : (idx (ix2 r 0)).toNat < 256) (c d : Fin 256) :
    d20.resultIdx? (ix2 r e) idx = some (ix2 c d) ↔ idx (ix2 r 0) = BitVec.ofNat 32 c.val ∧ e = d := by
  have he := e.isLt
  have hin : ∀ a, 0 ≤ d20.start (ix2 r e) idx a + d20.window (ix2 r e) a
      ∧ d20.start (ix2 r e) idx a + d20.window (ix2 r e) a < S256x256.size a := by
    refine Fin.forall_fin_two.2 ⟨?_, ?_⟩
    · rw [d20_start0, d20_window0]
      show 0 ≤ (idx (ix2 r 0)).toInt + ((0 : Nat) : Int) ∧ (idx (ix2 r 0)).toInt + ((0 : Nat) : Int) < ((256 : Nat) : Int)
      rw [toInt_of_lt256 h]; omega
    · rw [d20_start1, d20_window1]
      show 0 ≤ (0 : Int) + (e.val : Int) ∧ (0 : Int) + (e.val : Int) < ((256 : Nat) : Int)
      omega
  unfold ScatterDims.resultIdx?
  rw [dif_pos hin, Option.some.injEq, eq_ofNat_iff h, funext_iff, Fin.forall_fin_two]
  refine and_congr ?_ ?_
  · rw [Fin.ext_iff]
    show (d20.start (ix2 r e) idx 0 + d20.window (ix2 r e) 0).toNat = c.val ↔ _
    rw [d20_start0, d20_window0]
    show ((idx (ix2 r 0)).toInt + ((0 : Nat) : Int)).toNat = c.val ↔ _
    rw [toInt_of_lt256 h]; omega
  · rw [Fin.ext_iff]
    show (d20.start (ix2 r e) idx 1 + d20.window (ix2 r e) 1).toNat = d.val ↔ _
    rw [d20_start1, d20_window1]
    show ((0 : Int) + (e.val : Int)).toNat = d.val ↔ _
    rw [Fin.ext_iff]; omega

/-! ## The accumulating scatter of scalars: where an update lands -/

abbrev d24 := scatter_S256_S131072x1_S131072_n_0_0_1

/-- The window starts at the row's index word, read signed. -/
theorem d24_start0 (j : S131072.Idx) (idx : IVec S131072x1 32) : d24.start j idx 0 = (idx (ix2 (j 0) 0)).toInt := by
  unfold ScatterDims.start
  rw [dif_pos (show (0 : Fin 1) ∈ d24.scatterDimsToOperandDims by decide)]
  congr 2
  funext b
  match b with
  | ⟨0, _⟩ => rfl
  | ⟨1, _⟩ => rfl

/-- The one operand axis is inserted: no window coordinate. -/
theorem d24_window0 (j : S131072.Idx) : d24.window j 0 = 0 := by
  unfold ScatterDims.window
  rw [dif_neg (show ¬ (0 : Fin 1) ∈ d24.sKept by decide)]

/-- Update r of the scalar scatter lands on c exactly when row r's word is class c's. -/
theorem d24_resultIdx (idx : IVec S131072x1 32) (r : Fin 131072) (h : (idx (ix2 r 0)).toNat < 256) (c : Fin 256) :
    d24.resultIdx? (ix1 r) idx = some (ix1 c) ↔ idx (ix2 r 0) = BitVec.ofNat 32 c.val := by
  have hin : ∀ a, 0 ≤ d24.start (ix1 r) idx a + d24.window (ix1 r) a
      ∧ d24.start (ix1 r) idx a + d24.window (ix1 r) a < S256.size a := by
    refine Fin.forall_fin_one.2 ?_
    rw [d24_start0, d24_window0]
    show 0 ≤ (idx (ix2 r 0)).toInt + ((0 : Nat) : Int) ∧ (idx (ix2 r 0)).toInt + ((0 : Nat) : Int) < ((256 : Nat) : Int)
    rw [toInt_of_lt256 h]; omega
  unfold ScatterDims.resultIdx?
  rw [dif_pos hin, Option.some.injEq, eq_ofNat_iff h, funext_iff, Fin.forall_fin_one, Fin.ext_iff]
  show (d24.start (ix1 r) idx 0 + d24.window (ix1 r) 0).toNat = c.val ↔ _
  rw [d24_start0, d24_window0]
  show ((idx (ix2 r 0)).toInt + ((0 : Nat) : Int)).toNat = c.val ↔ _
  rw [toInt_of_lt256 h]; omega

/-! ## The gather: which table element a result element reads -/

abbrev g36 := gather_S256x256_S131072x1_S131072x256_1_0_n_n_0_1_1256

/-- Along the class axis the slice starts at the row's index word, read signed and clamped into the table. -/
theorem g36_start0 (j : S131072x256.Idx) (idx : IVec S131072x1 32) :
    g36.start j idx 0 = min (idx (ix2 (j 0) 0)).toInt.toNat 255 := by
  unfold GatherDims.start
  rw [dif_pos (show (0 : Fin 2) ∈ g36.startIndexMap by decide)]
  refine congrArg₂ min (congrArg (fun z => (idx z).toInt.toNat) ?_) rfl
  funext b
  match b with
  | ⟨0, _⟩ => rfl
  | ⟨1, _⟩ => rfl

/-- Along the column axis the slice starts at zero. -/
theorem g36_start1 (j : S131072x256.Idx) (idx : IVec S131072x1 32) : g36.start j idx 1 = 0 := by
  unfold GatherDims.start
  rw [dif_neg (show ¬ (1 : Fin 2) ∈ g36.startIndexMap by decide)]

/-- The class axis is collapsed: no offset coordinate. -/
theorem g36_off0 (j : S131072x256.Idx) : g36.offCoord j 0 = 0 :=
  g36.offCoord_eq_zero j 0 (by decide)

/-- The column axis carries the result's column. -/
theorem g36_off1 (j : S131072x256.Idx) : g36.offCoord j 1 = (j 1).val := by
  unfold GatherDims.offCoord
  rw [dif_pos (show (1 : Fin 2) ∈ g36.sKept by decide)]
  rfl

/-- No batching axes. -/
theorem g36_batch (j : S131072x256.Idx) (a : Fin 2) : g36.batchCoord j a = 0 :=
  g36.batchCoord_eq_zero j a (fun h => absurd h List.not_mem_nil)

end Index

/-- The two views stacked, at row j and column d. -/
theorem concat_rows_apply (a b : FVec Ideal S65536x256 .f32) (j : Fin 131072) (d : Fin 256) :
    (concatenate S131072x256 0 [⟨S65536x256, a⟩, ⟨S65536x256, b⟩] concatenates_S65536x256_S65536x256_S131072x256_d0 : FVec Ideal S131072x256 .f32) (ValueIdx.ix2 j d)
      = if j.val < 65536 then a (ValueIdx.ix2 (unstack j) d) else b (ValueIdx.ix2 (unstack j) d) := by
  split
  · next h =>
    exact concatenate_pair_apply_left (t := S131072x256) (s₁ := S65536x256) (s₂ := S65536x256) 0 _ _ _ _ rfl (ValueIdx.ix2 (unstack j) d)
      (fun ax => by
        match ax with
        | ⟨0, _⟩ => exact Nat.mod_eq_of_lt h
        | ⟨1, _⟩ => rfl)
  · next h =>
    exact concatenate_pair_apply_right (t := S131072x256) (s₁ := S65536x256) (s₂ := S65536x256) 0 _ _ _ _ rfl rfl (ValueIdx.ix2 (unstack j) d)
      (fun ax hax => by
        match ax with
        | ⟨0, _⟩ => exact absurd rfl hax
        | ⟨1, _⟩ => rfl)
      (by show j.val % 65536 + 65536 = j.val; have := j.isLt; omega)

/-- The labels stacked twice, at row j. -/
theorem concat_labels_apply (l : IVec S65536 32) (j : Fin 131072) :
    (concatenate S131072 0 [⟨S65536, l⟩, ⟨S65536, l⟩] concatenates_S65536_S65536_S131072_d0 : IVec S131072 32) (ValueIdx.ix1 j)
      = l (ValueIdx.ix1 (unstack j)) := by
  by_cases h : j.val < 65536
  · exact concatenate_pair_apply_left (t := S131072) (s₁ := S65536) (s₂ := S65536) 0 _ _ _ _ rfl (ValueIdx.ix1 (unstack j))
      (fun ax => by
        match ax with
        | ⟨0, _⟩ => exact Nat.mod_eq_of_lt h)
  · exact concatenate_pair_apply_right (t := S131072) (s₁ := S65536) (s₂ := S65536) 0 _ _ _ _ rfl rfl (ValueIdx.ix1 (unstack j))
      (fun ax hax => by
        match ax with
        | ⟨0, _⟩ => exact absurd rfl hax)
      (by show j.val % 65536 + 65536 = j.val; have := j.isLt; omega)

open Index Idealize.ShloMosaic.ValueIdx in
/-- The accumulating scatter of rows: class c's row gains, column by column, the update rows labelled c. -/
theorem scatter_rows_apply (x : FVec Ideal S256x256 .f32) (idx : IVec S131072x1 32) (upd : FVec Ideal S131072x256 .f32)
    (hidx : ∀ j : Fin 131072, (idx (ValueIdx.ix2 j 0)).toNat < 256) (c d : Fin 256) :
    Host.scatterAdd (F := Ideal) scatter_S256x256_S131072x1_S131072x256_1_0_0_1 x idx upd (ValueIdx.ix2 c d)
      = x (ValueIdx.ix2 c d) + ∑ j ∈ Finset.univ.filter (fun j : Fin 131072 => idx (ValueIdx.ix2 j 0) = BitVec.ofNat 32 c.val), upd (ValueIdx.ix2 j d) := by
  show x (ix2 c d) + ∑ j ∈ Finset.univ.filter (fun j => d20.resultIdx? j idx = some (ix2 c d)), upd j = _
  refine congrArg (fun z => x (ix2 c d) + z) ?_
  rw [Finset.sum_filter, ValueIdx.sum_idx2, Finset.sum_filter]
  refine Finset.sum_congr rfl fun r _ => ?_
  simp only [d20_resultIdx idx r _ (hidx r) c d]
  by_cases hc : idx (ix2 r 0) = BitVec.ofNat 32 c.val
  · simp only [hc, true_and, if_true]
    exact (Finset.sum_ite_eq' Finset.univ d (fun e => upd (ix2 r e))).trans (if_pos (Finset.mem_univ d))
  · simp only [hc, false_and, if_false]
    exact Finset.sum_const_zero

open Index Idealize.ShloMosaic.ValueIdx in
/-- The accumulating scatter of scalars: class c's entry gains the updates of the rows labelled c. -/
theorem scatter_counts_apply (x : FVec Ideal S256 .f32) (idx : IVec S131072x1 32) (upd : FVec Ideal S131072 .f32)
    (hidx : ∀ j : Fin 131072, (idx (ValueIdx.ix2 j 0)).toNat < 256) (c : Fin 256) :
    Host.scatterAdd (F := Ideal) scatter_S256_S131072x1_S131072_n_0_0_1 x idx upd (ValueIdx.ix1 c)
      = x (ValueIdx.ix1 c) + ∑ j ∈ Finset.univ.filter (fun j : Fin 131072 => idx (ValueIdx.ix2 j 0) = BitVec.ofNat 32 c.val), upd (ValueIdx.ix1 j) := by
  show x (ix1 c) + ∑ j ∈ Finset.univ.filter (fun j => d24.resultIdx? j idx = some (ix1 c)), upd j = _
  refine congrArg (fun z => x (ix1 c) + z) ?_
  rw [Finset.sum_filter, sum_idx1, Finset.sum_filter]
  refine Finset.sum_congr rfl fun r _ => ?_
  simp only [d24_resultIdx idx r (hidx r) c]

open Index Idealize.ShloMosaic.ValueIdx in
/-- The gather of table rows: row j reads the table's row of its own class. -/
theorem gather_rows_apply (x : FVec Ideal S256x256 .f32) (idx : IVec S131072x1 32)
    (hidx : ∀ j : Fin 131072, (idx (ValueIdx.ix2 j 0)).toNat < 256) (j : Fin 131072) (d : Fin 256) :
    (Host.gather gather_S256x256_S131072x1_S131072x256_1_0_n_n_0_1_1256 x idx : FVec Ideal S131072x256 .f32) (ValueIdx.ix2 j d)
      = x (ValueIdx.ix2 (Cert.Spec.cls (idx (ValueIdx.ix2 j 0))) d) := by
  unfold Host.gather
  congr 1
  funext a
  apply Fin.ext
  have h := hidx j
  match a with
  | ⟨0, _⟩ =>
    show g36.start (ix2 j d) idx 0 + g36.batchCoord (ix2 j d) 0 + g36.offCoord (ix2 j d) 0 = (idx (ix2 j 0)).toNat % 256
    rw [g36_start0, g36_batch, g36_off0]
    show min (idx (ix2 j 0)).toInt.toNat 255 + 0 + 0 = _
    rw [toInt_of_lt256 h, Int.toNat_natCast]
    omega
  | ⟨1, _⟩ =>
    show g36.start (ix2 j d) idx 1 + g36.batchCoord (ix2 j d) 1 + g36.offCoord (ix2 j d) 1 = d.val
    rw [g36_start1, g36_batch, g36_off1]
    show 0 + 0 + d.val = d.val
    omega

end Cert.ReferenceIdeal.RefValue

end
-- ==== Proof.RefValue.lean ====
/-
  The reference program's result at the ideal instance, labels in range, as the common function of the three argument
  arrays: the two views stacked, the per-class sums and counts by the accumulating scatter, the class means, each row's
  own class mean by the gather, the similarities by the matrix product, and the mean of the rows' log probabilities.
-/
import proofs.«413172_j20023137534376_3_alg».proof.Proof.Gen.ReferenceIdeal.Run
import proofs.«413172_j20023137534376_3_alg».proof.Proof.Gen.ReferenceIdeal.Read
import proofs.«413172_j20023137534376_3_alg».proof.Proof.Spec
import proofs.«413172_j20023137534376_3_alg».proof.Proof.RefValue.Index
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Read
open Idealize.ShloMosaic.ValueIdx

/-- The three argument arrays by row and column. -/
abbrev A0 (x : (⟨S65536x256, .f32⟩ : BufTy).Contents (Elt Ideal)) : Cert.Spec.Arr := fun i d => (x : FVec Ideal S65536x256 .f32) (ix2 i d)
abbrev L0 (x2 : (⟨S65536, .i32⟩ : BufTy).Contents (Elt Ideal)) : Cert.Spec.Lab := fun i => (x2 : IVec S65536 32) (ix1 i)

/-! ## Label words in range -/

/-- A word below 256 read signed is its natural number. -/
theorem toInt_of_lt {w : BitVec 32} (h : w.toNat < 256) : w.toInt = (w.toNat : Int) := by
  rw [BitVec.toInt_eq_toNat_cond, if_pos (by omega)]

/-- A word below 256 is not negative. -/
theorem slt_zero_of_lt {w : BitVec 32} (h : w.toNat < 256) : IntOp.cmpi .slt w 0#32 = 0#1 := by
  show BitVec.ofBool (w.slt 0#32) = 0#1
  have : w.slt 0#32 = false := by
    rw [BitVec.slt, toInt_of_lt h]; simp
  rw [this]; rfl

/-- A word below 256 is the class it names. -/
theorem cls_val {w : BitVec 32} (h : w.toNat < 256) : (Cert.Spec.cls w).val = w.toNat := Nat.mod_eq_of_lt h

/-! ## Sums over a rank-1 index set, and the two halves of the stacked rows -/

/-- A rank-1 index set is its coordinate range. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The first half of the stacked rows, and the second. -/
abbrev lo (i : Fin 65536) : Fin 131072 := ⟨i.val, by have := i.isLt; omega⟩
abbrev hi (i : Fin 65536) : Fin 131072 := ⟨65536 + i.val, by have := i.isLt; omega⟩

/-- Every stacked row is in one of the halves. -/
theorem stack_cases {P : Fin 131072 → Prop} (hlo : ∀ i, P (lo i)) (hhi : ∀ i, P (hi i)) (r : Fin 131072) : P r := by
  by_cases h : r.val < 65536
  · exact hlo ⟨r.val, h⟩
  · have := hhi ⟨r.val - 65536, by have := r.isLt; omega⟩
    have e : hi ⟨r.val - 65536, by have := r.isLt; omega⟩ = r := Fin.ext (by show 65536 + (r.val - 65536) = r.val; omega)
    rwa [e] at this

variable (x0 x1 : (⟨S65536x256, .f32⟩ : BufTy).Contents (Elt Ideal)) (x2 : (⟨S65536, .i32⟩ : BufTy).Contents (Elt Ideal))

/-! ## The normalised views and their stack -/

theorem v8_apply (i : Fin 65536) (d : Fin 256) :
    val_main_v8 (F := Ideal) x0 (ix2 i d) = Cert.Spec.zn (A0 x0 i) d := by
  rw [val_main_v8_apply, val_main_v7_apply, val_main_v6_apply, val_main_v4_apply, val_main_v3_apply, val_main_v2_apply,
    val_main_v5_apply, val_main_cst_apply, val_main_cst_0_apply]
  simp only [val_main_v1_apply]
  have e : ∀ k : Fin 256, idx_main_v2 (idx_main_v3 (idx_main_v7 (ix2 i d))) k = ix2 i k := fun k =>
    funext fun a => by match a with | ⟨0, _⟩ => rfl | ⟨1, _⟩ => rfl
  simp only [e]
  show Ideal.div _ (max (Ideal.sqrt (Cert.Spec.lit 0x00000000#32 + _)) (Cert.Spec.lit 0x2B8CBCCC#32)) = _
  rw [Cert.Spec.lit_zero, zero_add]
  rfl

theorem v16_apply (i : Fin 65536) (d : Fin 256) :
    val_main_v16 (F := Ideal) x1 (ix2 i d) = Cert.Spec.zn (A0 x1 i) d := by
  rw [val_main_v16_apply, val_main_v15_apply, val_main_v14_apply, val_main_v12_apply, val_main_v11_apply, val_main_v10_apply,
    val_main_v13_apply, val_main_cst_1_apply, val_main_cst_2_apply]
  simp only [val_main_v9_apply]
  have e : ∀ k : Fin 256, idx_main_v10 (idx_main_v11 (idx_main_v15 (ix2 i d))) k = ix2 i k := fun k =>
    funext fun a => by match a with | ⟨0, _⟩ => rfl | ⟨1, _⟩ => rfl
  simp only [e]
  show Ideal.div _ (max (Ideal.sqrt (Cert.Spec.lit 0x00000000#32 + _)) (Cert.Spec.lit 0x2B8CBCCC#32)) = _
  rw [Cert.Spec.lit_zero, zero_add]
  rfl

/-- The stacked normalised rows, by row and column. -/
def Zs (r : Fin 131072) (d : Fin 256) : EReal := val_main_v17 (F := Ideal) x0 x1 (ix2 r d)
/-- The labels stacked twice, by row. -/
def Ls (r : Fin 131072) : BitVec 32 := val_main_v0 (F := Ideal) x2 (ix1 r)

/-- A row below 65536 is the first view's, the others the second's. -/
theorem Zs_lo (i : Fin 65536) : Zs x0 x1 (lo i) = Cert.Spec.zn (A0 x0 i) := funext fun d => by
  unfold Zs val_main_v17
  refine (concatenate_pair_apply_left (t := S131072x256) (s₁ := S65536x256) (s₂ := S65536x256) 0 _ _ _ _ rfl (ix2 i d)
    (fun b => by match b with | ⟨0, _⟩ => rfl | ⟨1, _⟩ => rfl)).trans (v8_apply x0 i d)

theorem Zs_hi (i : Fin 65536) : Zs x0 x1 (hi i) = Cert.Spec.zn (A0 x1 i) := funext fun d => by
  unfold Zs val_main_v17
  refine (concatenate_pair_apply_right (t := S131072x256) (s₁ := S65536x256) (s₂ := S65536x256) 0 _ _ _ _ rfl rfl (ix2 i d)
    (fun b hb => by match b with | ⟨0, _⟩ => exact absurd rfl hb | ⟨1, _⟩ => rfl)
    (by show i.val + 65536 = 65536 + i.val; omega)).trans (v16_apply x1 i d)

theorem Ls_lo (i : Fin 65536) : Ls x2 (lo i) = L0 x2 i := by
  unfold Ls val_main_v0
  exact concatenate_pair_apply_left (t := S131072) (s₁ := S65536) (s₂ := S65536) 0 _ _ _ _ rfl (ix1 i)
    (fun b => by match b with | ⟨0, _⟩ => rfl)

theorem Ls_hi (i : Fin 65536) : Ls x2 (hi i) = L0 x2 i := by
  unfold Ls val_main_v0
  exact concatenate_pair_apply_right (t := S131072) (s₁ := S65536) (s₂ := S65536) 0 _ _ _ _ rfl rfl (ix1 i)
    (fun b hb => by match b with | ⟨0, _⟩ => exact absurd rfl hb)
    (by show i.val + 65536 = 65536 + i.val; omega)

/-- Labels in range stay in range when stacked. -/
theorem Ls_lt (hlab : ∀ i : Fin 65536, (L0 x2 i).toNat < 256) (r : Fin 131072) : (Ls x2 r).toNat < 256 :=
  stack_cases (P := fun r => (Ls x2 r).toNat < 256) (fun i => by rw [Ls_lo]; exact hlab i) (fun i => by rw [Ls_hi]; exact hlab i) r

/-! ## The index column of the scatters, the per-class sums and counts -/

/-- The scatter's index column at row r is the stacked label. -/
theorem v19_apply (r : Fin 131072) : val_main_v19 (F := Ideal) x2 (ix2 r 0) = Ls x2 r := by
  rw [val_main_v19_apply]
  exact congrArg (val_main_v0 (F := Ideal) x2) (funext fun a => by match a with | ⟨0, _⟩ => rfl)

/-- The same column, as the count scatter reads it. -/
theorem v23_apply (r : Fin 131072) : val_main_v23 (F := Ideal) x2 (ix2 r 0) = Ls x2 r := by
  rw [val_main_v23_apply]
  exact congrArg (val_main_v0 (F := Ideal) x2) (funext fun a => by match a with | ⟨0, _⟩ => rfl)

/-- A sum over the stacked rows labelled c is the sum over the first view's rows of the class plus the second's. -/
theorem sum_stacked_class {M : Type*} [AddCommMonoid M] (c : Fin 256) (f : Fin 131072 → M) :
    ∑ j ∈ Finset.univ.filter (fun j : Fin 131072 => Ls x2 j = BitVec.ofNat 32 c.val), f j
      = (∑ i ∈ Cert.Spec.inClass (L0 x2) c, f (lo i)) + ∑ i ∈ Cert.Spec.inClass (L0 x2) c, f (hi i) := by
  rw [Finset.sum_filter, Cert.Spec.sum_stacked]
  unfold Cert.Spec.inClass
  rw [Finset.sum_filter, Finset.sum_filter]
  refine congrArg₂ (· + ·) (Finset.sum_congr rfl fun i _ => ?_) (Finset.sum_congr rfl fun i _ => ?_)
  · show (if Ls x2 (lo i) = _ then f (lo i) else 0) = _
    rw [Ls_lo]
  · show (if Ls x2 (hi i) = _ then f (hi i) else 0) = _
    rw [Ls_hi]

/-- Class c's scattered row is the class's sum of normalised rows over both views. -/
theorem v20_apply (hlab : ∀ i : Fin 65536, (L0 x2 i).toNat < 256) (c d : Fin 256) :
    val_main_v20 (F := Ideal) x0 x1 x2 (ix2 c d) = Cert.Spec.sums (A0 x0) (A0 x1) (L0 x2) c d := by
  unfold val_main_v20
  rw [scatter_rows_apply _ _ _ (fun j => by rw [v19_apply]; exact Ls_lt x2 hlab j) c d, val_main_v18_apply, val_main_cst_3_apply]
  simp only [v19_apply]
  show Cert.Spec.lit 0x00000000#32 + ∑ j ∈ Finset.univ.filter (fun j : Fin 131072 => Ls x2 j = BitVec.ofNat 32 c.val), Zs x0 x1 j d = _
  rw [Cert.Spec.lit_zero, zero_add, sum_stacked_class]
  unfold Cert.Spec.sums
  simp only [Zs_lo, Zs_hi]

/-- Class c's scattered count is twice the class's number of rows. -/
theorem v24_apply (hlab : ∀ i : Fin 65536, (L0 x2 i).toNat < 256) (c : Fin 256) :
    val_main_v24 (F := Ideal) x2 (ix1 c) = Cert.Spec.cnt (L0 x2) c := by
  unfold val_main_v24
  rw [scatter_counts_apply _ _ _ (fun j => by rw [v23_apply]; exact Ls_lt x2 hlab j) c, val_main_v22_apply, val_main_cst_5_apply]
  simp only [v23_apply, val_main_v21_apply, val_main_cst_4_apply]
  show Cert.Spec.lit 0x00000000#32 + ∑ j ∈ Finset.univ.filter (fun j : Fin 131072 => Ls x2 j = BitVec.ofNat 32 c.val), Cert.Spec.lit 0x3F800000#32 = _
  rw [Cert.Spec.lit_zero, zero_add, sum_stacked_class, Cert.Spec.lit_one]
  unfold Cert.Spec.cnt
  rw [Finset.sum_const, nsmul_one, two_mul, Nat.cast_add]

/-- The class means. -/
theorem v29_apply (hlab : ∀ i : Fin 65536, (L0 x2 i).toNat < 256) (c d : Fin 256) :
    val_main_v29 (F := Ideal) x0 x1 x2 (ix2 c d) = Cert.Spec.mu (A0 x0) (A0 x1) (L0 x2) c d := by
  rw [val_main_v29_apply, v20_apply x0 x1 x2 hlab, val_main_v28_apply, val_main_v27_apply, val_main_v26_apply]
  have e : idx_main_v27 (idx_main_v28 (ix2 c d)) = ix1 c := funext fun a => by match a with | ⟨0, _⟩ => rfl
  rw [e, v24_apply x2 hlab, val_main_v25_apply, val_main_cst_6_apply]
  show Ideal.div _ (max _ (Cert.Spec.lit 0x3F800000#32)) = _
  rw [Cert.Spec.lit_one]
  rfl

/-! ## Each row's own class mean, the similarities, the rows' log probabilities -/

/-- The gather's index column at row r is the stacked label: a label in range is not wrapped. -/
theorem v35_apply (hlab : ∀ i : Fin 65536, (L0 x2 i).toNat < 256) (r : Fin 131072) :
    val_main_v35 (F := Ideal) x2 (ix2 r 0) = Ls x2 r := by
  rw [val_main_v35_apply, val_main_v34_apply, val_main_v31_apply, val_main_v30_apply, val_main_c_apply]
  have e : idx_main_v35 (ix2 r (0 : Fin 1)) = ix1 r := funext fun a => by match a with | ⟨0, _⟩ => rfl
  rw [e]
  show Scalar.select (IntOp.cmpi .slt (Ls x2 r) 0#32) _ (Ls x2 r) = _
  rw [slt_zero_of_lt (Ls_lt x2 hlab r), select_zero]

/-- Row r reads the mean of its own class. -/
theorem v36_apply (hlab : ∀ i : Fin 65536, (L0 x2 i).toNat < 256) (r : Fin 131072) (d : Fin 256) :
    val_main_v36 (F := Ideal) x0 x1 x2 (ix2 r d) = Cert.Spec.mu (A0 x0) (A0 x1) (L0 x2) (Cert.Spec.cls (Ls x2 r)) d := by
  unfold val_main_v36
  rw [gather_rows_apply _ _ (fun j => by rw [v35_apply x2 hlab]; exact Ls_lt x2 hlab j) r d, v35_apply x2 hlab,
    v29_apply x0 x1 x2 hlab]

/-- Row r's similarity to its own class mean. -/
theorem v40_apply (hlab : ∀ i : Fin 65536, (L0 x2 i).toNat < 256) (r : Fin 131072) :
    val_main_v40 (F := Ideal) x0 x1 x2 (ix1 r) = Cert.Spec.sim (Cert.Spec.mu (A0 x0) (A0 x1) (L0 x2)) (Zs x0 x1 r) (Cert.Spec.cls (Ls x2 r)) := by
  rw [val_main_v40_apply, val_main_v38_apply, val_main_v39_apply, val_main_cst_9_apply, val_main_cst_8_apply]
  have e : ∀ k : Fin 256, idx_main_v38 (ix1 r) k = ix2 r k := fun k =>
    funext fun a => by match a with | ⟨0, _⟩ => rfl | ⟨1, _⟩ => rfl
  simp only [e, val_main_v37_apply, v36_apply x0 x1 x2 hlab]
  show Ideal.div (Cert.Spec.lit 0x00000000#32 + ∑ k : Fin 256, Cert.Spec.mu (A0 x0) (A0 x1) (L0 x2) (Cert.Spec.cls (Ls x2 r)) k * Zs x0 x1 r k)
    (Cert.Spec.lit 0x3F800000#32) = _
  rw [Cert.Spec.div_lit_one, Cert.Spec.lit_zero, zero_add]
  unfold Cert.Spec.sim
  exact Finset.sum_congr rfl fun k _ => mul_comm _ _

/-- Row r's similarity to class c's mean. -/
theorem v44_apply (hlab : ∀ i : Fin 65536, (L0 x2 i).toNat < 256) (r : Fin 131072) (c : Fin 256) :
    val_main_v44 (F := Ideal) x0 x1 x2 (ix2 r c) = Cert.Spec.sim (Cert.Spec.mu (A0 x0) (A0 x1) (L0 x2)) (Zs x0 x1 r) c := by
  rw [val_main_v44_apply, val_main_v42_apply, val_main_v43_apply, val_main_cst_10_apply]
  have e : ∀ k : Fin 256, lidx_main_v42 (ix2 r c) k = ix2 r k := fun k =>
    funext fun a => by match a with | ⟨0, _⟩ => rfl | ⟨1, _⟩ => rfl
  have e' : ∀ k : Fin 256, idx_main_v41 (ridx_main_v42 (ix2 r c) k) = ix2 c k := fun k =>
    funext fun a => by match a with | ⟨0, _⟩ => rfl | ⟨1, _⟩ => rfl
  simp only [e, val_main_v41_apply, e', v29_apply x0 x1 x2 hlab]
  show Ideal.div (∑ k : Fin 256, Zs x0 x1 r k * Cert.Spec.mu (A0 x0) (A0 x1) (L0 x2) c k) (Cert.Spec.lit 0x3F800000#32) = _
  rw [Cert.Spec.div_lit_one]
  rfl

/-- Row r's log probability of its own class. -/
theorem v51_apply (hlab : ∀ i : Fin 65536, (L0 x2 i).toNat < 256) (r : Fin 131072) :
    val_main_v51 (F := Ideal) x0 x1 x2 (ix1 r) = Cert.Spec.rowLP (Cert.Spec.mu (A0 x0) (A0 x1) (L0 x2)) (Zs x0 x1 r) (Cert.Spec.cls (Ls x2 r)) := by
  rw [val_main_v51_apply, val_main_v50_apply, val_main_v49_apply, val_main_cst_11_apply, v40_apply x0 x1 x2 hlab]
  have e : ∀ k : Fin 256, idx_main_v49 (ix1 r) k = ix2 r k := fun k =>
    funext fun a => by match a with | ⟨0, _⟩ => rfl | ⟨1, _⟩ => rfl
  have e' : ∀ k : Fin 256, idx_main_v45 (idx_main_v46 (ix2 r k)) = ix1 r := fun k =>
    funext fun a => by match a with | ⟨0, _⟩ => rfl
  simp only [e, val_main_v48_apply, val_main_v47_apply, val_main_v46_apply, val_main_v45_apply, e',
    v44_apply x0 x1 x2 hlab, v40_apply x0 x1 x2 hlab]
  show _ - Ideal.log (Cert.Spec.lit 0x00000000#32 + ∑ c : Fin 256, Ideal.exp (Cert.Spec.sim (Cert.Spec.mu (A0 x0) (A0 x1) (L0 x2)) (Zs x0 x1 r) c
    - Cert.Spec.sim (Cert.Spec.mu (A0 x0) (A0 x1) (L0 x2)) (Zs x0 x1 r) (Cert.Spec.cls (Ls x2 r)))) = _
  rw [Cert.Spec.lit_zero, zero_add]
  rfl

/-! ## The mean over the stacked rows -/

/-- The sum of the rows' log probabilities, view by view. -/
theorem v52_apply (hlab : ∀ i : Fin 65536, (L0 x2 i).toNat < 256) (i : S_.Idx) :
    val_main_v52 (F := Ideal) x0 x1 x2 i
      = (∑ i : Fin 65536, Cert.Spec.rowLP (Cert.Spec.mu (A0 x0) (A0 x1) (L0 x2)) (Cert.Spec.zn (A0 x0 i)) (Cert.Spec.cls (L0 x2 i)))
        + ∑ i : Fin 65536, Cert.Spec.rowLP (Cert.Spec.mu (A0 x0) (A0 x1) (L0 x2)) (Cert.Spec.zn (A0 x1 i)) (Cert.Spec.cls (L0 x2 i)) := by
  rw [val_main_v52_apply, val_main_cst_12_apply, sum_idx1, Cert.Spec.sum_stacked]
  simp only [v51_apply x0 x1 x2 hlab]
  show Cert.Spec.lit 0x00000000#32
      + ((∑ i : Fin 65536, Cert.Spec.rowLP (Cert.Spec.mu (A0 x0) (A0 x1) (L0 x2)) (Zs x0 x1 (lo i)) (Cert.Spec.cls (Ls x2 (lo i))))
        + ∑ i : Fin 65536, Cert.Spec.rowLP (Cert.Spec.mu (A0 x0) (A0 x1) (L0 x2)) (Zs x0 x1 (hi i)) (Cert.Spec.cls (Ls x2 (hi i)))) = _
  simp only [Zs_lo, Zs_hi, Ls_lo, Ls_hi]
  rw [Cert.Spec.lit_zero, zero_add]

/-- Labels in range: the reference's last stage is the common value. -/
theorem ref_value (x0 x1 : (⟨S65536x256, .f32⟩ : BufTy).Contents (Elt Ideal)) (x2 : (⟨S65536, .i32⟩ : BufTy).Contents (Elt Ideal))
    (hlab : ∀ i : Fin 65536, ((x2 : IVec S65536 32) (ValueIdx.ix1 i)).toNat < 256) :
    val_main_v54 (F := Ideal) x0 x1 x2 = fun _ => Cert.Spec.result (fun i d => (x0 : FVec Ideal S65536x256 .f32) (ValueIdx.ix2 i d))
      (fun i d => (x1 : FVec Ideal S65536x256 .f32) (ValueIdx.ix2 i d)) (fun i => (x2 : IVec S65536 32) (ValueIdx.ix1 i)) := by
  funext i
  rw [val_main_v54_apply, val_main_v53_apply, v52_apply x0 x1 x2 hlab, val_main_cst_13_apply]
  rfl

end Cert.ReferenceIdeal.RefValue

end
-- ==== Proof.PreRange.lean ====
/-
  The precondition read back: where it holds, every label word is a class number, 0 ≤ label < 256.
-/
import proofs.«413172_j20023137534376_3_alg».proof.Pre_finite_inputs
import proofs.«413172_j20023137534376_3_alg».proof.Proof.Gen.Pre_finite_inputs
import Idealize.ShloMosaic.Lib.ReduceAll
import Idealize.ShloMosaic.Lib.StableHlo.Predicate
import Idealize.ShloMosaic.Lib.ValueIdx

noncomputable section

namespace Cert.PreRange

open Idealize.ShloMosaic

variable {F : FTy → Type} [FloatOps F]

/-- A rank-0 array has one index. -/
instance : Subsingleton Cert.Pre_finite_inputs.S_.Idx := ⟨fun a b => funext fun d => d.elim0⟩

/-- A word that is at least 0 and below 256 as a signed number is below 256 as an unsigned one: were its top bit
    set it would read negative. -/
theorem toNat_lt_of_signed (w : BitVec 32) (h0 : (0#32 : BitVec 32).toInt ≤ w.toInt) (h1 : w.toInt < (256#32 : BitVec 32).toInt) :
    w.toNat < 256 := by
  have e0 : (0#32 : BitVec 32).toInt = 0 := by decide
  have e1 : (256#32 : BitVec 32).toInt = 256 := by decide
  have hw := w.isLt
  rw [e0] at h0
  rw [e1] at h1
  rw [BitVec.toInt_eq_toNat_cond] at h0 h1
  split_ifs at h0 h1 <;> omega

/-- The precondition's label conjuncts, read back at a row. -/
theorem lab_lt_of_pre [hP : Cert.Pre_finite_inputs.Facts] (a0 a1 : FVec F Cert.Pre_finite_inputs.S65536x256 .f32) (a2 : IVec Cert.Pre_finite_inputs.S65536 32)
    (h : Cert.Pre_finite_inputs.fn (F := F) a0 a1 a2 = fun _ => 1#1) (i : Fin 65536) : (a2 (ValueIdx.ix1 i)).toNat < 256 := by
  -- the predicate's one entry is a conjunction of four tests, the last two on the labels
  have e := congrFun h ValueIdx.ix0
  dsimp only [Cert.Pre_finite_inputs.fn, Cert.Pre_finite_inputs.fn_part1] at e
  obtain ⟨e12, e4⟩ := IntOp.andi_eq_one.1 e
  obtain ⟨-, e3⟩ := IntOp.andi_eq_one.1 e12
  -- each label test holds at every row, so at row i
  have g3 := Host.reduce_andi_all _ _ _ _ _ e3 (ValueIdx.ix1 i)
  have g4 := Host.reduce_andi_all _ _ _ _ _ e4 (ValueIdx.ix1 i)
  -- the two compares at row i are against the constants 0 and 256
  have k3 : IntOp.cmpi .sge (a2 (ValueIdx.ix1 i)) (0#32) = 1#1 := g3
  have k4 : IntOp.cmpi .slt (a2 (ValueIdx.ix1 i)) (256#32) = 1#1 := g4
  exact toNat_lt_of_signed _ (IntOp.cmpi_sge.1 k3) (IntOp.cmpi_slt.1 k4)

end Cert.PreRange

end
-- ==== Proof.lean ====
/-
  The certificate's claims.  Both printed kernel programs run (the launch over their three host stretches and two
  regions, each region's accumulators carried from tile to tile) and leave the argument arrays as launched; the
  reference runs by its host operations one after the other.  At the extended reals, where the labels are class
  numbers (0 ≤ label < 256, the precondition's last two conjuncts), both results are one function of the three argument
  arrays: minus the mean, over the rows of both views, of a row's log probability of its own class under the class
  means of the normalised rows.  The kernel reaches it by per-core, per-tile partial sums (one-hot products for the
  class sums, a masked row sum for the own-class similarity); the reference by an accumulating scatter over the two
  views stacked and a gather of each row's class mean.  The ideal pass rewrote nothing, so `preserves` is trivial.
-/
import proofs.«413172_j20023137534376_3_alg».proof.Defs
import proofs.«413172_j20023137534376_3_alg».proof.Proof.Gen.Kernel
import proofs.«413172_j20023137534376_3_alg».proof.Proof.Gen.KernelIdeal
import proofs.«413172_j20023137534376_3_alg».proof.Proof.Gen.ReferenceIdeal
import proofs.«413172_j20023137534376_3_alg».proof.Proof.Gen.Pre_finite_inputs
import proofs.«413172_j20023137534376_3_alg».proof.Proof.Gen.ReferenceIdeal.Run
import proofs.«413172_j20023137534376_3_alg».proof.Proof.Gen.ReferenceIdeal.Read
import proofs.«413172_j20023137534376_3_alg».proof.Proof.K.Run
import proofs.«413172_j20023137534376_3_alg».proof.Proof.KI.Run
import proofs.«413172_j20023137534376_3_alg».proof.Proof.KI.Assemble
import proofs.«413172_j20023137534376_3_alg».proof.Proof.RefValue
import proofs.«413172_j20023137534376_3_alg».proof.Proof.PreRange

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame m ρ

/-- The idealized kernel program runs and keeps its arguments. -/
theorem frame_ki : Cert.frame_KernelIdeal := fun m ρ _ => Cert.KernelIdeal.Hand.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The precondition's label conjuncts at the kernel's launch memory: every label word is a class number. -/
theorem lab_lt (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 65536) :
    (Cert.KernelIdeal.Hand.labOf m c i).toNat < 256 :=
  Cert.PreRange.lab_lt_of_pre (F := Ideal) _ _ _ (hpre c) i

/-- From memories agreeing on the arguments both idealized programs end with the common value. -/
theorem algebraic : Cert.algebraic_KernelIdeal_ReferenceIdeal := by
  intro m ρ m' ρ' hpre hagree
  refine ⟨fun c => Cert.KernelIdeal.Hand.W5 m c Cert.KernelIdeal.main_v13, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2]
  exact (Cert.ReferenceIdeal.RefValue.ref_value _ _ _ (lab_lt m hpre c)).trans
    (Cert.KernelIdeal.Hand.kernel_value m c (lab_lt m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
